-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : IVec S32x1024x1024 32) : IVec S_ 1 :=
  let main_c : IVec S_ 32 := constantI S_ 32 0#32
  let main_v0 : IVec S32x1024x1024 32 := broadcastInDim S32x1024x1024 ![] bcast_S_S32x1024x1024 main_c
  let main_v1 : IVec S32x1024x1024 1 := cmpi .sge main_arg0 main_v0
  let main_c_0 : IVec S_ 32 := constantI S_ 32 2048#32
  let main_v2 : IVec S32x1024x1024 32 := broadcastInDim S32x1024x1024 ![] bcast_S_S32x1024x1024 main_c_0
  let main_v3 : IVec S32x1024x1024 1 := cmpi .slt main_arg0 main_v2
  let main_v4 : IVec S32x1024x1024 1 := andi main_v1 main_v3
  let main_c_1 : IVec S_ 1 := constantI S_ 1 1#1
  let main_v5 : IVec S_ 1 := (fun x v => Host.reduce IntOp.andi x v reducesTo_S32x1024x1024_S_d0_1_2 h_S_) main_v4 main_c_1
  main_v5
-- ==== Kernel.lean ====
abbrev S32x1024x1024 : Shape := ⟨3, ![32, 1024, 1024]⟩
abbrev S32768x1024 : Shape := ⟨2, ![32768, 1024]⟩
abbrev S2x16x128 : Shape := ⟨3, ![2, 16, 128]⟩
abbrev S128x1024 : Shape := ⟨2, ![128, 1024]⟩
abbrev S1x16x128 : Shape := ⟨3, ![1, 16, 128]⟩
abbrev S16x128 : Shape := ⟨2, ![16, 128]⟩
abbrev S16x1024 : Shape := ⟨2, ![16, 1024]⟩
abbrev S16384 : Shape := ⟨1, ![16384]⟩
abbrev S16x1 : Shape := ⟨2, ![16, 1]⟩
abbrev S1x128 : Shape := ⟨2, ![1, 128]⟩
abbrev S1x16384 : Shape := ⟨2, ![1, 16384]⟩
abbrev S16x16384 : Shape := ⟨2, ![16, 16384]⟩
abbrev S16384x1 : Shape := ⟨2, ![16384, 1]⟩
abbrev S16384x128 : Shape := ⟨2, ![16384, 128]⟩
abbrev S_ : Shape := ⟨0, ![]⟩
abbrev S2048 : Shape := ⟨1, ![2048]⟩
abbrev S256x1024 : Shape := ⟨2, ![256, 1024]⟩
abbrev S128x1 : Shape := ⟨2, ![128, 1]⟩
abbrev S128x16384 : Shape := ⟨2, ![128, 16384]⟩

abbrev nBuf : Space → Nat
  | .hbm => 26
  | .vmem => 10
  | .smem => 0
  | _ => 0

abbrev bufTy : (tb : Table) → Fin (tcTables nBuf tb) → BufTy
  | .hbm, ⟨0, _⟩ => ⟨S32x1024x1024, .i32⟩
  | .hbm, ⟨1, _⟩ => ⟨S32768x1024, .i32⟩
  | .hbm, ⟨2, _⟩ => ⟨S2x16x128, .f32⟩
  | .hbm, ⟨3, _⟩ => ⟨S_, .f32⟩
  | .hbm, ⟨4, _⟩ => ⟨S16x128, .f32⟩
  | .hbm, ⟨5, _⟩ => ⟨S2048, .f32⟩
  | .hbm, ⟨6, _⟩ => ⟨S2048, .i32⟩
  | .hbm, ⟨7, _⟩ => ⟨S2048, .i32⟩
  | .hbm, ⟨8, _⟩ => ⟨S_, .i1⟩
  | .hbm, ⟨9, _⟩ => ⟨S2048, .i1⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S2048, .f32⟩
  | .hbm, ⟨23, _⟩ => ⟨S16x128, .f32⟩
  | .hbm, ⟨24, _⟩ => ⟨S32768x1024, .i32⟩
  | .hbm, ⟨25, _⟩ => ⟨S32x1024x1024, .i32⟩
  | .local _ .vmem, ⟨0, _⟩ => ⟨S128x1024, .i32⟩
  | .local _ .vmem, ⟨1, _⟩ => ⟨S128x1024, .i32⟩
  | .local _ .vmem, ⟨2, _⟩ => ⟨S1x16x128, .f32⟩
  | .local _ .vmem, ⟨3, _⟩ => ⟨S1x16x128, .f32⟩
  | .local _ .vmem, ⟨4, _⟩ => ⟨S16x128, .f32⟩
  | .local _ .vmem, ⟨5, _⟩ => ⟨S256x1024, .i32⟩
  | .local _ .vmem, ⟨6, _⟩ => ⟨S256x1024, .i32⟩
  | .local _ .vmem, ⟨7, _⟩ => ⟨S16x128, .f32⟩
  | .local _ .vmem, ⟨8, _⟩ => ⟨S256x1024, .i32⟩
  | .local _ .vmem, ⟨9, _⟩ => ⟨S256x1024, .i32⟩
  | _, _ => ⟨S32x1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32x1024x1024_S32768x1024 : S32x1024x1024.ShapeCasts S32768x1024
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128x1024_S16x1024_0_0 : ∀ a, (![0, 0] : Fin 2 → Nat) a + S16x1024.size a ≤ S128x1024.size a
  h_S16x1024 : 0 < S16x1024.numel
  shapeCasts_S16x1024_S16x1024 : S16x1024.ShapeCasts S16x1024
  shapeCasts_S16x1024_S16384 : S16x1024.ShapeCasts S16384
  iota_S16x1_d0_w32 : S16x1.Iotas .tc 32 [0]
  iota_S1x128_d1_w32 : S1x128.Iotas .tc 32 [1]
  shapeCasts_S16384_S1x16384 : S16384.ShapeCasts S1x16384
  broadcasts_S16x1_S16x16384 : S16x1.Broadcasts S16x16384
  broadcasts_S1x16384_S16x16384 : S1x16384.Broadcasts S16x16384
  natLt_1_32 : 1 < 32
  bitsLt_bf16_f32 : FTy.bits .bf16 < FTy.bits .f32
  shapeCasts_S16384_S16384x1 : S16384.ShapeCasts S16384x1
  broadcasts_S16384x1_S16384x128 : S16384x1.Broadcasts S16384x128
  broadcasts_S1x128_S16384x128 : S1x128.Broadcasts S16384x128
  inb_S128x1024_S16x1024_16_0 : ∀ a, (![16, 0] : Fin 2 → Nat) a + S16x1024.size a ≤ S128x1024.size a
  inb_S128x1024_S16x1024_32_0 : ∀ a, (![32, 0] : Fin 2 → Nat) a + S16x1024.size a ≤ S128x1024.size a
  inb_S128x1024_S16x1024_48_0 : ∀ a, (![48, 0] : Fin 2 → Nat) a + S16x1024.size a ≤ S128x1024.size a
  inb_S128x1024_S16x1024_64_0 : ∀ a, (![64, 0] : Fin 2 → Nat) a + S16x1024.size a ≤ S128x1024.size a
  inb_S128x1024_S16x1024_80_0 : ∀ a, (![80, 0] : Fin 2 → Nat) a + S16x1024.size a ≤ S128x1024.size a
  inb_S128x1024_S16x1024_96_0 : ∀ a, (![96, 0] : Fin 2 → Nat) a + S16x1024.size a ≤ S128x1024.size a
  inb_S128x1024_S16x1024_112_0 : ∀ a, (![112, 0] : Fin 2 → Nat) a + S16x1024.size a ≤ S128x1024.size a
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  reducesTo_S2x16x128_S16x128_d0 : S2x16x128.ReducesTo [0] S16x128
  h_S_ : 0 < S_.numel
  shapeCasts_S16x128_S2048 : S16x128.ShapeCasts S2048
  bcast_S_S2048 : S_.BroadcastsInDim S2048 (![] : Fin 0 → Fin S2048.rank)
  shapeCasts_S2048_S16x128 : S2048.ShapeCasts S16x128
  inb_S256x1024_S16x1024_0_0 : ∀ a, (![0, 0] : Fin 2 → Nat) a + S16x1024.size a ≤ S256x1024.size a
  iota_S128x1_d0_w32 : S128x1.Iotas .tc 32 [0]
  broadcasts_S128x1_S128x16384 : S128x1.Broadcasts S128x16384
  broadcasts_S1x16384_S128x16384 : S1x16384.Broadcasts S128x16384
  reduces_S128x16384_S16384 : S128x16384.Reduces [0] S16384
  shapeCasts_S16384_S16x1024 : S16384.ShapeCasts S16x1024
  inb_S256x1024_S16x1024_16_0 : ∀ a, (![16, 0] : Fin 2 → Nat) a + S16x1024.size a ≤ S256x1024.size a
  inb_S256x1024_S16x1024_32_0 : ∀ a, (![32, 0] : Fin 2 → Nat) a + S16x1024.size a ≤ S256x1024.size a
  inb_S256x1024_S16x1024_48_0 : ∀ a, (![48, 0] : Fin 2 → Nat) a + S16x1024.size a ≤ S256x1024.size a
  inb_S256x1024_S16x1024_64_0 : ∀ a, (![64, 0] : Fin 2 → Nat) a + S16x1024.size a ≤ S256x1024.size a
  inb_S256x1024_S16x1024_80_0 : ∀ a, (![80, 0] : Fin 2 → Nat) a + S16x1024.size a ≤ S256x1024.size a
  inb_S256x1024_S16x1024_96_0 : ∀ a, (![96, 0] : Fin 2 → Nat) a + S16x1024.size a ≤ S256x1024.size a
  inb_S256x1024_S16x1024_112_0 : ∀ a, (![112, 0] : Fin 2 → Nat) a + S16x1024.size a ≤ S256x1024.size a
  inb_S256x1024_S16x1024_128_0 : ∀ a, (![128, 0] : Fin 2 → Nat) a + S16x1024.size a ≤ S256x1024.size a
  inb_S256x1024_S16x1024_144_0 : ∀ a, (![144, 0] : Fin 2 → Nat) a + S16x1024.size a ≤ S256x1024.size a
  inb_S256x1024_S16x1024_160_0 : ∀ a, (![160, 0] : Fin 2 → Nat) a + S16x1024.size a ≤ S256x1024.size a
  inb_S256x1024_S16x1024_176_0 : ∀ a, (![176, 0] : Fin 2 → Nat) a + S16x1024.size a ≤ S256x1024.size a
  inb_S256x1024_S16x1024_192_0 : ∀ a, (![192, 0] : Fin 2 → Nat) a + S16x1024.size a ≤ S256x1024.size a
  inb_S256x1024_S16x1024_208_0 : ∀ a, (![208, 0] : Fin 2 → Nat) a + S16x1024.size a ≤ S256x1024.size a
  inb_S256x1024_S16x1024_224_0 : ∀ a, (![224, 0] : Fin 2 → Nat) a + S16x1024.size a ≤ S256x1024.size a
  inb_S256x1024_S16x1024_240_0 : ∀ a, (![240, 0] : Fin 2 → Nat) a + S16x1024.size a ≤ S256x1024.size a
  shapeCasts_S32768x1024_S32x1024x1024 : S32768x1024.ShapeCasts S32x1024x1024
  dot_S16x16384_S16384x128_S16x128_1_0_0_1_n_n_wf : DotDims.WF S16x16384 S16384x128 S16x128 [1] [0] [0] [1] [] []
  dot_S16x128_S16x16384_S128x16384_0_0_1_1_n_n_wf : DotDims.WF S16x128 S16x16384 S128x16384 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S32768x1024.size a
  hwx0_0 : ∀ i : grid0.Coords, EltTy.bits .i32 = 32 ∨ (Rect.block (s := S32768x1024) S128x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128.size a ≤ S2x16x128.size a
  hwx0_1 : ∀ i : grid0.Coords, EltTy.bits .f32 = 32 ∨ (Rect.block (s := S2x16x128) S1x16x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S32768x1024.size a
  hwx1_0 : ∀ i : grid1.Coords, EltTy.bits .i32 = 32 ∨ (Rect.block (s := S32768x1024) S256x1024.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S32768x1024.size a
  hwx1_2 : ∀ i : grid1.Coords, EltTy.bits .i32 = 32 ∨ (Rect.block (s := S32768x1024) S256x1024.size (cc1_transform_2 i) (hinb1_2 i)).WholeWords (EltTy.packing .i32)

variable [Facts₀]

def dot_S16x16384_S16384x128_S16x128_1_0_0_1_n_n : DotDims S16x16384 S16384x128 S16x128 where
  lhsContracting := [1]
  rhsContracting := [0]
  lhsNonContracting := [0]
  rhsNonContracting := [1]
  lhsBatch := []
  rhsBatch := []
  wf := dot_S16x16384_S16384x128_S16x128_1_0_0_1_n_n_wf
def dot_S16x128_S16x16384_S128x16384_0_0_1_1_n_n : DotDims S16x128 S16x16384 S128x16384 where
  lhsContracting := [0]
  rhsContracting := [0]
  lhsNonContracting := [1]
  rhsNonContracting := [1]
  lhsBatch := []
  rhsBatch := []
  wf := dot_S16x128_S16x16384_S128x16384_0_0_1_1_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x1024x1024 : Shape := ⟨3, ![32, 1024, 1024]⟩
abbrev S33554432 : Shape := ⟨1, ![33554432]⟩
abbrev S_ : Shape := ⟨0, ![]⟩
abbrev S2048 : Shape := ⟨1, ![2048]⟩
abbrev S33554432x1 : Shape := ⟨2, ![33554432, 1]⟩
abbrev S32x1024x1024x1 : Shape := ⟨4, ![32, 1024, 1024, 1]⟩

abbrev nBuf : Space → Nat
  | .hbm => 46
  | .vmem => 0
  | .smem => 0
  | _ => 0

abbrev bufTy : (tb : Table) → Fin (tcTables nBuf tb) → BufTy
  | .hbm, ⟨0, _⟩ => ⟨S32x1024x1024, .i32⟩
  | .hbm, ⟨1, _⟩ => ⟨S33554432, .i32⟩
  | .hbm, ⟨2, _⟩ => ⟨S_, .i32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S33554432, .i32⟩
  | .hbm, ⟨7, _⟩ => ⟨S33554432, .i32⟩
  | .hbm, ⟨8, _⟩ => ⟨S_, .i32⟩
  | .hbm, ⟨9, _⟩ => ⟨S33554432, .i32⟩
  | .hbm, ⟨10, _⟩ => ⟨S33554432, .i1⟩
  | .hbm, ⟨11, _⟩ => ⟨S_, .i32⟩
  | .hbm, ⟨12, _⟩ => ⟨S33554432, .i32⟩
  | .hbm, ⟨13, _⟩ => ⟨S33554432, .i32⟩
  | .hbm, ⟨14, _⟩ => ⟨S33554432, .i32⟩
  | .hbm, ⟨15, _⟩ => ⟨S33554432x1, .i32⟩
  | .hbm, ⟨16, _⟩ => ⟨S_, .i32⟩
  | .hbm, ⟨17, _⟩ => ⟨S33554432, .i32⟩
  | .hbm, ⟨18, _⟩ => ⟨S2048, .i32⟩
  | .hbm, ⟨19, _⟩ => ⟨S2048, .i32⟩
  | .hbm, ⟨20, _⟩ => ⟨S_, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S32x1024x1024, .i32⟩
  | .hbm, ⟨39, _⟩ => ⟨S32x1024x1024, .i1⟩
  | .hbm, ⟨40, _⟩ => ⟨S_, .i32⟩
  | .hbm, ⟨41, _⟩ => ⟨S32x1024x1024, .i32⟩
  | .hbm, ⟨42, _⟩ => ⟨S32x1024x1024, .i32⟩
  | .hbm, ⟨43, _⟩ => ⟨S32x1024x1024, .i32⟩
  | .hbm, ⟨44, _⟩ => ⟨S32x1024x1024x1, .i32⟩
  | .hbm, ⟨45, _⟩ => ⟨S32x1024x1024, .i32⟩
  | _, _ => ⟨S32x1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_4 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_8 : Ref sig .tc := ⟨.hbm, 34, rfl⟩
abbrev main_call1_v0 : Ref sig .tc := ⟨.hbm, 35, rfl⟩
abbrev main_v22 : Ref sig .tc := ⟨.hbm, 36, rfl⟩
abbrev main_c_9 : Ref sig .tc := ⟨.hbm, 37, rfl⟩
abbrev main_v23 : Ref sig .tc := ⟨.hbm, 38, rfl⟩
abbrev main_v24 : Ref sig .tc := ⟨.hbm, 39, rfl⟩
abbrev main_c_10 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  shapeCasts_S32x1024x1024_S33554432 : S32x1024x1024.ShapeCasts S33554432
  bcast_S_S2048 : S_.BroadcastsInDim S2048 (![] : Fin 0 → Fin S2048.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  bcast_S_S32x1024x1024 : S_.BroadcastsInDim S32x1024x1024 (![] : Fin 0 → Fin S32x1024x1024.rank)
  bcast_S32x1024x1024_S32x1024x1024x1_0_1_2 : S32x1024x1024.BroadcastsInDim S32x1024x1024x1 (![0, 1, 2] : Fin 3 → Fin S32x1024x1024x1.rank)
  scatter_S2048_S33554432x1_S33554432_n_0_0_1_wf : ScatterDims.WF S2048 S33554432x1 S33554432 [] [0] [0] 1
  gather_S2048_S32x1024x1024x1_S32x1024x1024_n_0_n_n_0_3_1_wf : GatherDims.WF S2048 S32x1024x1024x1 S32x1024x1024 [] [0] [] [0] [] 3 ![1]

variable [Facts₀]

def scatter_S2048_S33554432x1_S33554432_n_0_0_1 : ScatterDims S2048 S33554432x1 S33554432 where
  updateWindowDims := []
  insertedWindowDims := [0]
  scatterDimsToOperandDims := [0]
  indexVectorDim := 1
  wf := scatter_S2048_S33554432x1_S33554432_n_0_0_1_wf
def gather_S2048_S32x1024x1024x1_S32x1024x1024_n_0_n_n_0_3_1 : GatherDims S2048 S32x1024x1024x1 S32x1024x1024 where
  offsetDims := []
  collapsedSliceDims := [0]
  operandBatchingDims := []
  startIndicesBatchingDims := []
  startIndexMap := [0]
  indexVectorDim := 3
  sliceSizes := ![1]
  wf := gather_S2048_S32x1024x1024x1_S32x1024x1024_n_0_n_n_0_3_1_wf

class Facts : Prop extends Facts₀ where

variable [Facts]
-- ==== Proof.K.Blocks.lean ====
/-
  What one grid point of each kernel computes, as pure functions of the blocks it is handed.

  The histogram kernel, at one point, is handed a block of 128 rows × 1024 pixels and its running
  accumulator (16 × 128 counters, one per label hi·128 + lo).  It reads the block as 8 chunks of 16 rows;
  for each chunk it forms the one-hot matrix of the pixels' high parts (16 × 16384) and of their low parts
  (16384 × 128) and multiplies them, which counts, per (hi, lo), the chunk's pixels of that label; the eight
  products are summed and added to the accumulator (`histStep`).  At the first point of a core's rows the
  accumulator is first cleared (`histZero`); the output block is the accumulator given a unit leading axis
  (`histOut`).

  The remap kernel, at one point, is handed a block of 256 rows × 1024 pixels and the 16 × 128 table of
  dropped labels; it writes the block back 16 rows at a time (`remapBlock`: the sixteen stored chunks laid
  over the block), each chunk being the pixels with those of a dropped label replaced by 0.
-/
import proofs.«413439_j36876589203620_2_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-! ## The histogram kernel -/

/-- The whole accumulator, and the whole output block. -/
abbrev rAcc : Rect S16x128 := Rect.unit (s := S16x128) ![0, 0] S16x128.size inb_S16x128_S16x128_0_0
abbrev rHist : Rect S1x16x128 := Rect.unit (s := S1x16x128) ![0, 0, 0] S1x16x128.size inb_S1x16x128_S1x16x128_0_0_0

/-- Rows 16k … 16k+15 of the 128-row block, k = 0 … 7. -/
abbrev rH0 : Rect S128x1024 := Rect.unit (s := S128x1024) ![0, 0] S16x1024.size inb_S128x1024_S16x1024_0_0
abbrev rH1 : Rect S128x1024 := Rect.unit (s := S128x1024) ![16, 0] S16x1024.size inb_S128x1024_S16x1024_16_0
abbrev rH2 : Rect S128x1024 := Rect.unit (s := S128x1024) ![32, 0] S16x1024.size inb_S128x1024_S16x1024_32_0
abbrev rH3 : Rect S128x1024 := Rect.unit (s := S128x1024) ![48, 0] S16x1024.size inb_S128x1024_S16x1024_48_0
abbrev rH4 : Rect S128x1024 := Rect.unit (s := S128x1024) ![64, 0] S16x1024.size inb_S128x1024_S16x1024_64_0
abbrev rH5 : Rect S128x1024 := Rect.unit (s := S128x1024) ![80, 0] S16x1024.size inb_S128x1024_S16x1024_80_0
abbrev rH6 : Rect S128x1024 := Rect.unit (s := S128x1024) ![96, 0] S16x1024.size inb_S128x1024_S16x1024_96_0
abbrev rH7 : Rect S128x1024 := Rect.unit (s := S128x1024) ![112, 0] S16x1024.size inb_S128x1024_S16x1024_112_0

/-- The lane index 0 … 127 along the low-part axis. -/
abbrev laneIota : IVec S1x128 32 := iota .tc S1x128 32 [1] iota_S1x128_d1_w32

/-- The sum of the first seven chunks' one-hot products (the eighth is added with the accumulator). -/
def histPart (x : Vec F S128x1024 .i32) : FVec F S16x128 .f32 :=
  k0_pay16
    (k0_pay12
      (k0_pay8 (k0_pay4 (View.ld x rH0)) (k0_pay6 (View.ld x rH1)) laneIota (k0_pay7 (View.ld x rH1)) (View.ld x rH2))
      (k0_pay10 (View.ld x rH3)) laneIota (k0_pay11 (View.ld x rH3)) (View.ld x rH4))
    (k0_pay14 (View.ld x rH5)) laneIota (k0_pay15 (View.ld x rH5)) (View.ld x rH6)

/-- The accumulator after the point: what it held plus the block's eight one-hot products. -/
def histStep (x : Vec F S128x1024 .i32) (s : Vec F S16x128 .f32) : Vec F S16x128 .f32 :=
  k0_pay1 (histPart x) (k0_pay18 (View.ld x rH7)) laneIota (k0_pay19 (View.ld x rH7)) s

/-- The cleared accumulator. -/
def histZero : Vec F S16x128 .f32 := k0_pay3

/-- The output block: the accumulator with a unit leading axis. -/
def histOut (a : Vec F S16x128 .f32) : Vec F S1x16x128 .f32 := k0_pay2 a

/-! ## The remap kernel -/

/-- The whole table block. -/
abbrev rTab : Rect S16x128 := Rect.unit (s := S16x128) ![0, 0] S16x128.size inb_S16x128_S16x128_0_0

/-- Rows 16k … 16k+15 of the 256-row block, k = 0 … 15. -/
abbrev rR0 : Rect S256x1024 := Rect.unit (s := S256x1024) ![0, 0] S16x1024.size inb_S256x1024_S16x1024_0_0
abbrev rR1 : Rect S256x1024 := Rect.unit (s := S256x1024) ![16, 0] S16x1024.size inb_S256x1024_S16x1024_16_0
abbrev rR2 : Rect S256x1024 := Rect.unit (s := S256x1024) ![32, 0] S16x1024.size inb_S256x1024_S16x1024_32_0
abbrev rR3 : Rect S256x1024 := Rect.unit (s := S256x1024) ![48, 0] S16x1024.size inb_S256x1024_S16x1024_48_0
abbrev rR4 : Rect S256x1024 := Rect.unit (s := S256x1024) ![64, 0] S16x1024.size inb_S256x1024_S16x1024_64_0
abbrev rR5 : Rect S256x1024 := Rect.unit (s := S256x1024) ![80, 0] S16x1024.size inb_S256x1024_S16x1024_80_0
abbrev rR6 : Rect S256x1024 := Rect.unit (s := S256x1024) ![96, 0] S16x1024.size inb_S256x1024_S16x1024_96_0
abbrev rR7 : Rect S256x1024 := Rect.unit (s := S256x1024) ![112, 0] S16x1024.size inb_S256x1024_S16x1024_112_0
abbrev rR8 : Rect S256x1024 := Rect.unit (s := S256x1024) ![128, 0] S16x1024.size inb_S256x1024_S16x1024_128_0
abbrev rR9 : Rect S256x1024 := Rect.unit (s := S256x1024) ![144, 0] S16x1024.size inb_S256x1024_S16x1024_144_0
abbrev rR10 : Rect S256x1024 := Rect.unit (s := S256x1024) ![160, 0] S16x1024.size inb_S256x1024_S16x1024_160_0
abbrev rR11 : Rect S256x1024 := Rect.unit (s := S256x1024) ![176, 0] S16x1024.size inb_S256x1024_S16x1024_176_0
abbrev rR12 : Rect S256x1024 := Rect.unit (s := S256x1024) ![192, 0] S16x1024.size inb_S256x1024_S16x1024_192_0
abbrev rR13 : Rect S256x1024 := Rect.unit (s := S256x1024) ![208, 0] S16x1024.size inb_S256x1024_S16x1024_208_0
abbrev rR14 : Rect S256x1024 := Rect.unit (s := S256x1024) ![224, 0] S16x1024.size inb_S256x1024_S16x1024_224_0
abbrev rR15 : Rect S256x1024 := Rect.unit (s := S256x1024) ![240, 0] S16x1024.size inb_S256x1024_S16x1024_240_0

/-- The row index 0 … 15 along the high-part axis, and 0 … 127 along the low-part axis (as columns). -/
abbrev rowIota16 : IVec S16x1 32 := iota .tc S16x1 32 [0] iota_S16x1_d0_w32
abbrev rowIota128 : IVec S128x1 32 := iota .tc S128x1 32 [0] iota_S128x1_d0_w32

/-- The table in the matrix unit's operand format. -/
abbrev tabB (y : Vec F S16x128 .f32) : FVec F S16x128 .bf16 := k1_pay2 (View.ld y rTab)

/-- The sixteen stored chunks, each from the table and its own 16 rows of the block. -/
def remapC0 (x : Vec F S256x1024 .i32) (y : Vec F S16x128 .f32) : IVec S16x1024 32 := k1_pay3 (View.ld y rTab) (View.ld x rR0)
def remapC1 (x : Vec F S256x1024 .i32) (y : Vec F S16x128 .f32) : IVec S16x1024 32 :=
  k1_pay7 (tabB y) (k1_pay4 (View.ld x rR1)) (k1_pay5 (View.ld x rR1)) (k1_pay6 (View.ld x rR1)) rowIota16
def remapC2 (x : Vec F S256x1024 .i32) (y : Vec F S16x128 .f32) : IVec S16x1024 32 :=
  k1_pay10 (k1_pay8 (View.ld x rR2)) (k1_pay9 (tabB y) (View.ld x rR2))
def remapC3 (x : Vec F S256x1024 .i32) (y : Vec F S16x128 .f32) : IVec S16x1024 32 := k1_pay11 (tabB y) (View.ld x rR3)
def remapC4 (x : Vec F S256x1024 .i32) (y : Vec F S16x128 .f32) : IVec S16x1024 32 :=
  k1_pay13 (tabB y) (k1_pay12 (View.ld x rR4)) 7#32
def remapC5 (x : Vec F S256x1024 .i32) (y : Vec F S16x128 .f32) : IVec S16x1024 32 :=
  k1_pay17 (tabB y) (k1_pay14 (View.ld x rR5)) (k1_pay15 (View.ld x rR5)) (k1_pay16 (View.ld x rR5))
def remapC6 (x : Vec F S256x1024 .i32) (y : Vec F S16x128 .f32) : IVec S16x1024 32 := k1_pay18 (tabB y) (View.ld x rR6)
def remapC7 (x : Vec F S256x1024 .i32) (y : Vec F S16x128 .f32) : IVec S16x1024 32 := k1_pay19 (tabB y) (View.ld x rR7)
def remapC8 (x : Vec F S256x1024 .i32) (y : Vec F S16x128 .f32) : IVec S16x1024 32 :=
  k1_pay23 (tabB y) (k1_pay20 (View.ld x rR8)) (k1_pay21 (View.ld x rR8)) rowIota128 (k1_pay22 (View.ld x rR8))
def remapC9 (x : Vec F S256x1024 .i32) (y : Vec F S16x128 .f32) : IVec S16x1024 32 :=
  k1_pay27 (k1_pay24 (View.ld x rR9)) (k1_pay25 (tabB y) (View.ld x rR9)) k1_pay26
def remapC10 (x : Vec F S256x1024 .i32) (y : Vec F S16x128 .f32) : IVec S16x1024 32 := k1_pay28 (tabB y) (View.ld x rR10)
def remapC11 (x : Vec F S256x1024 .i32) (y : Vec F S16x128 .f32) : IVec S16x1024 32 :=
  k1_pay32 (tabB y) (k1_pay29 (View.ld x rR11)) (k1_pay30 (View.ld x rR11)) (k1_pay31 (View.ld x rR11)) rowIota16
def remapC12 (x : Vec F S256x1024 .i32) (y : Vec F S16x128 .f32) : IVec S16x1024 32 :=
  k1_pay35 (k1_pay33 (View.ld x rR12)) (k1_pay34 (tabB y) (View.ld x rR12))
def remapC13 (x : Vec F S256x1024 .i32) (y : Vec F S16x128 .f32) : IVec S16x1024 32 := k1_pay36 (tabB y) (View.ld x rR13)
def remapC14 (x : Vec F S256x1024 .i32) (y : Vec F S16x128 .f32) : IVec S16x1024 32 :=
  k1_pay38 (tabB y) (k1_pay37 (View.ld x rR14)) 7#32
def remapC15 (x : Vec F S256x1024 .i32) (y : Vec F S16x128 .f32) : IVec S16x1024 32 :=
  k1_pay1 (tabB y) (k1_pay39 (View.ld x rR15)) (k1_pay40 (View.ld x rR15)) (k1_pay41 (View.ld x rR15))

/-- The sixteen stores as pieces, the last store first. -/
def remapPieces (x : Vec F S256x1024 .i32) (y : Vec F S16x128 .f32) : List (View.Piece (Elt F) S256x1024 .i32) :=
  [⟨rR15, remapC15 x y⟩, ⟨rR14, remapC14 x y⟩, ⟨rR13, remapC13 x y⟩, ⟨rR12, remapC12 x y⟩, ⟨rR11, remapC11 x y⟩, ⟨rR10, remapC10 x y⟩,
   ⟨rR9, remapC9 x y⟩, ⟨rR8, remapC8 x y⟩, ⟨rR7, remapC7 x y⟩, ⟨rR6, remapC6 x y⟩, ⟨rR5, remapC5 x y⟩, ⟨rR4, remapC4 x y⟩,
   ⟨rR3, remapC3 x y⟩, ⟨rR2, remapC2 x y⟩, ⟨rR1, remapC1 x y⟩, ⟨rR0, remapC0 x y⟩]

/-- The output block after the point: the sixteen chunks laid over it. -/
def remapBlock (x : Vec F S256x1024 .i32) (y : Vec F S16x128 .f32) : Vec F S256x1024 .i32 :=
  View.canon (remapPieces x y)

end Cert.Kernel.Hand

end
-- ==== Proof.K.R0Body.lean ====
/-
  The histogram kernel's body as a triple, at the first point of a core's rows and at a later one.

  Handed the 128 × 1024 block `x` (read only), the output block at any contents and the accumulator, the body
  ends with the block as it was, the accumulator at `histStep x s₀` and the output block at its image `histOut`:
  at a first point (grid coordinate 1 is 0) s₀ is the cleared accumulator whatever the scratch held, at a later
  point s₀ is what the scratch held.
-/
import proofs.«413439_j36876589203620_2_alg».proof.Proof.K.Blocks
import proofs.«413439_j36876589203620_2_alg».proof.Proof.Gen.Kernel.Launch
import proofs.«413439_j36876589203620_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-buffer rectangles' offsets are all zero (rank 2, rank 3). -/
theorem hist_zeros2 : (![0, 0] : Fin S16x128.rank → Nat) = fun _ => 0 := by funext a; fin_cases a <;> rfl
theorem hist_zeros3 : (![0, 0, 0] : Fin S1x16x128.rank → Nat) = fun _ => 0 := by funext a; fin_cases a <;> rfl

/-- The body's one branch condition, from the grid coordinates: the reset of the accumulator is guarded by
    "coordinate 1 is 0", compared as a 32-bit word, widened and compared with 0 again. -/
abbrev histReset (i : grid0.Coords) : Prop :=
  (Scalar.cmpi .ne (Scalar.extui (Scalar.cmpi .eq (BitVec.ofNat 32 (i 1).val) 0#32)) 0#32) = 1#1

/-- It holds exactly at coordinate 0 of axis 1 (the axis has 128 points: no wrap in 32 bits). -/
theorem histReset_iff (i : grid0.Coords) : histReset i ↔ (i 1).val = 0 := by
  have h : ∀ k : Fin 128,
      ((Scalar.cmpi .ne (Scalar.extui (Scalar.cmpi .eq (BitVec.ofNat 32 k.val) 0#32)) 0#32) = 1#1) ↔ k.val = 0 := by
    decide +kernel
  exact h (i 1)

/-- A store through the whole-buffer rectangle, last, covers every index (accumulator; output block). -/
theorem hist_coverAcc (w : S16x128.Idx → Elt F .f32) (L : List (View.Piece (Elt F) S16x128 .f32)) (y : S16x128.Idx) :
    ∃ p ∈ (⟨rAcc, w⟩ : View.Piece (Elt F) S16x128 .f32) :: L, y ∈ p.1.set :=
  ⟨_, List.mem_cons_self, View.mem_set_unit_zero hist_zeros2 inb_S16x128_S16x128_0_0 y⟩
theorem hist_coverHist (w : S1x16x128.Idx → Elt F .f32) (y : S1x16x128.Idx) :
    ∃ p ∈ [(⟨rHist, w⟩ : View.Piece (Elt F) S1x16x128 .f32)], y ∈ p.1.set :=
  ⟨_, List.mem_singleton_self _, View.mem_set_unit_zero hist_zeros3 inb_S1x16x128_S1x16x128_0_0_0 y⟩

/-- A buffer read back whole after a whole store (whatever was stored before it) reads what was stored. -/
theorem hist_readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

set_option maxHeartbeats 1000000 in
/-- The body at a core's first point: the accumulator is cleared, then the block's counts are added. -/
theorem hist_first (c : Dev nD) (E : Set ℕ) (i : grid0.Coords) (hi : (i 1).val = 0)
    (arg2 : Memref sig .tc .vmem S128x1024 .i32) (harg2 : arg2.IsWhole) (arg3 : Memref sig .tc .vmem S1x16x128 .f32) (harg3 : arg3.IsWhole)
    (arg4 : Memref sig .tc .vmem S16x128 .f32) (harg4 : arg4.IsWhole)
    (x : Vec F S128x1024 .i32) (K : PUnit → sProp 𝕄) :
    iprop(owns (c : Thread nD τ) arg2 fullShare x ∗ (∃ d, owns (c : Thread nD τ) arg3 fullShare d) ∗ (∃ s, owns (c : Thread nD τ) arg4 fullShare s)
        ∗ (iprop(owns (c : Thread nD τ) arg2 fullShare x ∗ owns (c : Thread nD τ) arg3 fullShare (histOut (histStep x histZero))
            ∗ owns (c : Thread nD τ) arg4 fullShare (histStep x histZero)) -∗ K ⟨⟩))
      ⊢ wp frame (wpE (defs₀ (F := F)) Variants.none c none) E (cc0__hist_kernel i arg2 harg2 arg3 harg3 arg4 harg4) K := by
  have hc : histReset i := (histReset_iff i).2 hi
  simp only [cc0__hist_kernel_eq_skeleton]; unfold cc0__hist_kernel_skel
  unfold owns
  iintro ⟨⟨%f0, %hf0, H0⟩, ⟨%d1, %f1, -, H1⟩, ⟨%s, %f2, -, H2⟩, Hk⟩
  subst hf0
  sl_exec (disch := exact hc)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (hist_coverHist _), View.canon_unit_zero hist_zeros3]
    simp only [hist_readCov_cons_unit_zero (S := S16x128) _ hist_zeros2, View.readAt_eq_ld]
    rfl
  iexists _; isplitr
  swap; · iexact H2
  ipureintro
  sl_unfold_words
  rw [View.read_writes_eq_canon _ _ _ (hist_coverAcc _ _), View.canon_cons_unit_zero hist_zeros2]
  simp only [hist_readCov_cons_unit_zero (S := S16x128) _ hist_zeros2, View.readAt_eq_ld]
  rfl

set_option maxHeartbeats 1000000 in
/-- The body at a later point: the block's counts are added to what the accumulator held. -/
theorem hist_later (c : Dev nD) (E : Set ℕ) (i : grid0.Coords) (hi : (i 1).val ≠ 0)
    (arg2 : Memref sig .tc .vmem S128x1024 .i32) (harg2 : arg2.IsWhole) (arg3 : Memref sig .tc .vmem S1x16x128 .f32) (harg3 : arg3.IsWhole)
    (arg4 : Memref sig .tc .vmem S16x128 .f32) (harg4 : arg4.IsWhole)
    (x : Vec F S128x1024 .i32) (s : Vec F S16x128 .f32) (K : PUnit → sProp 𝕄) :
    iprop(owns (c : Thread nD τ) arg2 fullShare x ∗ (∃ d, owns (c : Thread nD τ) arg3 fullShare d) ∗ owns (c : Thread nD τ) arg4 fullShare s
        ∗ (iprop(owns (c : Thread nD τ) arg2 fullShare x ∗ owns (c : Thread nD τ) arg3 fullShare (histOut (histStep x s))
            ∗ owns (c : Thread nD τ) arg4 fullShare (histStep x s)) -∗ K ⟨⟩))
      ⊢ wp frame (wpE (defs₀ (F := F)) Variants.none c none) E (cc0__hist_kernel i arg2 harg2 arg3 harg3 arg4 harg4) K := by
  have hc : ¬ histReset i := fun h => hi ((histReset_iff i).1 h)
  simp only [cc0__hist_kernel_eq_skeleton]; unfold cc0__hist_kernel_skel
  unfold owns
  iintro ⟨⟨%f0, %hf0, H0⟩, ⟨%d1, %f1, -, H1⟩, ⟨%f2, %hf2, H2⟩, Hk⟩
  subst hf0
  subst hf2
  sl_exec (disch := exact hc)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (hist_coverHist _), View.canon_unit_zero hist_zeros3]
    simp only [hist_readCov_cons_unit_zero (S := S16x128) _ hist_zeros2, View.readAt_eq_ld, View.ld_unit_zero (S := S16x128) hist_zeros2]
    rfl
  iexists _; isplitr
  swap; · iexact H2
  ipureintro
  sl_unfold_words
  rw [View.read_writes_eq_canon _ _ _ (hist_coverAcc _ _), View.canon_unit_zero hist_zeros2]
  simp only [View.readAt_eq_ld, View.ld_unit_zero (S := S16x128) hist_zeros2]
  rfl

end Cert.Kernel.Hand

end
-- ==== Proof.K.R0Dat.lean ====
/-
  The first pallas_call (the histogram) as the pipeline library sees it: what each window's staging buffer holds
  after the body at each of the 256 grid points, and the invariant that carries the accumulator between points.

  The grid is 2 × 128: point t works on core-slice t / 128, row block t % 128.  The accumulator after point t
  (`accAt`) is the block's counts added to the cleared accumulator when t % 128 = 0, and to what point t − 1 left
  otherwise; the output block after point t is the accumulator with a unit leading axis.  Between points the
  scratch buffer holds `accAt (t − 1)`; before the first point it holds anything.
-/
import proofs.«413439_j36876589203620_2_alg».proof.Proof.K.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The 128 × 1024 block of pixels point `t` is handed. -/
abbrev xblk (c : Dev nD) (t : Fin cfg0.N) : Vec F S128x1024 .i32 := iblk0 V c 0 t

/-! ## The accumulator, point by point -/

/-- The accumulator after point `n`: restarted from zero at the first point of a core's rows (n % 128 = 0). -/
def accAt (c : Dev nD) : (n : ℕ) → n < cfg0.N → Vec F S16x128 .f32
  | 0, h => histStep (xblk V c ⟨0, h⟩) histZero
  | n + 1, h =>
    if (n + 1) % 128 = 0 then histStep (xblk V c ⟨n + 1, h⟩) histZero
    else histStep (xblk V c ⟨n + 1, h⟩) (accAt c n (Nat.lt_of_succ_lt h))

theorem accAt_first (c : Dev nD) (t : Fin cfg0.N) (h : t.val % 128 = 0) :
    accAt V c t.val t.isLt = histStep (xblk V c t) histZero := by
  obtain ⟨n, hn⟩ := t
  cases n with
  | zero => rfl
  | succ n => unfold accAt; rw [if_pos h]

theorem accAt_later (c : Dev nD) (t : Fin cfg0.N) (h : ¬ t.val % 128 = 0) :
    accAt V c t.val t.isLt = histStep (xblk V c t) (accAt V c (t.val - 1) (Nat.lt_of_le_of_lt (Nat.sub_le _ _) t.isLt)) := by
  obtain ⟨n, hn⟩ := t
  cases n with
  | zero => exact absurd rfl h
  | succ n =>
    show accAt V c (n + 1) hn = histStep (xblk V c ⟨n + 1, hn⟩) (accAt V c n (Nat.lt_of_succ_lt hn))
    rw [accAt, if_neg h]

/-- Grid coordinate 1 of point `t` is `t % 128`. -/
theorem coord1 : ∀ t : Fin cfg0.N, ((cfg0.grid.coords t) 1).val = t.val % 128 :=
  (by decide +kernel : ∀ t : Fin grid0.N, ((grid0.coords t) 1).val = t.val % 128)

/-! ## The invariant -/

/-- The accumulator's scratch buffer, as a whole memref. -/
abbrev scM : Memref sig .tc .vmem S16x128 .f32 := Memref.whole cc0_scratch0

/-- The core's other scoped buffers (the second call's staging buffers), each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region: the scratch at some contents, the other scoped buffers, the generator register. -/
theorem PhiA0_eq (c : Dev nD) :
    (Pipeline.ΦA spec0 c : sProp 𝕄)
      = iprop(iprop((∃ d, owns (c : Thread nD τ) scM fullShare d) ∗ otherScoped (F := F) c) ∗ (∃ r, prngReg c r)) := by
  unfold Pipeline.ΦA otherScoped; rw [scopedRest0_eq]; simp only [scM, owns_whole]; try rfl

/-- The invariant before position `n`: before the first point what the launch hands over; afterwards the scratch at
    what the point before left in it. -/
def PhiS (c : Dev nD) : (n : ℕ) → n ≤ cfg0.N → sProp 𝕄
  | 0, _ => Pipeline.ΦA spec0 c
  | n + 1, hn => iprop(iprop(owns (c : Thread nD τ) scM fullShare (accAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ otherScoped (F := F) c) ∗ (∃ r, prngReg c r)) := by
  cases n with
  | zero => exact absurd rfl hz
  | succ n => rfl

/-! ## The proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => histOut (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = histOut (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 2000000 in
/-- The body at any point: at a core's first point the scratch is handed at anything and cleared; at a later point
    it is handed at what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ, after0_0, after0_1]
  by_cases h0 : t.val % 128 = 0
  · rw [accAt_first V c t h0]
    have hi : ((grid0.coords t) 1).val = 0 := (coord1 t).trans h0
    by_cases hz : t.val = 0
    · rw [PhiS_castSucc V c t, PhiS_zero V c _ _ hz, PhiA0_eq]
      iintro ⟨⟨⟨HS, Hr⟩, Hg⟩, Ho, ⟨%d0, H0⟩, ⟨%d1, H1⟩⟩
      iapply (hist_first c Set.univ (grid0.coords t) hi _ _ _ _ _ _ (xblk V c t) _)
      isplitl [H0]; · iexact H0
      isplitl [H1]; · iexists _; iexact H1
      isplitl [HS]; · iexact HS
      iintro ⟨H0, H1, HS⟩
      isplitl [HS Hr Hg]
      · isplitr [Hg]
        · isplitl [HS]; · iexact HS
          iexact Hr
        iexact Hg
      isplitl [Ho]; · iexact Ho
      isplitl [H0]; · iexact H0
      iexact H1
    · rw [PhiS_castSucc V c t, PhiS_pos V c _ _ hz]
      iintro ⟨⟨⟨HS, Hr⟩, Hg⟩, Ho, ⟨%d0, H0⟩, ⟨%d1, H1⟩⟩
      iapply (hist_first c Set.univ (grid0.coords t) hi _ _ _ _ _ _ (xblk V c t) _)
      isplitl [H0]; · iexact H0
      isplitl [H1]; · iexists _; iexact H1
      isplitl [HS]; · iexists _; iexact HS
      iintro ⟨H0, H1, HS⟩
      isplitl [HS Hr Hg]
      · isplitr [Hg]
        · isplitl [HS]; · iexact HS
          iexact Hr
        iexact Hg
      isplitl [Ho]; · iexact Ho
      isplitl [H0]; · iexact H0
      iexact H1
  · rw [accAt_later V c t h0]
    have hi : ((grid0.coords t) 1).val ≠ 0 := fun e => h0 ((coord1 t).symm.trans e)
    have hz : t.val ≠ 0 := fun e => h0 (by rw [e])
    rw [PhiS_castSucc V c t, PhiS_pos V c _ _ hz]
    iintro ⟨⟨⟨HS, Hr⟩, Hg⟩, Ho, ⟨%d0, H0⟩, ⟨%d1, H1⟩⟩
    iapply (hist_later c Set.univ (grid0.coords t) hi _ _ _ _ _ _ (xblk V c t) _ _)
    isplitl [H0]; · iexact H0
    isplitl [H1]; · iexists _; iexact H1
    isplitl [HS]; · iexact HS
    iintro ⟨H0, H1, HS⟩
    isplitl [HS Hr Hg]
    · isplitr [Hg]
      · isplitl [HS]; · iexact HS
        iexact Hr
      iexact Hg
    isplitl [Ho]; · iexact Ho
    isplitl [H0]; · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the scratch's named contents are forgotten. -/
theorem hout0 (c : Dev nD) : (dat0 V c).Φ (Fin.last cfg0.N) ⊢ Pipeline.ΦA spec0 c := by
  have hN : cfg0.N = 256 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨HS, Hr⟩, Hg⟩
  isplitr [Hg]
  · isplitl [HS]; · iexists _; iexact HS
    iexact Hr
  iexact Hg

end Cert.Kernel.Hand

end
-- ==== Proof.K.R1Body.lean ====
/-
  The remap kernel's body as a triple.

  Handed the 256 × 1024 block `x` and the 16 × 128 table `y` (both read only) and the output block at any
  contents, the body ends with `x` and `y` as they were and the output block at `remapBlock x y`: its sixteen
  stores, one per 16 rows, laid over the block.
-/
import proofs.«413439_j36876589203620_2_alg».proof.Proof.K.Blocks
import proofs.«413439_j36876589203620_2_alg».proof.Proof.Gen.Kernel.Launch
import proofs.«413439_j36876589203620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The sixteen row-rectangles tile the 256-row block, so pieces on them (whatever their payloads) cover it. -/
theorem remap_cover (p0 p1 p2 p3 p4 p5 p6 p7 p8 p9 p10 p11 p12 p13 p14 p15 : S16x1024.Idx → Elt F .i32) (z : S256x1024.Idx) :
    ∃ pc ∈ ([⟨rR15, p15⟩, ⟨rR14, p14⟩, ⟨rR13, p13⟩, ⟨rR12, p12⟩, ⟨rR11, p11⟩, ⟨rR10, p10⟩, ⟨rR9, p9⟩, ⟨rR8, p8⟩, ⟨rR7, p7⟩, ⟨rR6, p6⟩, ⟨rR5, p5⟩, ⟨rR4, p4⟩, ⟨rR3, p3⟩, ⟨rR2, p2⟩, ⟨rR1, p1⟩, ⟨rR0, p0⟩] :
      List (View.Piece (Elt F) S256x1024 .i32)), z ∈ pc.1.set :=
  View.cover_of_tiled [⟨rR15, p15⟩, ⟨rR14, p14⟩, ⟨rR13, p13⟩, ⟨rR12, p12⟩, ⟨rR11, p11⟩, ⟨rR10, p10⟩, ⟨rR9, p9⟩, ⟨rR8, p8⟩, ⟨rR7, p7⟩, ⟨rR6, p6⟩, ⟨rR5, p5⟩, ⟨rR4, p4⟩, ⟨rR3, p3⟩, ⟨rR2, p2⟩, ⟨rR1, p1⟩, ⟨rR0, p0⟩] S16x1024.size (by rfl) z

set_option maxHeartbeats 2000000 in
/-- The body at any point. -/
theorem remap_sound (c : Dev nD) (E : Set ℕ) (i : grid1.Coords)
    (arg1 : Memref sig .tc .vmem S256x1024 .i32) (harg1 : arg1.IsWhole) (arg2 : Memref sig .tc .vmem S16x128 .f32) (harg2 : arg2.IsWhole)
    (arg3 : Memref sig .tc .vmem S256x1024 .i32) (harg3 : arg3.IsWhole)
    (x : Vec F S256x1024 .i32) (y : Vec F S16x128 .f32) (K : PUnit → sProp 𝕄) :
    iprop(owns (c : Thread nD τ) arg1 fullShare x ∗ owns (c : Thread nD τ) arg2 fullShare y ∗ (∃ d, owns (c : Thread nD τ) arg3 fullShare d)
        ∗ (iprop(owns (c : Thread nD τ) arg1 fullShare x ∗ owns (c : Thread nD τ) arg2 fullShare y
            ∗ owns (c : Thread nD τ) arg3 fullShare (remapBlock x y)) -∗ K ⟨⟩))
      ⊢ wp frame (wpE (defs₀ (F := F)) Variants.none c none) E (cc1__remap_kernel i arg1 harg1 arg2 harg2 arg3 harg3) K := by
  simp only [cc1__remap_kernel_eq_skeleton]; unfold cc1__remap_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (remap_cover _ _ _ _ _ _ _ _ _ _ _ _ _ _ _ _)).trans ?_
  -- the sixteen stored chunks, their named intermediate values opened, are the chunks of `remapPieces`
  unfold remapBlock remapPieces remapC0 remapC1 remapC2 remapC3 remapC4 remapC5 remapC6 remapC7 remapC8 remapC9 remapC10 remapC11 remapC12 remapC13 remapC14 remapC15
  sl_unfold_run_names
  rfl

end Cert.Kernel.Hand

end
-- ==== Proof.K.R1Dat.lean ====
/-
  The remap kernel's pipeline: its proof data and its body obligation, at the contents `V` the region finds.

  The pipeline has three windows over a grid of 128 points: the image's rows, a 256 × 1024 block fetched at
  every point; the 16 × 128 table of dropped labels, whose block index never moves and which is fetched at the
  first point only; and the output rows, a 256 × 1024 block written back at every point.  At every point the
  body finds the image's block and the table in their buffers (the table's buffer still holds it: an input the
  body leaves in place, whose index has not moved), and leaves in the output's buffer `remapBlock` of the two.
-/
import proofs.«413439_j36876589203620_2_alg».proof.Proof.K.Blocks
import proofs.«413439_j36876589203620_2_alg».proof.Proof.K.R1Body
import proofs.«413439_j36876589203620_2_alg».proof.Proof.Gen.Kernel.Launch
import proofs.«413439_j36876589203620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The image window's current buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The table window's current buffer holds the table at every point, fetched there (the first) or not (the
    others: its block index has not moved and the body left it in place). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the remap pipeline on core `c`: the arrays as the region finds them (`V`); after the body at
    point `t` the image's buffer at its block, the table's at the table, the output's at `remapBlock` of the two;
    the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => remapBlock (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = remapBlock (iblk1 V c 0 t) (iblk1 V c 1 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (remap_sound c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The whole program's run: @main as five items — reshape, the histogram call, the table's host arithmetic, the
  remap call, reshape — launched once.  Between items a core holds every unscoped buffer at a named valuation:
  the launch memory, then each host stretch applied, then each call's output array replaced by what its
  write-backs leave.  Every weakly fair execution terminates with every unscoped buffer at the last valuation.
-/
import proofs.«413439_j36876589203620_2_alg».proof.Proof.K.R0Dat
import proofs.«413439_j36876589203620_2_alg».proof.Proof.K.R1Dat
import proofs.«413439_j36876589203620_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between items -/

/-- The buffers when the histogram call is entered, read at the TensorCore's references. -/
abbrev Vr1 : (c : Dev nD) → (b : Ref sig .tc) → Buf (Elt F) ((c : Thread nD τ).loc b) := fun c b => Gen.V1 m c b

/-- What the histogram call leaves in its output array. -/
def o2 (c : Dev nD) : Buf (Elt F) ((c : Thread nD τ).loc main_v1) := (dat0 (Vr1 m) c).arrAt 1 cfg0.N

/-- The regions' outputs, first stage: only the histogram call's is named. -/
def outsA : Gen.Outs (F := F) := fun _ r c => Function.update (Gen.V1 m c) main_v1 (o2 m c) r

/-- The buffers when the remap call is entered. -/
abbrev Vr3 : (c : Dev nD) → (b : Ref sig .tc) → Buf (Elt F) ((c : Thread nD τ).loc b) := fun c b => Gen.V3 m (outsA m) c b

/-- What the remap call leaves in its output array. -/
def o4 (c : Dev nD) : Buf (Elt F) ((c : Thread nD τ).loc main_v18) := (dat1 (Vr3 m) c).arrAt 2 cfg1.N

/-- The regions' outputs. -/
def outs : Gen.Outs (F := F) := fun n r c => match n with
  | 2 => outsA m 2 r c
  | _ => Function.update (Gen.V3 m (outsA m) c) main_v18 (o4 m c) r

theorem outs_2 (c : Dev nD) : outs m 2 main_v1 c = o2 m c := by
  show Function.update (Gen.V1 m c) main_v1 (o2 m c) main_v1 = _
  exact Function.update_self ..
theorem outs_4 (c : Dev nD) : outs m 4 main_v18 c = o4 m c := by
  show Function.update (Gen.V3 m (outsA m) c) main_v18 (o4 m c) main_v18 = _
  exact Function.update_self ..
theorem V2_outs (c : Dev nD) : Gen.V2 m (outs m) c = Gen.V2 m (outsA m) c := rfl
theorem V3_outs (c : Dev nD) : Gen.V3 m (outs m) c = Gen.V3 m (outsA m) c := rfl

/-! ## The proof data family and the thread state -/

/-- No pipeline has a prefetched table. -/
abbrev adm2 : (p : Fin 2) → (pcfgs (F := F) p).Adm := fun p => (cfgs p).toPCfg_adm

/-- Every pipeline's proof data, each at its region's entry contents. -/
def pdat : (p : Fin 2) → (c : Dev nD) → Dat τ (Elt F) Unit ℕ (UR sig nD τ) ℕ (Pipeline.pin (pcfgs (F := F)) adm2 p) c
  | ⟨0, _⟩ => fun c => dat0 (Vr1 m) c
  | ⟨1, _⟩ => fun c => dat1 (Vr3 m) c

abbrev 𝒱n : Variants := Variants.none
/-- No core owes another anything: no level is assigned. -/
abbrev Ln : GSem nD τ sig → Finset Unit := fun _ => ∅
abbrev lvn : GSem nD τ sig → Unit → ℕ := fun _ _ => 0

/-- What rides beside the buffers through every item: the generator register at some state, and nothing owed. -/
abbrev Rst (c : Dev nD) : sProp 𝕄 := iprop((∃ r, prngReg c r) ∗ ∃ W, owes (c : Thread nD τ) (0 : CellTallies nD τ sig Unit) W)

/-- A host stretch as a segment over the unscoped references from the contents `W`. -/
abbrev hsg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tfin (c : Dev nD) : sProp 𝕄 := iprop(StableHlo.held (c : Thread nD τ) (Pipeline.ucRefs τ sig) (Gen.V5 m (outs m) c) ∗ ∃ r, prngReg c r)

/-! ## What each call's exit holds, array by array -/

theorem hF0 (c : Dev nD) (w : Fin cfg0.W) : (dat0 (Vr1 m) c).arrAt w cfg0.N = Gen.V2 m (outs m) c (Pipeline.arrRef spec0 w) := by
  match w with
  | ⟨0, _⟩ =>
    refine ((dat0 (Vr1 m) c).arrAt_in 0 rfl _).trans ((A_eq0 (Vr1 m) c 0).trans ?_)
    exact (Gen.V2_of m (outs m) c main_v0 (by decide)).symm
  | ⟨1, _⟩ =>
    have e : Gen.V2 m (outs m) c main_v1 = o2 m c := by
      simp only [Function.update_self]; exact outs_2 m c
    exact e.symm
theorem hrest0 (c : Dev nD) : ∀ b, b ∉ Finset.univ.image (Pipeline.arrRef spec0) → Gen.V2 m (outs m) c b = Gen.V1 m c b := by
  intro b hb
  refine Gen.V2_of m (outs m) c b ?_
  intro hmem
  rw [List.mem_singleton] at hmem
  exact hb (Finset.mem_image.mpr ⟨1, Finset.mem_univ _, hmem.symm⟩)

theorem hF1 (c : Dev nD) (w : Fin cfg1.W) : (dat1 (Vr3 m) c).arrAt w cfg1.N = Gen.V4 m (outs m) c (Pipeline.arrRef spec1 w) := by
  match w with
  | ⟨0, _⟩ =>
    refine ((dat1 (Vr3 m) c).arrAt_in 0 rfl _).trans ((A_eq1 (Vr3 m) c 0).trans ?_)
    exact (Gen.V4_of m (outs m) c main_v0 (by decide)).symm
  | ⟨1, _⟩ =>
    refine ((dat1 (Vr3 m) c).arrAt_in 1 rfl _).trans ((A_eq1 (Vr3 m) c 1).trans ?_)
    exact (Gen.V4_of m (outs m) c main_v17 (by decide)).symm
  | ⟨2, _⟩ =>
    have e : Gen.V4 m (outs m) c main_v18 = o4 m c := by
      simp only [Function.update_self]; exact outs_4 m c
    exact e.symm
theorem hrest1 (c : Dev nD) : ∀ b, b ∉ Finset.univ.image (Pipeline.arrRef spec1) → Gen.V4 m (outs m) c b = Vr3 m c b := by
  intro b hb
  refine Gen.V4_of m (outs m) c b ?_
  intro hmem
  rw [List.mem_singleton] at hmem
  exact hb (Finset.mem_image.mpr ⟨2, Finset.mem_univ _, hmem.symm⟩)

/-! ## The calls as segments -/

set_option backward.isDefEq.respectTransparency.types false in
/-- The histogram call: entered from every unscoped buffer at `V1`, left at `V2`. -/
def rg0 : Pipeline.RegionSeg (pcfgs (F := F)) adm2 (pdat m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ Ln lvn 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm2 (pdat m) launch0.win launch0.arr_whole c
      ((pdat m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vr1 m) c)
    unfold Pipeline.ΦA
    iintro ⟨Hp, -, Hr⟩
    isplitl [Hr]; · iexact Hr
    iexact Hp
  hout c := by
    rw [Pipeline.ownSems0_none]
    refine (hout0 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm2 (Ix := Unit) (Name := ℕ) (U := UR sig nD τ) (Lvl := ℕ)
      launch0.win launch0.arr_whole c (pdat m) ((pdat m 0 c).share_full fun _ => rfl)
      (Vr1 m c) (fun b => Gen.V2 m (outs m) c b) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The remap call: entered from every unscoped buffer at `V3`, left at `V4`. -/
def rg1 : Pipeline.RegionSeg (pcfgs (F := F)) adm2 (pdat m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ Ln lvn 1 fun _ _ => rfl
  pre c := iprop(StableHlo.held (c : Thread nD τ) (Pipeline.ucRefs τ sig) (Gen.V3 m (outsA m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm2 (pdat m) launch1.win launch1.arr_whole c
      ((pdat m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm2 (Ix := Unit) (Name := ℕ) (U := UR sig nD τ) (Lvl := ℕ)
      launch1.win launch1.arr_whole c (pdat m) ((pdat m 1 c).share_full fun _ => rfl)
      (Vr3 m c) (fun b => Gen.V4 m (outs m) c b) ((pdat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev hsegs : List (Pipeline.Seg (pcfgs (F := F)) adm2 (pdat m) () defs₀ 𝒱n Ln lvn) :=
  [ .host (hsg hostOps0 hostOps0_sub Gen.hostOps0_fresh (Gen.V0 m)),
    .region (rg0 m),
    .host (hsg hostOps1 hostOps1_sub Gen.hostOps1_fresh (Gen.V2 m (outs m))),
    .region (rg1 m),
    .host (hsg hostOps2 hostOps2_sub Gen.hostOps2_fresh (Gen.V4 m (outs m))) ]

/-- @main is the run of the segments. -/
theorem main_run (c : Dev nD) : main (F := F) c = Pipeline.Seg.run (hsegs m) := (main_chain c).trans (by chain_rfl)

set_option backward.isDefEq.respectTransparency.types false in
/-- THE RUN: from any memory with zero counters every weakly fair execution of @main terminates, nothing faulting,
    and every final state holds every unscoped buffer at the last valuation `V5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) :=
  Pipeline.θ_run_regions_kit (pcfgs (F := F)) adm2 (pdat m) () cellOf_inj emb₁ defs₀ 𝒱n Ln lvn m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c)) (Tₙ := Tfin m)
    (hch := ⟨fun _ => .rfl, fun _ => .rfl, fun _ => .rfl, fun _ => .rfl, fun _ => .rfl, fun c => by
      show iprop(StableHlo.held (c : Thread nD τ) (Pipeline.ucRefs τ sig) (Gen.V5 m (outs m) c) ∗ Rst c) ⊢ _
      iintro ⟨Hh, Hp, HO⟩
      isplitl [Hh Hp]
      · isplitl [Hh]; · iexact Hh
        iexact Hp
      iexact HO⟩)
    (hinit := by
      refine Pipeline.initEach Ln lvn fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c => h c)

/-- The frame: the argument array ends as launched (no host operation and no call writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (Gen.V5_main_arg0 m (outs m) c)) (run m ρ)

/-- The run read at the result and at the argument. -/
theorem run_result : θ_run defs (onTc (τ := τ) (main (F := F))) ⟨m, fun _ => 0, ρ⟩ (fun r => ∀ c : Dev nD,
      r.2.mem ((c.tc : Thread nD τ).loc main_v19) = Gen.V5 m (outs m) c main_v19
      ∧ r.2.mem ((c.tc : Thread nD τ).loc main_arg0) = m ((c.tc : Thread nD τ).loc main_arg0)) :=
  (θ_run defs _ _).mono (fun r h c => ⟨h c _ (mem_uc main_v19 (by decide)),
    (h c _ (mem_uc main_arg0 (by decide))).trans (Gen.V5_main_arg0 m (outs m) c)⟩) (run m ρ)

end Cert.Kernel.Hand

end
-- ==== Proof.KI.Blocks.lean ====
/-
  What one grid point of each kernel computes, as pure functions of the blocks it is handed.

  The histogram kernel, at one point, is handed a block of 128 rows × 1024 pixels and its running
  accumulator (16 × 128 counters, one per label hi·128 + lo).  It reads the block as 8 chunks of 16 rows;
  for each chunk it forms the one-hot matrix of the pixels' high parts (16 × 16384) and of their low parts
  (16384 × 128) and multiplies them, which counts, per (hi, lo), the chunk's pixels of that label; the eight
  products are summed and added to the accumulator (`histStep`).  At the first point of a core's rows the
  accumulator is first cleared (`histZero`); the output block is the accumulator given a unit leading axis
  (`histOut`).

  The remap kernel, at one point, is handed a block of 256 rows × 1024 pixels and the 16 × 128 table of
  dropped labels; it writes the block back 16 rows at a time (`remapBlock`: the sixteen stored chunks laid
  over the block), each chunk being the pixels with those of a dropped label replaced by 0.
-/
import proofs.«413439_j36876589203620_2_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-! ## The histogram kernel -/

/-- The whole accumulator, and the whole output block. -/
abbrev rAcc : Rect S16x128 := Rect.unit (s := S16x128) ![0, 0] S16x128.size inb_S16x128_S16x128_0_0
abbrev rHist : Rect S1x16x128 := Rect.unit (s := S1x16x128) ![0, 0, 0] S1x16x128.size inb_S1x16x128_S1x16x128_0_0_0

/-- Rows 16k … 16k+15 of the 128-row block, k = 0 … 7. -/
abbrev rH0 : Rect S128x1024 := Rect.unit (s := S128x1024) ![0, 0] S16x1024.size inb_S128x1024_S16x1024_0_0
abbrev rH1 : Rect S128x1024 := Rect.unit (s := S128x1024) ![16, 0] S16x1024.size inb_S128x1024_S16x1024_16_0
abbrev rH2 : Rect S128x1024 := Rect.unit (s := S128x1024) ![32, 0] S16x1024.size inb_S128x1024_S16x1024_32_0
abbrev rH3 : Rect S128x1024 := Rect.unit (s := S128x1024) ![48, 0] S16x1024.size inb_S128x1024_S16x1024_48_0
abbrev rH4 : Rect S128x1024 := Rect.unit (s := S128x1024) ![64, 0] S16x1024.size inb_S128x1024_S16x1024_64_0
abbrev rH5 : Rect S128x1024 := Rect.unit (s := S128x1024) ![80, 0] S16x1024.size inb_S128x1024_S16x1024_80_0
abbrev rH6 : Rect S128x1024 := Rect.unit (s := S128x1024) ![96, 0] S16x1024.size inb_S128x1024_S16x1024_96_0
abbrev rH7 : Rect S128x1024 := Rect.unit (s := S128x1024) ![112, 0] S16x1024.size inb_S128x1024_S16x1024_112_0

/-- The lane index 0 … 127 along the low-part axis. -/
abbrev laneIota : IVec S1x128 32 := iota .tc S1x128 32 [1] iota_S1x128_d1_w32

/-- The sum of the first seven chunks' one-hot products (the eighth is added with the accumulator). -/
def histPart (x : Vec F S128x1024 .i32) : FVec F S16x128 .f32 :=
  k0_pay16
    (k0_pay12
      (k0_pay8 (k0_pay4 (View.ld x rH0)) (k0_pay6 (View.ld x rH1)) laneIota (k0_pay7 (View.ld x rH1)) (View.ld x rH2))
      (k0_pay10 (View.ld x rH3)) laneIota (k0_pay11 (View.ld x rH3)) (View.ld x rH4))
    (k0_pay14 (View.ld x rH5)) laneIota (k0_pay15 (View.ld x rH5)) (View.ld x rH6)

/-- The accumulator after the point: what it held plus the block's eight one-hot products. -/
def histStep (x : Vec F S128x1024 .i32) (s : Vec F S16x128 .f32) : Vec F S16x128 .f32 :=
  k0_pay1 (histPart x) (k0_pay18 (View.ld x rH7)) laneIota (k0_pay19 (View.ld x rH7)) s

/-- The cleared accumulator. -/
def histZero : Vec F S16x128 .f32 := k0_pay3

/-- The output block: the accumulator with a unit leading axis. -/
def histOut (a : Vec F S16x128 .f32) : Vec F S1x16x128 .f32 := k0_pay2 a

/-! ## The remap kernel -/

/-- The whole table block. -/
abbrev rTab : Rect S16x128 := Rect.unit (s := S16x128) ![0, 0] S16x128.size inb_S16x128_S16x128_0_0

/-- Rows 16k … 16k+15 of the 256-row block, k = 0 … 15. -/
abbrev rR0 : Rect S256x1024 := Rect.unit (s := S256x1024) ![0, 0] S16x1024.size inb_S256x1024_S16x1024_0_0
abbrev rR1 : Rect S256x1024 := Rect.unit (s := S256x1024) ![16, 0] S16x1024.size inb_S256x1024_S16x1024_16_0
abbrev rR2 : Rect S256x1024 := Rect.unit (s := S256x1024) ![32, 0] S16x1024.size inb_S256x1024_S16x1024_32_0
abbrev rR3 : Rect S256x1024 := Rect.unit (s := S256x1024) ![48, 0] S16x1024.size inb_S256x1024_S16x1024_48_0
abbrev rR4 : Rect S256x1024 := Rect.unit (s := S256x1024) ![64, 0] S16x1024.size inb_S256x1024_S16x1024_64_0
abbrev rR5 : Rect S256x1024 := Rect.unit (s := S256x1024) ![80, 0] S16x1024.size inb_S256x1024_S16x1024_80_0
abbrev rR6 : Rect S256x1024 := Rect.unit (s := S256x1024) ![96, 0] S16x1024.size inb_S256x1024_S16x1024_96_0
abbrev rR7 : Rect S256x1024 := Rect.unit (s := S256x1024) ![112, 0] S16x1024.size inb_S256x1024_S16x1024_112_0
abbrev rR8 : Rect S256x1024 := Rect.unit (s := S256x1024) ![128, 0] S16x1024.size inb_S256x1024_S16x1024_128_0
abbrev rR9 : Rect S256x1024 := Rect.unit (s := S256x1024) ![144, 0] S16x1024.size inb_S256x1024_S16x1024_144_0
abbrev rR10 : Rect S256x1024 := Rect.unit (s := S256x1024) ![160, 0] S16x1024.size inb_S256x1024_S16x1024_160_0
abbrev rR11 : Rect S256x1024 := Rect.unit (s := S256x1024) ![176, 0] S16x1024.size inb_S256x1024_S16x1024_176_0
abbrev rR12 : Rect S256x1024 := Rect.unit (s := S256x1024) ![192, 0] S16x1024.size inb_S256x1024_S16x1024_192_0
abbrev rR13 : Rect S256x1024 := Rect.unit (s := S256x1024) ![208, 0] S16x1024.size inb_S256x1024_S16x1024_208_0
abbrev rR14 : Rect S256x1024 := Rect.unit (s := S256x1024) ![224, 0] S16x1024.size inb_S256x1024_S16x1024_224_0
abbrev rR15 : Rect S256x1024 := Rect.unit (s := S256x1024) ![240, 0] S16x1024.size inb_S256x1024_S16x1024_240_0

/-- The row index 0 … 15 along the high-part axis, and 0 … 127 along the low-part axis (as columns). -/
abbrev rowIota16 : IVec S16x1 32 := iota .tc S16x1 32 [0] iota_S16x1_d0_w32
abbrev rowIota128 : IVec S128x1 32 := iota .tc S128x1 32 [0] iota_S128x1_d0_w32

/-- The table in the matrix unit's operand format. -/
abbrev tabB (y : Vec F S16x128 .f32) : FVec F S16x128 .bf16 := k1_pay2 (View.ld y rTab)

/-- The sixteen stored chunks, each from the table and its own 16 rows of the block. -/
def remapC0 (x : Vec F S256x1024 .i32) (y : Vec F S16x128 .f32) : IVec S16x1024 32 := k1_pay3 (View.ld y rTab) (View.ld x rR0)
def remapC1 (x : Vec F S256x1024 .i32) (y : Vec F S16x128 .f32) : IVec S16x1024 32 :=
  k1_pay7 (tabB y) (k1_pay4 (View.ld x rR1)) (k1_pay5 (View.ld x rR1)) (k1_pay6 (View.ld x rR1)) rowIota16
def remapC2 (x : Vec F S256x1024 .i32) (y : Vec F S16x128 .f32) : IVec S16x1024 32 :=
  k1_pay10 (k1_pay8 (View.ld x rR2)) (k1_pay9 (tabB y) (View.ld x rR2))
def remapC3 (x : Vec F S256x1024 .i32) (y : Vec F S16x128 .f32) : IVec S16x1024 32 := k1_pay11 (tabB y) (View.ld x rR3)
def remapC4 (x : Vec F S256x1024 .i32) (y : Vec F S16x128 .f32) : IVec S16x1024 32 :=
  k1_pay13 (tabB y) (k1_pay12 (View.ld x rR4)) 7#32
def remapC5 (x : Vec F S256x1024 .i32) (y : Vec F S16x128 .f32) : IVec S16x1024 32 :=
  k1_pay17 (tabB y) (k1_pay14 (View.ld x rR5)) (k1_pay15 (View.ld x rR5)) (k1_pay16 (View.ld x rR5))
def remapC6 (x : Vec F S256x1024 .i32) (y : Vec F S16x128 .f32) : IVec S16x1024 32 := k1_pay18 (tabB y) (View.ld x rR6)
def remapC7 (x : Vec F S256x1024 .i32) (y : Vec F S16x128 .f32) : IVec S16x1024 32 := k1_pay19 (tabB y) (View.ld x rR7)
def remapC8 (x : Vec F S256x1024 .i32) (y : Vec F S16x128 .f32) : IVec S16x1024 32 :=
  k1_pay23 (tabB y) (k1_pay20 (View.ld x rR8)) (k1_pay21 (View.ld x rR8)) rowIota128 (k1_pay22 (View.ld x rR8))
def remapC9 (x : Vec F S256x1024 .i32) (y : Vec F S16x128 .f32) : IVec S16x1024 32 :=
  k1_pay27 (k1_pay24 (View.ld x rR9)) (k1_pay25 (tabB y) (View.ld x rR9)) k1_pay26
def remapC10 (x : Vec F S256x1024 .i32) (y : Vec F S16x128 .f32) : IVec S16x1024 32 := k1_pay28 (tabB y) (View.ld x rR10)
def remapC11 (x : Vec F S256x1024 .i32) (y : Vec F S16x128 .f32) : IVec S16x1024 32 :=
  k1_pay32 (tabB y) (k1_pay29 (View.ld x rR11)) (k1_pay30 (View.ld x rR11)) (k1_pay31 (View.ld x rR11)) rowIota16
def remapC12 (x : Vec F S256x1024 .i32) (y : Vec F S16x128 .f32) : IVec S16x1024 32 :=
  k1_pay35 (k1_pay33 (View.ld x rR12)) (k1_pay34 (tabB y) (View.ld x rR12))
def remapC13 (x : Vec F S256x1024 .i32) (y : Vec F S16x128 .f32) : IVec S16x1024 32 := k1_pay36 (tabB y) (View.ld x rR13)
def remapC14 (x : Vec F S256x1024 .i32) (y : Vec F S16x128 .f32) : IVec S16x1024 32 :=
  k1_pay38 (tabB y) (k1_pay37 (View.ld x rR14)) 7#32
def remapC15 (x : Vec F S256x1024 .i32) (y : Vec F S16x128 .f32) : IVec S16x1024 32 :=
  k1_pay1 (tabB y) (k1_pay39 (View.ld x rR15)) (k1_pay40 (View.ld x rR15)) (k1_pay41 (View.ld x rR15))

/-- The sixteen stores as pieces, the last store first. -/
def remapPieces (x : Vec F S256x1024 .i32) (y : Vec F S16x128 .f32) : List (View.Piece (Elt F) S256x1024 .i32) :=
  [⟨rR15, remapC15 x y⟩, ⟨rR14, remapC14 x y⟩, ⟨rR13, remapC13 x y⟩, ⟨rR12, remapC12 x y⟩, ⟨rR11, remapC11 x y⟩, ⟨rR10, remapC10 x y⟩,
   ⟨rR9, remapC9 x y⟩, ⟨rR8, remapC8 x y⟩, ⟨rR7, remapC7 x y⟩, ⟨rR6, remapC6 x y⟩, ⟨rR5, remapC5 x y⟩, ⟨rR4, remapC4 x y⟩,
   ⟨rR3, remapC3 x y⟩, ⟨rR2, remapC2 x y⟩, ⟨rR1, remapC1 x y⟩, ⟨rR0, remapC0 x y⟩]

/-- The output block after the point: the sixteen chunks laid over it. -/
def remapBlock (x : Vec F S256x1024 .i32) (y : Vec F S16x128 .f32) : Vec F S256x1024 .i32 :=
  View.canon (remapPieces x y)

end Cert.KernelIdeal.Hand

end
-- ==== Proof.KI.R0Body.lean ====
/-
  The histogram kernel's body as a triple, at the first point of a core's rows and at a later one.

  Handed the 128 × 1024 block `x` (read only), the output block at any contents and the accumulator, the body
  ends with the block as it was, the accumulator at `histStep x s₀` and the output block at its image `histOut`:
  at a first point (grid coordinate 1 is 0) s₀ is the cleared accumulator whatever the scratch held, at a later
  point s₀ is what the scratch held.
-/
import proofs.«413439_j36876589203620_2_alg».proof.Proof.KI.Blocks
import proofs.«413439_j36876589203620_2_alg».proof.Proof.Gen.KernelIdeal.Launch
import proofs.«413439_j36876589203620_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-buffer rectangles' offsets are all zero (rank 2, rank 3). -/
theorem hist_zeros2 : (![0, 0] : Fin S16x128.rank → Nat) = fun _ => 0 := by funext a; fin_cases a <;> rfl
theorem hist_zeros3 : (![0, 0, 0] : Fin S1x16x128.rank → Nat) = fun _ => 0 := by funext a; fin_cases a <;> rfl

/-- The body's one branch condition, from the grid coordinates: the reset of the accumulator is guarded by
    "coordinate 1 is 0", compared as a 32-bit word, widened and compared with 0 again. -/
abbrev histReset (i : grid0.Coords) : Prop :=
  (Scalar.cmpi .ne (Scalar.extui (Scalar.cmpi .eq (BitVec.ofNat 32 (i 1).val) 0#32)) 0#32) = 1#1

/-- It holds exactly at coordinate 0 of axis 1 (the axis has 128 points: no wrap in 32 bits). -/
theorem histReset_iff (i : grid0.Coords) : histReset i ↔ (i 1).val = 0 := by
  have h : ∀ k : Fin 128,
      ((Scalar.cmpi .ne (Scalar.extui (Scalar.cmpi .eq (BitVec.ofNat 32 k.val) 0#32)) 0#32) = 1#1) ↔ k.val = 0 := by
    decide +kernel
  exact h (i 1)

/-- A store through the whole-buffer rectangle, last, covers every index (accumulator; output block). -/
theorem hist_coverAcc (w : S16x128.Idx → Elt F .f32) (L : List (View.Piece (Elt F) S16x128 .f32)) (y : S16x128.Idx) :
    ∃ p ∈ (⟨rAcc, w⟩ : View.Piece (Elt F) S16x128 .f32) :: L, y ∈ p.1.set :=
  ⟨_, List.mem_cons_self, View.mem_set_unit_zero hist_zeros2 inb_S16x128_S16x128_0_0 y⟩
theorem hist_coverHist (w : S1x16x128.Idx → Elt F .f32) (y : S1x16x128.Idx) :
    ∃ p ∈ [(⟨rHist, w⟩ : View.Piece (Elt F) S1x16x128 .f32)], y ∈ p.1.set :=
  ⟨_, List.mem_singleton_self _, View.mem_set_unit_zero hist_zeros3 inb_S1x16x128_S1x16x128_0_0_0 y⟩

/-- A buffer read back whole after a whole store (whatever was stored before it) reads what was stored. -/
theorem hist_readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

set_option maxHeartbeats 1000000 in
/-- The body at a core's first point: the accumulator is cleared, then the block's counts are added. -/
theorem hist_first (c : Dev nD) (E : Set ℕ) (i : grid0.Coords) (hi : (i 1).val = 0)
    (arg2 : Memref sig .tc .vmem S128x1024 .i32) (harg2 : arg2.IsWhole) (arg3 : Memref sig .tc .vmem S1x16x128 .f32) (harg3 : arg3.IsWhole)
    (arg4 : Memref sig .tc .vmem S16x128 .f32) (harg4 : arg4.IsWhole)
    (x : Vec F S128x1024 .i32) (K : PUnit → sProp 𝕄) :
    iprop(owns (c : Thread nD τ) arg2 fullShare x ∗ (∃ d, owns (c : Thread nD τ) arg3 fullShare d) ∗ (∃ s, owns (c : Thread nD τ) arg4 fullShare s)
        ∗ (iprop(owns (c : Thread nD τ) arg2 fullShare x ∗ owns (c : Thread nD τ) arg3 fullShare (histOut (histStep x histZero))
            ∗ owns (c : Thread nD τ) arg4 fullShare (histStep x histZero)) -∗ K ⟨⟩))
      ⊢ wp frame (wpE (defs₀ (F := F)) Variants.none c none) E (cc0__hist_kernel i arg2 harg2 arg3 harg3 arg4 harg4) K := by
  have hc : histReset i := (histReset_iff i).2 hi
  simp only [cc0__hist_kernel_eq_skeleton]; unfold cc0__hist_kernel_skel
  unfold owns
  iintro ⟨⟨%f0, %hf0, H0⟩, ⟨%d1, %f1, -, H1⟩, ⟨%s, %f2, -, H2⟩, Hk⟩
  subst hf0
  sl_exec (disch := exact hc)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (hist_coverHist _), View.canon_unit_zero hist_zeros3]
    simp only [hist_readCov_cons_unit_zero (S := S16x128) _ hist_zeros2, View.readAt_eq_ld]
    rfl
  iexists _; isplitr
  swap; · iexact H2
  ipureintro
  sl_unfold_words
  rw [View.read_writes_eq_canon _ _ _ (hist_coverAcc _ _), View.canon_cons_unit_zero hist_zeros2]
  simp only [hist_readCov_cons_unit_zero (S := S16x128) _ hist_zeros2, View.readAt_eq_ld]
  rfl

set_option maxHeartbeats 1000000 in
/-- The body at a later point: the block's counts are added to what the accumulator held. -/
theorem hist_later (c : Dev nD) (E : Set ℕ) (i : grid0.Coords) (hi : (i 1).val ≠ 0)
    (arg2 : Memref sig .tc .vmem S128x1024 .i32) (harg2 : arg2.IsWhole) (arg3 : Memref sig .tc .vmem S1x16x128 .f32) (harg3 : arg3.IsWhole)
    (arg4 : Memref sig .tc .vmem S16x128 .f32) (harg4 : arg4.IsWhole)
    (x : Vec F S128x1024 .i32) (s : Vec F S16x128 .f32) (K : PUnit → sProp 𝕄) :
    iprop(owns (c : Thread nD τ) arg2 fullShare x ∗ (∃ d, owns (c : Thread nD τ) arg3 fullShare d) ∗ owns (c : Thread nD τ) arg4 fullShare s
        ∗ (iprop(owns (c : Thread nD τ) arg2 fullShare x ∗ owns (c : Thread nD τ) arg3 fullShare (histOut (histStep x s))
            ∗ owns (c : Thread nD τ) arg4 fullShare (histStep x s)) -∗ K ⟨⟩))
      ⊢ wp frame (wpE (defs₀ (F := F)) Variants.none c none) E (cc0__hist_kernel i arg2 harg2 arg3 harg3 arg4 harg4) K := by
  have hc : ¬ histReset i := fun h => hi ((histReset_iff i).1 h)
  simp only [cc0__hist_kernel_eq_skeleton]; unfold cc0__hist_kernel_skel
  unfold owns
  iintro ⟨⟨%f0, %hf0, H0⟩, ⟨%d1, %f1, -, H1⟩, ⟨%f2, %hf2, H2⟩, Hk⟩
  subst hf0
  subst hf2
  sl_exec (disch := exact hc)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (hist_coverHist _), View.canon_unit_zero hist_zeros3]
    simp only [hist_readCov_cons_unit_zero (S := S16x128) _ hist_zeros2, View.readAt_eq_ld, View.ld_unit_zero (S := S16x128) hist_zeros2]
    rfl
  iexists _; isplitr
  swap; · iexact H2
  ipureintro
  sl_unfold_words
  rw [View.read_writes_eq_canon _ _ _ (hist_coverAcc _ _), View.canon_unit_zero hist_zeros2]
  simp only [View.readAt_eq_ld, View.ld_unit_zero (S := S16x128) hist_zeros2]
  rfl

end Cert.KernelIdeal.Hand

end
-- ==== Proof.KI.R0Dat.lean ====
/-
  The first pallas_call (the histogram) as the pipeline library sees it: what each window's staging buffer holds
  after the body at each of the 256 grid points, and the invariant that carries the accumulator between points.

  The grid is 2 × 128: point t works on core-slice t / 128, row block t % 128.  The accumulator after point t
  (`accAt`) is the block's counts added to the cleared accumulator when t % 128 = 0, and to what point t − 1 left
  otherwise; the output block after point t is the accumulator with a unit leading axis.  Between points the
  scratch buffer holds `accAt (t − 1)`; before the first point it holds anything.
-/
import proofs.«413439_j36876589203620_2_alg».proof.Proof.KI.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The 128 × 1024 block of pixels point `t` is handed. -/
abbrev xblk (c : Dev nD) (t : Fin cfg0.N) : Vec F S128x1024 .i32 := iblk0 V c 0 t

/-! ## The accumulator, point by point -/

/-- The accumulator after point `n`: restarted from zero at the first point of a core's rows (n % 128 = 0). -/
def accAt (c : Dev nD) : (n : ℕ) → n < cfg0.N → Vec F S16x128 .f32
  | 0, h => histStep (xblk V c ⟨0, h⟩) histZero
  | n + 1, h =>
    if (n + 1) % 128 = 0 then histStep (xblk V c ⟨n + 1, h⟩) histZero
    else histStep (xblk V c ⟨n + 1, h⟩) (accAt c n (Nat.lt_of_succ_lt h))

theorem accAt_first (c : Dev nD) (t : Fin cfg0.N) (h : t.val % 128 = 0) :
    accAt V c t.val t.isLt = histStep (xblk V c t) histZero := by
  obtain ⟨n, hn⟩ := t
  cases n with
  | zero => rfl
  | succ n => unfold accAt; rw [if_pos h]

theorem accAt_later (c : Dev nD) (t : Fin cfg0.N) (h : ¬ t.val % 128 = 0) :
    accAt V c t.val t.isLt = histStep (xblk V c t) (accAt V c (t.val - 1) (Nat.lt_of_le_of_lt (Nat.sub_le _ _) t.isLt)) := by
  obtain ⟨n, hn⟩ := t
  cases n with
  | zero => exact absurd rfl h
  | succ n =>
    show accAt V c (n + 1) hn = histStep (xblk V c ⟨n + 1, hn⟩) (accAt V c n (Nat.lt_of_succ_lt hn))
    rw [accAt, if_neg h]

/-- Grid coordinate 1 of point `t` is `t % 128`. -/
theorem coord1 : ∀ t : Fin cfg0.N, ((cfg0.grid.coords t) 1).val = t.val % 128 :=
  (by decide +kernel : ∀ t : Fin grid0.N, ((grid0.coords t) 1).val = t.val % 128)

/-! ## The invariant -/

/-- The accumulator's scratch buffer, as a whole memref. -/
abbrev scM : Memref sig .tc .vmem S16x128 .f32 := Memref.whole cc0_scratch0

/-- The core's other scoped buffers (the second call's staging buffers), each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region: the scratch at some contents, the other scoped buffers, the generator register. -/
theorem PhiA0_eq (c : Dev nD) :
    (Pipeline.ΦA spec0 c : sProp 𝕄)
      = iprop(iprop((∃ d, owns (c : Thread nD τ) scM fullShare d) ∗ otherScoped (F := F) c) ∗ (∃ r, prngReg c r)) := by
  unfold Pipeline.ΦA otherScoped; rw [scopedRest0_eq]; simp only [scM, owns_whole]; try rfl

/-- The invariant before position `n`: before the first point what the launch hands over; afterwards the scratch at
    what the point before left in it. -/
def PhiS (c : Dev nD) : (n : ℕ) → n ≤ cfg0.N → sProp 𝕄
  | 0, _ => Pipeline.ΦA spec0 c
  | n + 1, hn => iprop(iprop(owns (c : Thread nD τ) scM fullShare (accAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ otherScoped (F := F) c) ∗ (∃ r, prngReg c r)) := by
  cases n with
  | zero => exact absurd rfl hz
  | succ n => rfl

/-! ## The proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => histOut (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = histOut (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 2000000 in
/-- The body at any point: at a core's first point the scratch is handed at anything and cleared; at a later point
    it is handed at what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ, after0_0, after0_1]
  by_cases h0 : t.val % 128 = 0
  · rw [accAt_first V c t h0]
    have hi : ((grid0.coords t) 1).val = 0 := (coord1 t).trans h0
    by_cases hz : t.val = 0
    · rw [PhiS_castSucc V c t, PhiS_zero V c _ _ hz, PhiA0_eq]
      iintro ⟨⟨⟨HS, Hr⟩, Hg⟩, Ho, ⟨%d0, H0⟩, ⟨%d1, H1⟩⟩
      iapply (hist_first c Set.univ (grid0.coords t) hi _ _ _ _ _ _ (xblk V c t) _)
      isplitl [H0]; · iexact H0
      isplitl [H1]; · iexists _; iexact H1
      isplitl [HS]; · iexact HS
      iintro ⟨H0, H1, HS⟩
      isplitl [HS Hr Hg]
      · isplitr [Hg]
        · isplitl [HS]; · iexact HS
          iexact Hr
        iexact Hg
      isplitl [Ho]; · iexact Ho
      isplitl [H0]; · iexact H0
      iexact H1
    · rw [PhiS_castSucc V c t, PhiS_pos V c _ _ hz]
      iintro ⟨⟨⟨HS, Hr⟩, Hg⟩, Ho, ⟨%d0, H0⟩, ⟨%d1, H1⟩⟩
      iapply (hist_first c Set.univ (grid0.coords t) hi _ _ _ _ _ _ (xblk V c t) _)
      isplitl [H0]; · iexact H0
      isplitl [H1]; · iexists _; iexact H1
      isplitl [HS]; · iexists _; iexact HS
      iintro ⟨H0, H1, HS⟩
      isplitl [HS Hr Hg]
      · isplitr [Hg]
        · isplitl [HS]; · iexact HS
          iexact Hr
        iexact Hg
      isplitl [Ho]; · iexact Ho
      isplitl [H0]; · iexact H0
      iexact H1
  · rw [accAt_later V c t h0]
    have hi : ((grid0.coords t) 1).val ≠ 0 := fun e => h0 ((coord1 t).symm.trans e)
    have hz : t.val ≠ 0 := fun e => h0 (by rw [e])
    rw [PhiS_castSucc V c t, PhiS_pos V c _ _ hz]
    iintro ⟨⟨⟨HS, Hr⟩, Hg⟩, Ho, ⟨%d0, H0⟩, ⟨%d1, H1⟩⟩
    iapply (hist_later c Set.univ (grid0.coords t) hi _ _ _ _ _ _ (xblk V c t) _ _)
    isplitl [H0]; · iexact H0
    isplitl [H1]; · iexists _; iexact H1
    isplitl [HS]; · iexact HS
    iintro ⟨H0, H1, HS⟩
    isplitl [HS Hr Hg]
    · isplitr [Hg]
      · isplitl [HS]; · iexact HS
        iexact Hr
      iexact Hg
    isplitl [Ho]; · iexact Ho
    isplitl [H0]; · iexact H0
    iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives it back: the scratch's named contents are forgotten. -/
theorem hout0 (c : Dev nD) : (dat0 V c).Φ (Fin.last cfg0.N) ⊢ Pipeline.ΦA spec0 c := by
  have hN : cfg0.N = 256 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨⟨HS, Hr⟩, Hg⟩
  isplitr [Hg]
  · isplitl [HS]; · iexists _; iexact HS
    iexact Hr
  iexact Hg

end Cert.KernelIdeal.Hand

end
-- ==== Proof.KI.R1Body.lean ====
/-
  The remap kernel's body as a triple.

  Handed the 256 × 1024 block `x` and the 16 × 128 table `y` (both read only) and the output block at any
  contents, the body ends with `x` and `y` as they were and the output block at `remapBlock x y`: its sixteen
  stores, one per 16 rows, laid over the block.
-/
import proofs.«413439_j36876589203620_2_alg».proof.Proof.KI.Blocks
import proofs.«413439_j36876589203620_2_alg».proof.Proof.Gen.KernelIdeal.Launch
import proofs.«413439_j36876589203620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The sixteen row-rectangles tile the 256-row block, so pieces on them (whatever their payloads) cover it. -/
theorem remap_cover (p0 p1 p2 p3 p4 p5 p6 p7 p8 p9 p10 p11 p12 p13 p14 p15 : S16x1024.Idx → Elt F .i32) (z : S256x1024.Idx) :
    ∃ pc ∈ ([⟨rR15, p15⟩, ⟨rR14, p14⟩, ⟨rR13, p13⟩, ⟨rR12, p12⟩, ⟨rR11, p11⟩, ⟨rR10, p10⟩, ⟨rR9, p9⟩, ⟨rR8, p8⟩, ⟨rR7, p7⟩, ⟨rR6, p6⟩, ⟨rR5, p5⟩, ⟨rR4, p4⟩, ⟨rR3, p3⟩, ⟨rR2, p2⟩, ⟨rR1, p1⟩, ⟨rR0, p0⟩] :
      List (View.Piece (Elt F) S256x1024 .i32)), z ∈ pc.1.set :=
  View.cover_of_tiled [⟨rR15, p15⟩, ⟨rR14, p14⟩, ⟨rR13, p13⟩, ⟨rR12, p12⟩, ⟨rR11, p11⟩, ⟨rR10, p10⟩, ⟨rR9, p9⟩, ⟨rR8, p8⟩, ⟨rR7, p7⟩, ⟨rR6, p6⟩, ⟨rR5, p5⟩, ⟨rR4, p4⟩, ⟨rR3, p3⟩, ⟨rR2, p2⟩, ⟨rR1, p1⟩, ⟨rR0, p0⟩] S16x1024.size (by rfl) z

set_option maxHeartbeats 2000000 in
/-- The body at any point. -/
theorem remap_sound (c : Dev nD) (E : Set ℕ) (i : grid1.Coords)
    (arg1 : Memref sig .tc .vmem S256x1024 .i32) (harg1 : arg1.IsWhole) (arg2 : Memref sig .tc .vmem S16x128 .f32) (harg2 : arg2.IsWhole)
    (arg3 : Memref sig .tc .vmem S256x1024 .i32) (harg3 : arg3.IsWhole)
    (x : Vec F S256x1024 .i32) (y : Vec F S16x128 .f32) (K : PUnit → sProp 𝕄) :
    iprop(owns (c : Thread nD τ) arg1 fullShare x ∗ owns (c : Thread nD τ) arg2 fullShare y ∗ (∃ d, owns (c : Thread nD τ) arg3 fullShare d)
        ∗ (iprop(owns (c : Thread nD τ) arg1 fullShare x ∗ owns (c : Thread nD τ) arg2 fullShare y
            ∗ owns (c : Thread nD τ) arg3 fullShare (remapBlock x y)) -∗ K ⟨⟩))
      ⊢ wp frame (wpE (defs₀ (F := F)) Variants.none c none) E (cc1__remap_kernel i arg1 harg1 arg2 harg2 arg3 harg3) K := by
  simp only [cc1__remap_kernel_eq_skeleton]; unfold cc1__remap_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (remap_cover _ _ _ _ _ _ _ _ _ _ _ _ _ _ _ _)).trans ?_
  -- the sixteen stored chunks, their named intermediate values opened, are the chunks of `remapPieces`
  unfold remapBlock remapPieces remapC0 remapC1 remapC2 remapC3 remapC4 remapC5 remapC6 remapC7 remapC8 remapC9 remapC10 remapC11 remapC12 remapC13 remapC14 remapC15
  sl_unfold_run_names
  rfl

end Cert.KernelIdeal.Hand

end
-- ==== Proof.KI.R1Dat.lean ====
/-
  The remap kernel's pipeline: its proof data and its body obligation, at the contents `V` the region finds.

  The pipeline has three windows over a grid of 128 points: the image's rows, a 256 × 1024 block fetched at
  every point; the 16 × 128 table of dropped labels, whose block index never moves and which is fetched at the
  first point only; and the output rows, a 256 × 1024 block written back at every point.  At every point the
  body finds the image's block and the table in their buffers (the table's buffer still holds it: an input the
  body leaves in place, whose index has not moved), and leaves in the output's buffer `remapBlock` of the two.
-/
import proofs.«413439_j36876589203620_2_alg».proof.Proof.KI.Blocks
import proofs.«413439_j36876589203620_2_alg».proof.Proof.KI.R1Body
import proofs.«413439_j36876589203620_2_alg».proof.Proof.Gen.KernelIdeal.Launch
import proofs.«413439_j36876589203620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The image window's current buffer holds its block at every point, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The table window's current buffer holds the table at every point, fetched there (the first) or not (the
    others: its block index has not moved and the body left it in place). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the remap pipeline on core `c`: the arrays as the region finds them (`V`); after the body at
    point `t` the image's buffer at its block, the table's at the table, the output's at `remapBlock` of the two;
    the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => remapBlock (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = remapBlock (iblk1 V c 0 t) (iblk1 V c 1 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (remap_sound c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole program's run: @main as five items — reshape, the histogram call, the table's host arithmetic, the
  remap call, reshape — launched once.  Between items a core holds every unscoped buffer at a named valuation:
  the launch memory, then each host stretch applied, then each call's output array replaced by what its
  write-backs leave.  Every weakly fair execution terminates with every unscoped buffer at the last valuation.
-/
import proofs.«413439_j36876589203620_2_alg».proof.Proof.KI.R0Dat
import proofs.«413439_j36876589203620_2_alg».proof.Proof.KI.R1Dat
import proofs.«413439_j36876589203620_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations between items -/

/-- The buffers when the histogram call is entered, read at the TensorCore's references. -/
abbrev Vr1 : (c : Dev nD) → (b : Ref sig .tc) → Buf (Elt F) ((c : Thread nD τ).loc b) := fun c b => Gen.V1 m c b

/-- What the histogram call leaves in its output array. -/
def o2 (c : Dev nD) : Buf (Elt F) ((c : Thread nD τ).loc main_v1) := (dat0 (Vr1 m) c).arrAt 1 cfg0.N

/-- The regions' outputs, first stage: only the histogram call's is named. -/
def outsA : Gen.Outs (F := F) := fun _ r c => Function.update (Gen.V1 m c) main_v1 (o2 m c) r

/-- The buffers when the remap call is entered. -/
abbrev Vr3 : (c : Dev nD) → (b : Ref sig .tc) → Buf (Elt F) ((c : Thread nD τ).loc b) := fun c b => Gen.V3 m (outsA m) c b

/-- What the remap call leaves in its output array. -/
def o4 (c : Dev nD) : Buf (Elt F) ((c : Thread nD τ).loc main_v18) := (dat1 (Vr3 m) c).arrAt 2 cfg1.N

/-- The regions' outputs. -/
def outs : Gen.Outs (F := F) := fun n r c => match n with
  | 2 => outsA m 2 r c
  | _ => Function.update (Gen.V3 m (outsA m) c) main_v18 (o4 m c) r

theorem outs_2 (c : Dev nD) : outs m 2 main_v1 c = o2 m c := by
  show Function.update (Gen.V1 m c) main_v1 (o2 m c) main_v1 = _
  exact Function.update_self ..
theorem outs_4 (c : Dev nD) : outs m 4 main_v18 c = o4 m c := by
  show Function.update (Gen.V3 m (outsA m) c) main_v18 (o4 m c) main_v18 = _
  exact Function.update_self ..
theorem V2_outs (c : Dev nD) : Gen.V2 m (outs m) c = Gen.V2 m (outsA m) c := rfl
theorem V3_outs (c : Dev nD) : Gen.V3 m (outs m) c = Gen.V3 m (outsA m) c := rfl

/-! ## The proof data family and the thread state -/

/-- No pipeline has a prefetched table. -/
abbrev adm2 : (p : Fin 2) → (pcfgs (F := F) p).Adm := fun p => (cfgs p).toPCfg_adm

/-- Every pipeline's proof data, each at its region's entry contents. -/
def pdat : (p : Fin 2) → (c : Dev nD) → Dat τ (Elt F) Unit ℕ (UR sig nD τ) ℕ (Pipeline.pin (pcfgs (F := F)) adm2 p) c
  | ⟨0, _⟩ => fun c => dat0 (Vr1 m) c
  | ⟨1, _⟩ => fun c => dat1 (Vr3 m) c

abbrev 𝒱n : Variants := Variants.none
/-- No core owes another anything: no level is assigned. -/
abbrev Ln : GSem nD τ sig → Finset Unit := fun _ => ∅
abbrev lvn : GSem nD τ sig → Unit → ℕ := fun _ _ => 0

/-- What rides beside the buffers through every item: the generator register at some state, and nothing owed. -/
abbrev Rst (c : Dev nD) : sProp 𝕄 := iprop((∃ r, prngReg c r) ∗ ∃ W, owes (c : Thread nD τ) (0 : CellTallies nD τ sig Unit) W)

/-- A host stretch as a segment over the unscoped references from the contents `W`. -/
abbrev hsg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tfin (c : Dev nD) : sProp 𝕄 := iprop(StableHlo.held (c : Thread nD τ) (Pipeline.ucRefs τ sig) (Gen.V5 m (outs m) c) ∗ ∃ r, prngReg c r)

/-! ## What each call's exit holds, array by array -/

theorem hF0 (c : Dev nD) (w : Fin cfg0.W) : (dat0 (Vr1 m) c).arrAt w cfg0.N = Gen.V2 m (outs m) c (Pipeline.arrRef spec0 w) := by
  match w with
  | ⟨0, _⟩ =>
    refine ((dat0 (Vr1 m) c).arrAt_in 0 rfl _).trans ((A_eq0 (Vr1 m) c 0).trans ?_)
    exact (Gen.V2_of m (outs m) c main_v0 (by decide)).symm
  | ⟨1, _⟩ =>
    have e : Gen.V2 m (outs m) c main_v1 = o2 m c := by
      simp only [Function.update_self]; exact outs_2 m c
    exact e.symm
theorem hrest0 (c : Dev nD) : ∀ b, b ∉ Finset.univ.image (Pipeline.arrRef spec0) → Gen.V2 m (outs m) c b = Gen.V1 m c b := by
  intro b hb
  refine Gen.V2_of m (outs m) c b ?_
  intro hmem
  rw [List.mem_singleton] at hmem
  exact hb (Finset.mem_image.mpr ⟨1, Finset.mem_univ _, hmem.symm⟩)

theorem hF1 (c : Dev nD) (w : Fin cfg1.W) : (dat1 (Vr3 m) c).arrAt w cfg1.N = Gen.V4 m (outs m) c (Pipeline.arrRef spec1 w) := by
  match w with
  | ⟨0, _⟩ =>
    refine ((dat1 (Vr3 m) c).arrAt_in 0 rfl _).trans ((A_eq1 (Vr3 m) c 0).trans ?_)
    exact (Gen.V4_of m (outs m) c main_v0 (by decide)).symm
  | ⟨1, _⟩ =>
    refine ((dat1 (Vr3 m) c).arrAt_in 1 rfl _).trans ((A_eq1 (Vr3 m) c 1).trans ?_)
    exact (Gen.V4_of m (outs m) c main_v17 (by decide)).symm
  | ⟨2, _⟩ =>
    have e : Gen.V4 m (outs m) c main_v18 = o4 m c := by
      simp only [Function.update_self]; exact outs_4 m c
    exact e.symm
theorem hrest1 (c : Dev nD) : ∀ b, b ∉ Finset.univ.image (Pipeline.arrRef spec1) → Gen.V4 m (outs m) c b = Vr3 m c b := by
  intro b hb
  refine Gen.V4_of m (outs m) c b ?_
  intro hmem
  rw [List.mem_singleton] at hmem
  exact hb (Finset.mem_image.mpr ⟨2, Finset.mem_univ _, hmem.symm⟩)

/-! ## The calls as segments -/

set_option backward.isDefEq.respectTransparency.types false in
/-- The histogram call: entered from every unscoped buffer at `V1`, left at `V2`. -/
def rg0 : Pipeline.RegionSeg (pcfgs (F := F)) adm2 (pdat m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ Ln lvn 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm2 (pdat m) launch0.win launch0.arr_whole c
      ((pdat m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vr1 m) c)
    unfold Pipeline.ΦA
    iintro ⟨Hp, -, Hr⟩
    isplitl [Hr]; · iexact Hr
    iexact Hp
  hout c := by
    rw [Pipeline.ownSems0_none]
    refine (hout0 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm2 (Ix := Unit) (Name := ℕ) (U := UR sig nD τ) (Lvl := ℕ)
      launch0.win launch0.arr_whole c (pdat m) ((pdat m 0 c).share_full fun _ => rfl)
      (Vr1 m c) (fun b => Gen.V2 m (outs m) c b) ((pdat m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The remap call: entered from every unscoped buffer at `V3`, left at `V4`. -/
def rg1 : Pipeline.RegionSeg (pcfgs (F := F)) adm2 (pdat m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ Ln lvn 1 fun _ _ => rfl
  pre c := iprop(StableHlo.held (c : Thread nD τ) (Pipeline.ucRefs τ sig) (Gen.V3 m (outsA m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm2 (pdat m) launch1.win launch1.arr_whole c
      ((pdat m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm2 (Ix := Unit) (Name := ℕ) (U := UR sig nD τ) (Lvl := ℕ)
      launch1.win launch1.arr_whole c (pdat m) ((pdat m 1 c).share_full fun _ => rfl)
      (Vr3 m c) (fun b => Gen.V4 m (outs m) c b) ((pdat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five items in order. -/
abbrev hsegs : List (Pipeline.Seg (pcfgs (F := F)) adm2 (pdat m) () defs₀ 𝒱n Ln lvn) :=
  [ .host (hsg hostOps0 hostOps0_sub Gen.hostOps0_fresh (Gen.V0 m)),
    .region (rg0 m),
    .host (hsg hostOps1 hostOps1_sub Gen.hostOps1_fresh (Gen.V2 m (outs m))),
    .region (rg1 m),
    .host (hsg hostOps2 hostOps2_sub Gen.hostOps2_fresh (Gen.V4 m (outs m))) ]

/-- @main is the run of the segments. -/
theorem main_run (c : Dev nD) : main (F := F) c = Pipeline.Seg.run (hsegs m) := (main_chain c).trans (by chain_rfl)

set_option backward.isDefEq.respectTransparency.types false in
/-- THE RUN: from any memory with zero counters every weakly fair execution of @main terminates, nothing faulting,
    and every final state holds every unscoped buffer at the last valuation `V5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outs m) c b) :=
  Pipeline.θ_run_regions_kit (pcfgs (F := F)) adm2 (pdat m) () cellOf_inj emb₁ defs₀ 𝒱n Ln lvn m ρ main (hsegs m)
    (fun c Q => by rw [main_run m c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c)) (Tₙ := Tfin m)
    (hch := ⟨fun _ => .rfl, fun _ => .rfl, fun _ => .rfl, fun _ => .rfl, fun _ => .rfl, fun c => by
      show iprop(StableHlo.held (c : Thread nD τ) (Pipeline.ucRefs τ sig) (Gen.V5 m (outs m) c) ∗ Rst c) ⊢ _
      iintro ⟨Hh, Hp, HO⟩
      isplitl [Hh Hp]
      · isplitl [Hh]; · iexact Hh
        iexact Hp
      iexact HO⟩)
    (hinit := by
      refine Pipeline.initEach Ln lvn fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outs m) c) s')
      isplitl [Hh] <;> iassumption)
    (hQ := fun s h c => h c)

/-- The frame: the argument array ends as launched (no host operation and no call writes it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (Gen.V5_main_arg0 m (outs m) c)) (run m ρ)

/-- The run read at the result and at the argument. -/
theorem run_result : θ_run defs (onTc (τ := τ) (main (F := F))) ⟨m, fun _ => 0, ρ⟩ (fun r => ∀ c : Dev nD,
      r.2.mem ((c.tc : Thread nD τ).loc main_v19) = Gen.V5 m (outs m) c main_v19
      ∧ r.2.mem ((c.tc : Thread nD τ).loc main_arg0) = m ((c.tc : Thread nD τ).loc main_arg0)) :=
  (θ_run defs _ _).mono (fun r h c => ⟨h c _ (mem_uc main_v19 (by decide)),
    (h c _ (mem_uc main_arg0 (by decide))).trans (Gen.V5_main_arg0 m (outs m) c)⟩) (run m ρ)

end Cert.KernelIdeal.Hand

end
-- ==== Proof.KV.Words.lean ====
/-
  What the block functions mean over the extended reals, stated per pixel word.

  A pixel word w carries the label hi·128 + lo exactly when its arithmetic shift right by 7 is hi (0 ≤ hi < 16)
  and its low seven bits are lo; that is, when the word read unsigned is hi·128 + lo.  So one histogram point
  adds, at (hi, lo), the number of the block's pixels whose word is hi·128 + lo (`blkCnt`), and one remap point
  replaces a pixel by 0 exactly when its word is below 2048 and the table, at the word's (hi, lo), exceeds 1/2
  (`remapWord`); a word of 2048 or more matches no table row and is kept.
-/
import proofs.«413439_j36876589203620_2_alg».proof.Proof.KI.Blocks
import Idealize.ShloMosaic.PureOps.Ideal
import Idealize.ShloMosaic.Lib.ValueIdx

noncomputable section

namespace Cert.KernelIdeal.Hand

open Idealize.ShloMosaic Idealize.ShloMosaic.ValueIdx Cert.KernelIdeal

/-- How many pixels of a 128 × 1024 block carry the label a·128 + b. -/
def blkCnt (x : Vec Ideal S128x1024 .i32) (a : Fin 16) (b : Fin 128) : ℕ :=
  (Finset.univ.filter fun j : S128x1024.Idx => (x j : BitVec 32).toNat = a.val * 128 + b.val).card

/-- How many pixels in core-slice p (flat rows 16384·p … 16384·p + 16383) of the flattened image carry label a·128 + b. -/
def sliceCnt (z : Vec Ideal S32768x1024 .i32) (p : Fin 2) (a : Fin 16) (b : Fin 128) : ℕ :=
  (Finset.univ.filter fun j : S32768x1024.Idx => (j 0).val / 16384 = p.val ∧ (z j : BitVec 32).toNat = a.val * 128 + b.val).card

/-- One pixel through the remap: 0 when its label's table entry exceeds 1/2, else itself. -/
def remapWord (y : Vec Ideal S16x128 .f32) (w : BitVec 32) : BitVec 32 :=
  if h : w.toNat < 2048 then
    (if ((1 / 2 : ℝ) : EReal) < (y (ix2 (⟨w.toNat / 128, by omega⟩ : Fin 16) (⟨w.toNat % 128, Nat.mod_lt _ (by norm_num)⟩ : Fin 128)) : EReal)
      then 0#32 else w)
  else w

end Cert.KernelIdeal.Hand

end
-- ==== Proof.KV.HistPay.lean ====
/-
  The histogram kernel's block functions read at an index, over the extended reals.

  One chunk (16 rows × 1024 pixels, read as 16384 positions in row-major order) contributes the product of
  the one-hot matrix of its high parts (16 × 16384: row a holds 1 at the positions whose word, shifted right
  arithmetically by 7, is a) with the one-hot matrix of its low parts (16384 × 128: lane b holds 1 at the
  positions whose low seven bits are b).  At (a, b) that product is the sum over the positions of the two
  indicators' product, that is, the number of positions whose word read unsigned is a·128 + b.  The row-major
  reading is a bijection of the 16384 positions with the chunk's indices, so this is the chunk's count of that
  label; the block's 128 rows are the eight chunks' 16 rows one after another, so the eight counts add up to
  the block's count.  Counts are naturals, hence finite, and their sum in the extended reals is the plain sum.
-/
import proofs.«413439_j36876589203620_2_alg».proof.Proof.KV.Words
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-! The auxiliary definitions and lemmas live in their own namespace; the three block functions' readings at the
    end are stated in the enclosing one. -/
namespace HistPay

/-! ## The shared sub-terms of one chunk -/

/-- A chunk of 16 rows × 1024 pixels read as its 16384 positions in row-major order. -/
abbrev flat (v : Vec Ideal S16x1024 .i32) : IVec S16384 32 :=
  shapeCast S16384 (shapeCast S16x1024 v shapeCasts_S16x1024_S16x1024) shapeCasts_S16x1024_S16384

/-- The high parts: each word shifted right (arithmetically) by 7. -/
abbrev hiPart (f : IVec S16384 32) : IVec S16384 32 := shrsi f (broadcast S16384 7#32)
/-- The low parts: each word's low seven bits. -/
abbrev loPart (f : IVec S16384 32) : IVec S16384 32 := andi f (broadcast S16384 127#32)

/-- The one-hot matrix of the high parts: row a, position k holds 1 when position k's high part is a. -/
def hiOH (h : IVec S16384 32) : FVec Ideal S16x16384 .bf16 :=
  truncf .bf16 (sitofp .f32 (extui 32 (cmpi .eq
    (broadcastTo S16x16384 (iota .tc S16x1 32 [0] iota_S16x1_d0_w32) broadcasts_S16x1_S16x16384)
    (broadcastTo S16x16384 (shapeCast S1x16384 h shapeCasts_S16384_S1x16384) broadcasts_S1x16384_S16x16384)) natLt_1_32)) bitsLt_bf16_f32

/-- The one-hot matrix of the low parts: position k, lane b holds 1 when position k's low part is b. -/
def loOH (g : IVec S16384 32) (lane : IVec S1x128 32) : FVec Ideal S16384x128 .bf16 :=
  truncf .bf16 (sitofp .f32 (extui 32 (cmpi .eq
    (broadcastTo S16384x128 (shapeCast S16384x1 g shapeCasts_S16384_S16384x1) broadcasts_S16384x1_S16384x128)
    (broadcastTo S16384x128 lane broadcasts_S1x128_S16384x128)) natLt_1_32)) bitsLt_bf16_f32

/-- The product of two such matrices. -/
def ohProd (L : FVec Ideal S16x16384 .bf16) (R : FVec Ideal S16384x128 .bf16) : FVec Ideal S16x128 .f32 :=
  matmul dot_S16x16384_S16384x128_S16x128_1_0_0_1_n_n none L R (constant S16x128 .f32 0x00000000#32)

/-- One whole chunk's product. -/
def chunkProd (v : Vec Ideal S16x1024 .i32) : FVec Ideal S16x128 .f32 :=
  ohProd (hiOH (hiPart (flat v))) (loOH (loPart (flat v)) laneIota)

theorem k0_pay5_eq (v : Vec Ideal S16x1024 .i32) : k0_pay5 (F := Ideal) v = flat v := rfl
theorem k0_pay6_eq (v : Vec Ideal S16x1024 .i32) : k0_pay6 (F := Ideal) v = loPart (flat v) := rfl
theorem k0_pay7_eq (v : Vec Ideal S16x1024 .i32) : k0_pay7 (F := Ideal) v = hiOH (hiPart (flat v)) := rfl
theorem k0_pay10_eq (v : Vec Ideal S16x1024 .i32) : k0_pay10 (F := Ideal) v = loPart (flat v) := rfl
theorem k0_pay11_eq (v : Vec Ideal S16x1024 .i32) : k0_pay11 (F := Ideal) v = hiOH (hiPart (flat v)) := rfl
theorem k0_pay14_eq (v : Vec Ideal S16x1024 .i32) : k0_pay14 (F := Ideal) v = loPart (flat v) := rfl
theorem k0_pay15_eq (v : Vec Ideal S16x1024 .i32) : k0_pay15 (F := Ideal) v = hiOH (hiPart (flat v)) := rfl
theorem k0_pay18_eq (v : Vec Ideal S16x1024 .i32) : k0_pay18 (F := Ideal) v = loPart (flat v) := rfl
theorem k0_pay19_eq (v : Vec Ideal S16x1024 .i32) : k0_pay19 (F := Ideal) v = hiOH (hiPart (flat v)) := rfl

theorem k0_pay4_eq (v : Vec Ideal S16x1024 .i32) :
    k0_pay4 (F := Ideal) v = addf (broadcast S16x128 (Scalar.ofBits .f32 0x00000000#32)) (chunkProd v) := rfl

theorem k0_pay8_eq (p : FVec Ideal S16x128 .f32) (v v' : Vec Ideal S16x1024 .i32) :
    k0_pay8 (F := Ideal) p (loPart (flat v)) laneIota (hiOH (hiPart (flat v))) v' = addf (addf p (chunkProd v)) (chunkProd v') := rfl
theorem k0_pay12_eq (p : FVec Ideal S16x128 .f32) (v v' : Vec Ideal S16x1024 .i32) :
    k0_pay12 (F := Ideal) p (loPart (flat v)) laneIota (hiOH (hiPart (flat v))) v' = addf (addf p (chunkProd v)) (chunkProd v') := rfl
theorem k0_pay16_eq (p : FVec Ideal S16x128 .f32) (v v' : Vec Ideal S16x1024 .i32) :
    k0_pay16 (F := Ideal) p (loPart (flat v)) laneIota (hiOH (hiPart (flat v))) v' = addf (addf p (chunkProd v)) (chunkProd v') := rfl
theorem k0_pay1_eq (p : FVec Ideal S16x128 .f32) (v : Vec Ideal S16x1024 .i32) (s : Vec Ideal S16x128 .f32) :
    k0_pay1 (F := Ideal) p (loPart (flat v)) laneIota (hiOH (hiPart (flat v))) s
      = shapeCast S16x128 (addf s (addf p (chunkProd v))) shapeCasts_S16x128_S16x128 := rfl

/-! ## The one-hot matrices and their product, read at an index -/

/-- A compare bit widened and converted is the extended real 1 or 0. -/
theorem oh_word (x y : BitVec 32) :
    (FloatOps.sitofp (F := Ideal) .f32 ((IntOp.cmpi .eq x y).setWidth 32) : EReal) = if x = y then 1 else 0 := by
  show (((((BitVec.ofBool (x == y)).setWidth 32).toInt : ℝ)) : EReal) = _
  by_cases h : x = y
  · subst h
    rw [if_pos rfl, beq_self_eq_true]
    show ((((1 : Int) : ℝ)) : EReal) = 1
    norm_num
  · rw [if_neg h, show (x == y) = false from by simpa using h]
    show ((((0 : Int) : ℝ)) : EReal) = 0
    norm_num

theorem hiOH_apply (h : IVec S16384 32) (a : Fin 16) (k : Fin 16384) :
    hiOH h (ix2 a k) = if BitVec.ofNat 32 a.val = h (ix1 k) then (1 : EReal) else 0 := by
  unfold hiOH
  rw [truncf_apply, sitofp_apply, extui_apply]
  show FloatOps.sitofp (F := Ideal) .f32 ((IntOp.cmpi .eq
    (broadcastTo S16x16384 (iota .tc S16x1 32 [0] iota_S16x1_d0_w32) broadcasts_S16x1_S16x16384 (ix2 a k))
    (broadcastTo S16x16384 (shapeCast S1x16384 h shapeCasts_S16384_S1x16384) broadcasts_S1x16384_S16x16384 (ix2 a k))).setWidth 32) = _
  rw [broadcastTo_apply _ broadcasts_S16x1_S16x16384 (ix2 a k) (ix2 a (0 : Fin 1)) (fun c => match c with
      | ⟨0, _⟩ => rfl
      | ⟨1, _⟩ => rfl),
    broadcastTo_1b_ab_apply, iota_single_apply, shapeCast_a_1a_apply, oh_word]

theorem loOH_apply (g : IVec S16384 32) (k : Fin 16384) (b : Fin 128) :
    loOH g laneIota (ix2 k b) = if g (ix1 k) = BitVec.ofNat 32 b.val then (1 : EReal) else 0 := by
  unfold loOH laneIota
  rw [truncf_apply, sitofp_apply, extui_apply]
  show FloatOps.sitofp (F := Ideal) .f32 ((IntOp.cmpi .eq
    (broadcastTo S16384x128 (shapeCast S16384x1 g shapeCasts_S16384_S16384x1) broadcasts_S16384x1_S16384x128 (ix2 k b))
    (broadcastTo S16384x128 (iota .tc S1x128 32 [1] iota_S1x128_d1_w32) broadcasts_S1x128_S16384x128 (ix2 k b))).setWidth 32) = _
  rw [broadcastTo_apply _ broadcasts_S16384x1_S16384x128 (ix2 k b) (ix2 k (0 : Fin 1)) (fun c => match c with
      | ⟨0, _⟩ => rfl
      | ⟨1, _⟩ => rfl),
    broadcastTo_1b_ab_apply, iota_single_apply,
    shapeCast_apply g shapeCasts_S16384_S16384x1 (ix2 k (0 : Fin 1)) (ix1 k) (by
      rw [Shape.rowMajor_val_two, Shape.rowMajor_val_one]
      show k.val = k.val * 1 + 0
      omega), oh_word]

/-! The four axis facts of the product's dimension numbers. -/

theorem lhs_dot_0 (j : S16x128.Idx) (k : dot_S16x16384_S16384x128_S16x128_1_0_0_1_n_n.contr.Idx) :
    (dot_S16x16384_S16384x128_S16x128_1_0_0_1_n_n.lhsIdx j k 0).val = (j 0).val := by
  unfold DotDims.lhsIdx
  rw [dif_neg (show ¬(0 : Fin S16x16384.rank) ∈ dot_S16x16384_S16384x128_S16x128_1_0_0_1_n_n.lhsBatch by decide),
    dif_pos (show (0 : Fin S16x16384.rank) ∈ dot_S16x16384_S16384x128_S16x128_1_0_0_1_n_n.lhsNonContracting by decide)]
  rfl
theorem lhs_dot_1 (j : S16x128.Idx) (k : dot_S16x16384_S16384x128_S16x128_1_0_0_1_n_n.contr.Idx) :
    (dot_S16x16384_S16384x128_S16x128_1_0_0_1_n_n.lhsIdx j k 1).val = (k ⟨0, by decide⟩).val :=
  DotDims.lhsIdx_val_of_single _ rfl j k
theorem rhs_dot_0 (j : S16x128.Idx) (k : dot_S16x16384_S16384x128_S16x128_1_0_0_1_n_n.contr.Idx) :
    (dot_S16x16384_S16384x128_S16x128_1_0_0_1_n_n.rhsIdx j k 0).val = (k ⟨0, by decide⟩).val :=
  DotDims.rhsIdx_val_of_single _ rfl j k
theorem rhs_dot_1 (j : S16x128.Idx) (k : dot_S16x16384_S16384x128_S16x128_1_0_0_1_n_n.contr.Idx) :
    (dot_S16x16384_S16384x128_S16x128_1_0_0_1_n_n.rhsIdx j k 1).val = (j 1).val := by
  unfold DotDims.rhsIdx
  rw [dif_neg (show ¬(1 : Fin S16384x128.rank) ∈ dot_S16x16384_S16384x128_S16x128_1_0_0_1_n_n.rhsBatch by decide),
    dif_pos (show (1 : Fin S16384x128.rank) ∈ dot_S16x16384_S16384x128_S16x128_1_0_0_1_n_n.rhsNonContracting by decide)]
  rfl

/-- The product at (a, b) is the sum over the 16384 positions of the two factors there. -/
theorem ohProd_apply (L : FVec Ideal S16x16384 .bf16) (R : FVec Ideal S16384x128 .bf16) (a : Fin 16) (b : Fin 128) :
    ohProd L R (ix2 a b) = ∑ k : Fin 16384, (L (ix2 a k) : EReal) * (R (ix2 k b) : EReal) := by
  unfold ohProd
  simp only [matmul]
  refine (Ideal.matmul_constant_zero_apply _ none L R (ix2 a b)).trans ?_
  rw [← Equiv.sum_comp (contrEquiv1 dot_S16x16384_S16384x128_S16x128_1_0_0_1_n_n 16384 rfl rfl).symm]
  refine Finset.sum_congr rfl fun k _ => ?_
  have hk := contrEquiv1_symm_val dot_S16x16384_S16384x128_S16x128_1_0_0_1_n_n 16384 rfl rfl k
  have eL : dot_S16x16384_S16384x128_S16x128_1_0_0_1_n_n.lhsIdx (ix2 a b)
      ((contrEquiv1 dot_S16x16384_S16384x128_S16x128_1_0_0_1_n_n 16384 rfl rfl).symm k) = ix2 a k :=
    funext fun c => Fin.ext (match c with
      | ⟨0, _⟩ => lhs_dot_0 _ _
      | ⟨1, _⟩ => (lhs_dot_1 _ _).trans hk)
  have eR : dot_S16x16384_S16384x128_S16x128_1_0_0_1_n_n.rhsIdx (ix2 a b)
      ((contrEquiv1 dot_S16x16384_S16384x128_S16x128_1_0_0_1_n_n 16384 rfl rfl).symm k) = ix2 k b :=
    funext fun c => Fin.ext (match c with
      | ⟨0, _⟩ => (rhs_dot_0 _ _).trans hk
      | ⟨1, _⟩ => rhs_dot_1 _ _)
  rw [eL, eR]

/-! ## Shift and mask: the label a word carries -/

/-- A word's arithmetic shift right by 7 is a (below 16) and its low seven bits are b exactly when the word,
    read unsigned, is a·128 + b. -/
theorem word_label_iff (w : BitVec 32) (a : Fin 16) (b : Fin 128) :
    (BitVec.ofNat 32 a.val = IntOp.shrsi .vector w 7#32 ∧ IntOp.andi w 127#32 = BitVec.ofNat 32 b.val)
      ↔ w.toNat = a.val * 128 + b.val := by
  have ha := a.isLt
  have hb := b.isLt
  have hw := w.isLt
  have hsh : IntOp.shrsi .vector w 7#32 = w.sshiftRight 7 := by
    unfold IntOp.shrsi
    rw [if_pos (by decide)]
    rfl
  have hshI : (w.sshiftRight 7).toInt = w.toInt / 128 := by
    rw [BitVec.toInt_sshiftRight, Int.shiftRight_eq_div_pow]
    norm_num
  have hand : (IntOp.andi w 127#32).toNat = w.toNat % 128 := by
    show (w &&& 127#32).toNat = _
    rw [BitVec.toNat_and]
    exact Nat.and_two_pow_sub_one_eq_mod w.toNat 7
  have haI : (BitVec.ofNat 32 a.val).toInt = (a.val : Int) := by
    rw [BitVec.toInt_eq_toNat_cond, BitVec.toNat_ofNat, Nat.mod_eq_of_lt (by omega), if_pos (by omega)]
  have hbN : (BitVec.ofNat 32 b.val).toNat = b.val := by
    rw [BitVec.toNat_ofNat, Nat.mod_eq_of_lt (by omega)]
  have hwI := BitVec.toInt_eq_toNat_cond w
  rw [hsh]
  constructor
  · rintro ⟨h1, h2⟩
    have e1 : (a.val : Int) = w.toInt / 128 := by rw [← haI, h1, hshI]
    have e2 : w.toNat % 128 = b.val := by rw [← hand, h2, hbN]
    split_ifs at hwI <;> omega
  · intro h
    refine ⟨BitVec.eq_of_toInt_eq ?_, BitVec.eq_of_toNat_eq ?_⟩
    · rw [haI, hshI]
      split_ifs at hwI <;> omega
    · rw [hand, hbN]
      omega

/-! ## A chunk's product counts its pixels of each label -/

/-- The reals inside the extended reals, as an additive map: sums of reals stay sums. -/
def realHom : ℝ →+ EReal := ⟨⟨Real.toEReal, EReal.coe_zero⟩, EReal.coe_add⟩

theorem coe_sum_real {ι : Type*} (s : Finset ι) (f : ι → ℝ) : ((∑ i ∈ s, f i : ℝ) : EReal) = ∑ i ∈ s, (f i : EReal) :=
  map_sum realHom f s

/-- A sum of indicators is the number of indices where the condition holds. -/
theorem sum_indicator_card {ι : Type*} [Fintype ι] (C : ι → Prop) [DecidablePred C] :
    (∑ k : ι, if C k then (1 : EReal) else 0) = (((Finset.univ.filter C).card : ℝ) : EReal) := by
  have : ∀ k : ι, (if C k then (1 : EReal) else 0) = (((if C k then (1 : ℝ) else 0) : ℝ) : EReal) := fun k => by
    split_ifs
    · exact EReal.coe_one.symm
    · exact EReal.coe_zero.symm
  rw [Finset.sum_congr rfl fun k _ => this k, ← coe_sum_real, Finset.sum_boole]

/-- The positions of a rank-1 shape are its one coordinate. -/
def fin1Equiv (n : ℕ) : Fin n ≃ (⟨1, ![n]⟩ : Shape).Idx := ⟨ix1, fun j => j 0, fun _ => rfl, fun j => (eq_ix1 j).symm⟩

/-- The 16384 positions of a chunk, matched with its 16 × 1024 indices in row-major order. -/
def chunkEquiv : Fin 16384 ≃ S16x1024.Idx :=
  ((fin1Equiv 16384).trans (Shape.reshapeEquiv shapeCasts_S16x1024_S16384)).trans (Shape.reshapeEquiv shapeCasts_S16x1024_S16x1024)

theorem flat_apply (v : Vec Ideal S16x1024 .i32) (k : Fin 16384) : flat v (ix1 k) = v (chunkEquiv k) := rfl

/-- How many pixels of a 16 × 1024 chunk carry the label a·128 + b. -/
def chunkCnt (v : Vec Ideal S16x1024 .i32) (a : Fin 16) (b : Fin 128) : ℕ :=
  (Finset.univ.filter fun j : S16x1024.Idx => (v j : BitVec 32).toNat = a.val * 128 + b.val).card

theorem chunkProd_apply (v : Vec Ideal S16x1024 .i32) (a : Fin 16) (b : Fin 128) :
    chunkProd v (ix2 a b) = (((chunkCnt v a b : ℕ) : ℝ) : EReal) := by
  unfold chunkProd
  rw [ohProd_apply]
  have hterm : ∀ k : Fin 16384,
      (hiOH (hiPart (flat v)) (ix2 a k) : EReal) * (loOH (loPart (flat v)) laneIota (ix2 k b) : EReal)
        = if ((v (chunkEquiv k) : BitVec 32).toNat = a.val * 128 + b.val) then (1 : EReal) else 0 := fun k => by
    rw [hiOH_apply, loOH_apply]
    show (if BitVec.ofNat 32 a.val = IntOp.shrsi .vector (flat v (ix1 k)) 7#32 then (1 : EReal) else 0)
        * (if IntOp.andi (flat v (ix1 k)) 127#32 = BitVec.ofNat 32 b.val then (1 : EReal) else 0) = _
    rw [flat_apply]
    have h := word_label_iff (v (chunkEquiv k)) a b
    by_cases hc : (v (chunkEquiv k) : BitVec 32).toNat = a.val * 128 + b.val
    · obtain ⟨h1, h2⟩ := h.mpr hc
      rw [if_pos h1, if_pos h2, if_pos hc, one_mul]
    · rw [if_neg hc]
      by_cases h1 : BitVec.ofNat 32 a.val = IntOp.shrsi .vector (v (chunkEquiv k)) 7#32
      · have h2 : ¬ IntOp.andi (v (chunkEquiv k)) 127#32 = BitVec.ofNat 32 b.val := fun h2 => hc (h.mp ⟨h1, h2⟩)
        rw [if_neg h2, mul_zero]
      · rw [if_neg h1, zero_mul]
  rw [Finset.sum_congr rfl fun k _ => hterm k,
    Equiv.sum_comp chunkEquiv (fun j : S16x1024.Idx => if ((v j : BitVec 32).toNat = a.val * 128 + b.val) then (1 : EReal) else 0),
    sum_indicator_card]
  rfl

/-! ## The block is its eight chunks -/

/-- Row i of chunk q is row 16·q + i of the block. -/
def rowOf (q : Fin 8) (i : Fin 16) : Fin 128 := ⟨16 * q.val + i.val, by omega⟩

/-- The block's 128 rows are 8 chunks of 16 rows. -/
def rowEquiv : Fin 8 × Fin 16 ≃ Fin 128 where
  toFun p := rowOf p.1 p.2
  invFun r := (⟨r.val / 16, by omega⟩, ⟨r.val % 16, Nat.mod_lt _ (by norm_num)⟩)
  left_inv := by
    rintro ⟨q, i⟩
    refine Prod.ext (Fin.ext ?_) (Fin.ext ?_)
    · show (16 * q.val + i.val) / 16 = q.val
      omega
    · show (16 * q.val + i.val) % 16 = i.val
      omega
  right_inv := by
    intro r
    refine Fin.ext ?_
    show 16 * (r.val / 16) + r.val % 16 = r.val
    omega

/-- The block's count, chunk by chunk, row by row, pixel by pixel. -/
theorem blkCnt_eq (x : Vec Ideal S128x1024 .i32) (a : Fin 16) (b : Fin 128) :
    blkCnt x a b = ∑ q : Fin 8, ∑ i : Fin 16, ∑ c : Fin 1024,
      if (x (ix2 (rowOf q i) c) : BitVec 32).toNat = a.val * 128 + b.val then 1 else 0 := by
  unfold blkCnt
  rw [Finset.card_filter, sum_idx2,
    ← Equiv.sum_comp rowEquiv (fun r : Fin 128 => ∑ c : Fin 1024, if (x (ix2 r c) : BitVec 32).toNat = a.val * 128 + b.val then 1 else 0),
    Fintype.sum_prod_type]
  exact Finset.sum_congr rfl fun q _ => Finset.sum_congr rfl fun i _ => rfl

/-- A chunk whose rows are rows 16·q … 16·q + 15 of the block counts those rows' pixels. -/
theorem chunkCnt_rows (x : Vec Ideal S128x1024 .i32) (a : Fin 16) (b : Fin 128) (q : Fin 8)
    (v : Vec Ideal S16x1024 .i32) (hv : ∀ (i : Fin 16) (c : Fin 1024), v (ix2 i c) = x (ix2 (rowOf q i) c)) :
    chunkCnt v a b = ∑ i : Fin 16, ∑ c : Fin 1024,
      if (x (ix2 (rowOf q i) c) : BitVec 32).toNat = a.val * 128 + b.val then 1 else 0 := by
  unfold chunkCnt
  rw [Finset.card_filter, sum_idx2]
  refine Finset.sum_congr rfl fun i _ => Finset.sum_congr rfl fun c _ => ?_
  rw [hv]

theorem ld_rH0 (x : Vec Ideal S128x1024 .i32) (i : Fin 16) (c : Fin 1024) : View.ld x rH0 (ix2 i c) = x (ix2 (rowOf 0 i) c) :=
  congrArg x (funext fun d => Fin.ext (match d with
    | ⟨0, _⟩ => by show 0 + 1 * i.val = 16 * 0 + i.val; omega
    | ⟨1, _⟩ => by show 0 + 1 * c.val = c.val; omega))
theorem ld_rH1 (x : Vec Ideal S128x1024 .i32) (i : Fin 16) (c : Fin 1024) : View.ld x rH1 (ix2 i c) = x (ix2 (rowOf 1 i) c) :=
  congrArg x (funext fun d => Fin.ext (match d with
    | ⟨0, _⟩ => by show 16 + 1 * i.val = 16 * 1 + i.val; omega
    | ⟨1, _⟩ => by show 0 + 1 * c.val = c.val; omega))
theorem ld_rH2 (x : Vec Ideal S128x1024 .i32) (i : Fin 16) (c : Fin 1024) : View.ld x rH2 (ix2 i c) = x (ix2 (rowOf 2 i) c) :=
  congrArg x (funext fun d => Fin.ext (match d with
    | ⟨0, _⟩ => by show 32 + 1 * i.val = 16 * 2 + i.val; omega
    | ⟨1, _⟩ => by show 0 + 1 * c.val = c.val; omega))
theorem ld_rH3 (x : Vec Ideal S128x1024 .i32) (i : Fin 16) (c : Fin 1024) : View.ld x rH3 (ix2 i c) = x (ix2 (rowOf 3 i) c) :=
  congrArg x (funext fun d => Fin.ext (match d with
    | ⟨0, _⟩ => by show 48 + 1 * i.val = 16 * 3 + i.val; omega
    | ⟨1, _⟩ => by show 0 + 1 * c.val = c.val; omega))
theorem ld_rH4 (x : Vec Ideal S128x1024 .i32) (i : Fin 16) (c : Fin 1024) : View.ld x rH4 (ix2 i c) = x (ix2 (rowOf 4 i) c) :=
  congrArg x (funext fun d => Fin.ext (match d with
    | ⟨0, _⟩ => by show 64 + 1 * i.val = 16 * 4 + i.val; omega
    | ⟨1, _⟩ => by show 0 + 1 * c.val = c.val; omega))
theorem ld_rH5 (x : Vec Ideal S128x1024 .i32) (i : Fin 16) (c : Fin 1024) : View.ld x rH5 (ix2 i c) = x (ix2 (rowOf 5 i) c) :=
  congrArg x (funext fun d => Fin.ext (match d with
    | ⟨0, _⟩ => by show 80 + 1 * i.val = 16 * 5 + i.val; omega
    | ⟨1, _⟩ => by show 0 + 1 * c.val = c.val; omega))
theorem ld_rH6 (x : Vec Ideal S128x1024 .i32) (i : Fin 16) (c : Fin 1024) : View.ld x rH6 (ix2 i c) = x (ix2 (rowOf 6 i) c) :=
  congrArg x (funext fun d => Fin.ext (match d with
    | ⟨0, _⟩ => by show 96 + 1 * i.val = 16 * 6 + i.val; omega
    | ⟨1, _⟩ => by show 0 + 1 * c.val = c.val; omega))
theorem ld_rH7 (x : Vec Ideal S128x1024 .i32) (i : Fin 16) (c : Fin 1024) : View.ld x rH7 (ix2 i c) = x (ix2 (rowOf 7 i) c) :=
  congrArg x (funext fun d => Fin.ext (match d with
    | ⟨0, _⟩ => by show 112 + 1 * i.val = 16 * 7 + i.val; omega
    | ⟨1, _⟩ => by show 0 + 1 * c.val = c.val; omega))

/-- The eight chunks' counts add up to the block's. -/
theorem blkCnt_chunks (x : Vec Ideal S128x1024 .i32) (a : Fin 16) (b : Fin 128) :
    blkCnt x a b = chunkCnt (View.ld x rH0) a b + chunkCnt (View.ld x rH1) a b + chunkCnt (View.ld x rH2) a b
      + chunkCnt (View.ld x rH3) a b + chunkCnt (View.ld x rH4) a b + chunkCnt (View.ld x rH5) a b
      + chunkCnt (View.ld x rH6) a b + chunkCnt (View.ld x rH7) a b := by
  rw [blkCnt_eq, Fin.sum_univ_eight,
    chunkCnt_rows x a b 0 (View.ld x rH0) (ld_rH0 x), chunkCnt_rows x a b 1 (View.ld x rH1) (ld_rH1 x),
    chunkCnt_rows x a b 2 (View.ld x rH2) (ld_rH2 x), chunkCnt_rows x a b 3 (View.ld x rH3) (ld_rH3 x),
    chunkCnt_rows x a b 4 (View.ld x rH4) (ld_rH4 x), chunkCnt_rows x a b 5 (View.ld x rH5) (ld_rH5 x),
    chunkCnt_rows x a b 6 (View.ld x rH6) (ld_rH6 x), chunkCnt_rows x a b 7 (View.ld x rH7) (ld_rH7 x)]

end HistPay

open HistPay

/-! ## The three block functions at an index -/

theorem histZero_apply (j : S16x128.Idx) : histZero (F := Ideal) j = (0 : EReal) := by
  unfold histZero k0_pay3
  rw [shapeCast_self, broadcast_apply]
  exact Ideal.ofBits_zero_f32

theorem histOut_apply (acc : Vec Ideal S16x128 .f32) (a : Fin 16) (b : Fin 128) :
    histOut (F := Ideal) acc (ix3 (0 : Fin 1) a b) = acc (ix2 a b) := by
  unfold histOut k0_pay2
  exact shapeCast_ab_1ab_apply acc shapeCasts_S16x128_S1x16x128 0 a b

/-- The point's new accumulator, as the old one plus the zero splat plus the eight chunks' products. -/
theorem histStep_eq (x : Vec Ideal S128x1024 .i32) (s : Vec Ideal S16x128 .f32) :
    histStep (F := Ideal) x s = shapeCast S16x128 (addf s (addf (addf (addf (addf (addf (addf (addf (addf
      (broadcast S16x128 (Scalar.ofBits .f32 0x00000000#32)) (chunkProd (View.ld x rH0))) (chunkProd (View.ld x rH1)))
      (chunkProd (View.ld x rH2))) (chunkProd (View.ld x rH3))) (chunkProd (View.ld x rH4))) (chunkProd (View.ld x rH5)))
      (chunkProd (View.ld x rH6))) (chunkProd (View.ld x rH7)))) shapeCasts_S16x128_S16x128 := by
  unfold histStep histPart
  rw [k0_pay6_eq, k0_pay7_eq, k0_pay10_eq, k0_pay11_eq, k0_pay14_eq, k0_pay15_eq, k0_pay18_eq, k0_pay19_eq,
    k0_pay4_eq, k0_pay8_eq, k0_pay12_eq, k0_pay16_eq, k0_pay1_eq]

theorem histStep_apply (x : Vec Ideal S128x1024 .i32) (s : Vec Ideal S16x128 .f32) (a : Fin 16) (b : Fin 128) :
    histStep (F := Ideal) x s (ix2 a b) = (s (ix2 a b) : EReal) + (((blkCnt x a b : ℕ) : ℝ) : EReal) := by
  rw [histStep_eq, shapeCast_self]
  rw [addf_apply, addf_apply, addf_apply, addf_apply, addf_apply, addf_apply, addf_apply, addf_apply, addf_apply, broadcast_apply,
    chunkProd_apply, chunkProd_apply, chunkProd_apply, chunkProd_apply, chunkProd_apply, chunkProd_apply, chunkProd_apply,
    chunkProd_apply]
  rw [show (Scalar.ofBits (F := Ideal) .f32 0x00000000#32 : EReal) = 0 from Ideal.ofBits_zero_f32, zero_add, blkCnt_chunks]
  simp only [← EReal.coe_add, ← Nat.cast_add]

end Cert.KernelIdeal.Hand

end
-- ==== Proof.KV.HistArr.lean ====
/-
  What the first pallas_call (the histogram) leaves in its output array, over the extended reals.

  The grid is 2 × 128.  Point t = 128·p + r is handed rows 128·t … 128·t + 127 of the flattened image, and
  adds, at (a, b), the number of those pixels carrying label a·128 + b to an accumulator that is cleared at
  r = 0.  So after point 128·p + r the accumulator holds, at (a, b), the number of pixels of label a·128 + b in
  row blocks 128·p … 128·p + r.  The output block is written back only at r = 127, as block p of the output array;
  the 128 row blocks 128·p … 128·p + 127 are exactly the rows 16384·p … 16384·p + 16383 of core-slice p.  Hence
  the array ends holding, at (p, a, b), the number of pixels of core-slice p carrying label a·128 + b.
-/
import proofs.«413439_j36876589203620_2_alg».proof.Proof.KI.R0Dat
import proofs.«413439_j36876589203620_2_alg».proof.Proof.KV.Words
import proofs.«413439_j36876589203620_2_alg».proof.Proof.KV.HistPay
import Idealize.ShloMosaic.Lib.Pipeline.Value
import Idealize.ShloMosaic.Lib.ValueIdx

noncomputable section

namespace Cert.KernelIdeal.Hand

open Idealize.ShloMosaic Idealize.ShloMosaic.ValueIdx Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-! ## The index maps, decided once over the grid -/

/-- Point t's input block is block-row t of the flattened image, -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- and its output block is block t / 128 of the output array. -/
theorem idx_out : ∀ t : Fin cfg0.N, win0_1.index t (0 : Fin 3) = t.val / 128 ∧ win0_1.index t (1 : Fin 3) = 0
    ∧ win0_1.index t (2 : Fin 3) = 0 :=
  (by decide +kernel : ∀ t : Fin grid0.N, win0_1.index t (0 : Fin 3) = t.val / 128 ∧ win0_1.index t (1 : Fin 3) = 0
    ∧ win0_1.index t (2 : Fin 3) = 0)

theorem N256 : cfg0.N = 256 := N_0

/-! ## A block's pixels are the image's -/

/-- Pixel (r, k) of the block point t is handed is pixel (128·t + r, k) of the flattened image. -/
theorem xblk_apply (c : Dev nD) (t : Fin cfg0.N) (r : Fin 128) (k : Fin 1024) :
    xblk V c t (ix2 r k)
      = V c main_v0 (ix2 (⟨128 * t.val + r.val, by have := t.isLt; have := N256; have := r.isLt; omega⟩ : Fin 32768) k) := by
  show V c main_v0 (((cfg0.win 0).blk t).view.emb (ix2 r k)) = _
  congr 1
  funext a
  apply Fin.ext
  match a with
  | ⟨0, _⟩ => show win0_0.index t (0 : Fin 2) * 128 + 1 * r.val = 128 * t.val + r.val; rw [(idx_in t).1]; omega
  | ⟨1, _⟩ => show win0_0.index t (1 : Fin 2) * 1024 + 1 * k.val = k.val; rw [(idx_in t).2]; omega

/-! ## The accumulator after each point -/

/-- The number of pixels of label a·128 + b in the block point n is handed (zero past the grid). -/
def cntAt (c : Dev nD) (a : Fin 16) (b : Fin 128) (n : ℕ) : ℕ :=
  if h : n < cfg0.N then blkCnt (xblk V c ⟨n, h⟩) a b else 0

theorem cntAt_of_lt (c : Dev nD) (a : Fin 16) (b : Fin 128) (n : ℕ) (h : n < cfg0.N) :
    cntAt V c a b n = blkCnt (xblk V c ⟨n, h⟩) a b := dif_pos h

/-- A point that is not the first of its core's rows adds its block's counts to what the point before left. -/
theorem accAt_step (c : Dev nD) (n m : ℕ) (hn : n < cfg0.N) (hm : m < cfg0.N) (e : n = m + 1) (h0 : ¬ n % 128 = 0) :
    accAt V c n hn = histStep (xblk V c ⟨n, hn⟩) (accAt V c m hm) := by
  subst e
  exact accAt_later V c ⟨m + 1, hn⟩ h0

/-- After point 128·q + r (r < 128) the accumulator holds, at (a, b), the number of pixels of label a·128 + b in
    the blocks of points 128·q … 128·q + r. -/
theorem accAt_apply (c : Dev nD) (a : Fin 16) (b : Fin 128) (q : ℕ) :
    ∀ (r : ℕ), r < 128 → ∀ (n : ℕ) (h : n < cfg0.N), n = 128 * q + r →
      accAt V c n h (ix2 a b) = (((∑ s ∈ Finset.range (r + 1), cntAt V c a b (128 * q + s) : ℕ) : ℝ) : EReal)
  | 0, _, n, h, e => by
    have h0 : (⟨n, h⟩ : Fin cfg0.N).val % 128 = 0 := by show n % 128 = 0; omega
    rw [show accAt V c n h = histStep (xblk V c ⟨n, h⟩) histZero from accAt_first V c ⟨n, h⟩ h0,
      histStep_apply, histZero_apply, zero_add, Finset.sum_range_one, show 128 * q + 0 = n from by omega,
      cntAt_of_lt V c a b n h]
  | r + 1, hr, n, h, e => by
    have hm : 128 * q + r < cfg0.N := by omega
    rw [accAt_step V c n (128 * q + r) h hm (by omega) (by omega), histStep_apply,
      accAt_apply c a b q r (by omega) (128 * q + r) hm rfl, Finset.sum_range_succ _ (r + 1),
      show 128 * q + (r + 1) = n from by omega, cntAt_of_lt V c a b n h, Nat.cast_add, EReal.coe_add]

/-! ## Counting: a block's pixels, and a core-slice's -/

/-- The pixels of label a·128 + b in the block point t is handed are those of the image's rows 128·t … 128·t + 127. -/
theorem blkCnt_xblk (c : Dev nD) (t : Fin cfg0.N) (a : Fin 16) (b : Fin 128) :
    blkCnt (xblk V c t) a b
      = (Finset.univ.filter fun j : S32768x1024.Idx =>
          (j 0).val / 128 = t.val ∧ (V c main_v0 j : BitVec 32).toNat = a.val * 128 + b.val).card := by
  have ht : t.val < 256 := by have := t.isLt; have := N256; omega
  unfold blkCnt
  refine Finset.card_bij
    (fun (j : S128x1024.Idx) _ =>
      (ix2 (⟨128 * t.val + (j 0).val, by have := idx2_lt0 j; omega⟩ : Fin 32768) (⟨(j 1).val, idx2_lt1 j⟩ : Fin 1024) : S32768x1024.Idx))
    ?_ ?_ ?_
  · intro j hj
    rw [Finset.mem_filter] at hj ⊢
    refine ⟨Finset.mem_univ _, ?_, ?_⟩
    · show (128 * t.val + (j 0).val) / 128 = t.val
      have := idx2_lt0 j; omega
    · have e := xblk_apply V c t (⟨(j 0).val, idx2_lt0 j⟩ : Fin 128) (⟨(j 1).val, idx2_lt1 j⟩ : Fin 1024)
      rw [← e, ← hj.2]
      exact congrArg (fun w : BitVec 32 => w.toNat) (congrArg (xblk V c t) (eq_ix2 j).symm)
  · intro j _ j' _ h
    have h0 : 128 * t.val + (j 0).val = 128 * t.val + (j' 0).val := congrArg Fin.val (congrFun h 0)
    have h1 : (j 1).val = (j' 1).val := congrArg Fin.val (congrFun h 1)
    exact Shape.idx_ext₂ (by omega) h1
  · intro i hi
    rw [Finset.mem_filter] at hi
    have hi0 := idx2_lt0 i
    have hi1 := idx2_lt1 i
    refine ⟨(ix2 (⟨(i 0).val % 128, Nat.mod_lt _ (by norm_num)⟩ : Fin 128) (⟨(i 1).val, hi1⟩ : Fin 1024) : S128x1024.Idx), ?_, ?_⟩
    · rw [Finset.mem_filter]
      refine ⟨Finset.mem_univ _, ?_⟩
      rw [xblk_apply, ← hi.2.2]
      refine congrArg (fun w : BitVec 32 => w.toNat) (congrArg (V c main_v0) ?_)
      exact Shape.idx_ext₂ (by show 128 * t.val + (i 0).val % 128 = (i 0).val; have := hi.2.1; omega) rfl
    · exact Shape.idx_ext₂ (by show 128 * t.val + (i 0).val % 128 = (i 0).val; have := hi.2.1; omega) rfl

/-- Core-slice p is the disjoint union of its 128 row blocks. -/
theorem sliceCnt_eq_sum (z : Vec Ideal S32768x1024 .i32) (p : Fin 2) (a : Fin 16) (b : Fin 128) :
    sliceCnt z p a b
      = ∑ s ∈ Finset.range 128, (Finset.univ.filter fun j : S32768x1024.Idx =>
          (j 0).val / 128 = 128 * p.val + s ∧ (z j : BitVec 32).toNat = a.val * 128 + b.val).card := by
  unfold sliceCnt
  rw [Finset.card_eq_sum_card_fiberwise (f := fun j : S32768x1024.Idx => (j 0).val / 128 % 128) (t := Finset.range 128)
    (fun j _ => Finset.mem_range.mpr (Nat.mod_lt _ (by norm_num)))]
  refine Finset.sum_congr rfl fun s hs => ?_
  rw [Finset.filter_filter]
  refine congrArg Finset.card (Finset.filter_congr fun j _ => ?_)
  have hs' := Finset.mem_range.mp hs
  have hj := idx2_lt0 j
  have hp := p.isLt
  constructor
  · rintro ⟨⟨h1, h2⟩, h3⟩
    exact ⟨by omega, h2⟩
  · rintro ⟨h1, h2⟩
    exact ⟨⟨by omega, h2⟩, by omega⟩

/-! ## The flushed block, and the array -/

/-- What the output array ends holding: at (p, a, b) the number of pixels of core-slice p carrying label a·128 + b. -/
def histG (c : Dev nD) : S2x16x128.Idx → EReal :=
  fun i => (((sliceCnt (V c main_v0) (i 0) (i 1) (i 2) : ℕ) : ℝ) : EReal)

/-- At the last point of core-slice p's rows the accumulator holds the slice's counts. -/
theorem accAt_last (c : Dev nD) (p : Fin 2) (a : Fin 16) (b : Fin 128) (n : ℕ) (h : n < cfg0.N) (e : n = 128 * p.val + 127) :
    accAt V c n h (ix2 a b) = (((sliceCnt (V c main_v0) p a b : ℕ) : ℝ) : EReal) := by
  rw [accAt_apply V c a b p.val 127 (by norm_num) n h e, sliceCnt_eq_sum]
  refine congrArg (fun k : ℕ => ((k : ℝ) : EReal)) (Finset.sum_congr rfl fun s hs => ?_)
  have hs' := Finset.mem_range.mp hs
  have hlt : 128 * p.val + s < cfg0.N := by have := p.isLt; have := N256; omega
  rw [cntAt_of_lt V c a b _ hlt, blkCnt_xblk]

/-- The block a flushing point writes back, read at an index of the block. -/
theorem flushed_apply (c : Dev nD) (t : Fin cfg0.N) (h127 : t.val % 128 = 127) (y : S1x16x128.Idx) :
    histOut (accAt V c t.val t.isLt) y
      = histG V c (ix3 (⟨t.val / 128, by have := t.isLt; have := N256; omega⟩ : Fin 2) (y 1) (y 2)) := by
  obtain ⟨y0, y1, y2, rfl⟩ : ∃ (y0 : Fin 1) (y1 : Fin 16) (y2 : Fin 128), y = ix3 y0 y1 y2 := ⟨y 0, y 1, y 2, eq_ix3 y⟩
  obtain rfl : y0 = 0 := Subsingleton.elim _ _
  rw [histOut_apply]
  exact accAt_last V c ⟨t.val / 128, by have := t.isLt; have := N256; omega⟩ y1 y2 t.val t.isLt (by show t.val = 128 * (t.val / 128) + 127; omega)

/-- WHAT A FLUSHING POINT WRITES BACK is its block of `histG`. -/
theorem flushed_eq (c : Dev nD) (t : Fin cfg0.N) (hf : (cfg0.win 1).flush t = true) :
    (dat0 V c).flushed 1 t = ((cfg0.win 1).blk t).view.read (Elt Ideal) (histG V c) := by
  have h127 := (flush0_1 t).mp hf
  show (cfg0.win 1).cut (grid0.coords t) ((dat0 V c).after 1 t) = _
  rw [after0_1]
  funext y
  show histOut (accAt V c t.val t.isLt) y = histG V c (((cfg0.win 1).blk t).view.emb y)
  have he : ((cfg0.win 1).blk t).view.emb y
      = (ix3 (⟨t.val / 128, by have := t.isLt; have := N256; omega⟩ : Fin 2) ((y : S1x16x128.Idx) 1) ((y : S1x16x128.Idx) 2) : S2x16x128.Idx) := by
    obtain ⟨e0, e1, e2⟩ := idx_out t
    funext a
    apply Fin.ext
    match a with
    | ⟨0, _⟩ => show win0_1.index t (0 : Fin 3) * 1 + 1 * ((y : S1x16x128.Idx) 0).val = t.val / 128
                have : ((y : S1x16x128.Idx) 0).val < 1 := ((y : S1x16x128.Idx) 0).isLt
                omega
    | ⟨1, _⟩ => show win0_1.index t (1 : Fin 3) * 16 + 1 * ((y : S1x16x128.Idx) 1).val = ((y : S1x16x128.Idx) 1).val; omega
    | ⟨2, _⟩ => show win0_1.index t (2 : Fin 3) * 128 + 1 * ((y : S1x16x128.Idx) 2).val = ((y : S1x16x128.Idx) 2).val; omega
  rw [he]
  exact flushed_apply V c t h127 y

/-- Every index of the output array lies in the block of the last point of its core-slice's rows. -/
theorem covered (c : Dev nD) (i : S2x16x128.Idx) :
    ∃ t : Fin cfg0.N, (cfg0.win 1).flush t = true ∧ i ∈ ((cfg0.win 1).blk t).view.set := by
  have hi0 : (i 0).val < 2 := (i 0).isLt
  have hi1 : (i 1).val < 16 := (i 1).isLt
  have hi2 : (i 2).val < 128 := (i 2).isLt
  let t : Fin cfg0.N := ⟨128 * (i 0).val + 127, by have := N256; omega⟩
  have htv : t.val = 128 * (i 0).val + 127 := rfl
  obtain ⟨e0, e1, e2⟩ := idx_out t
  refine ⟨t, (flush0_1 t).mpr (by rw [htv]; omega), ?_⟩
  show i ∈ ((View.whole main_v1).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1
              rw [e0, htv]; omega
  | ⟨1, _⟩ => show win0_1.index t (1 : Fin 3) * 16 ≤ (i 1).val ∧ (i 1).val < win0_1.index t (1 : Fin 3) * 16 + 16
              rw [e1]; omega
  | ⟨2, _⟩ => show win0_1.index t (2 : Fin 3) * 128 ≤ (i 2).val ∧ (i 2).val < win0_1.index t (2 : Fin 3) * 128 + 128
              rw [e2]; omega

/-- The output array after the run is `histG`. -/
theorem arr_eq (c : Dev nD) : (dat0 (F := Ideal) V c).arrAt 1 cfg0.N = histG V c :=
  (dat0 V c).arrAt_eq_of_cover 1 (histG V c) (flushed_eq V c) (covered c)

/-- The first pallas_call's output array holds, at (p, a, b), the number of pixels of core-slice p carrying
    label a·128 + b. -/
theorem hist_arr (c : Dev nD) (p : Fin 2) (a : Fin 16) (b : Fin 128) :
    (dat0 (F := Ideal) V c).arrAt 1 cfg0.N (ix3 p a b) = (((sliceCnt (V c main_v0) p a b : ℕ) : ℝ) : EReal) :=
  congrFun (arr_eq V c) (ix3 p a b)

end Cert.KernelIdeal.Hand
end
-- ==== Proof.KV.RemapPayA.lean ====
/-
  The first eight chunks of one remap point, read per pixel.

  Every chunk of a remap point is one computation on its own 16 rows of the block: the 16 × 1024 words are
  flattened to 16384 positions; a position's high part is its word shifted right by 7 (arithmetically) and its
  low part the word's low seven bits; the high parts' one-hot (16 × 16384) is contracted with the table over
  the 16 rows, which at (b, i) gives the table's entry (hi_i, b) when 0 ≤ hi_i < 16 and 0 otherwise; that is
  multiplied by the low parts' one-hot (128 × 16384) and summed over the 128 rows, which at i gives the
  table's entry at the word's label, or 0 when the word carries no label (read unsigned it is 2048 or more:
  its high part matches no row, every product is 0). Where that sum exceeds 1/2 the word is replaced by 0,
  and the positions are laid back as 16 × 1024. The printed text cuts this computation at different places
  in different chunks; each cut composes back to the same term, so the value is proved once, over the table
  and the flattened words (`rpA_core_apply`), and each chunk reads it at its own rows.
-/
import proofs.«413439_j36876589203620_2_alg».proof.Proof.KV.Words
import Idealize.ShloMosaic.PureOps.Ideal.Laws
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

section Generic
variable {F : FTy → Type} [FloatOps F]

/-- The chunk's 16 × 1024 words flattened to 16384 positions. -/
def rpA_flat (c : Vec F S16x1024 .i32) : IVec S16384 32 :=
  shapeCast S16384 (shapeCast S16x1024 c shapeCasts_S16x1024_S16x1024) shapeCasts_S16x1024_S16384

/-- The high parts (arithmetic shift right by `k`) and the low parts (low seven bits). -/
def rpA_hi (w : IVec S16384 32) (k : BitVec 32) : IVec S16384 32 := shrsi w (broadcast S16384 k)
def rpA_lo (w : IVec S16384 32) : IVec S16384 32 := andi w (broadcast S16384 127#32)

/-- The one-hot of the high parts, 16 × 16384. -/
def rpA_ohHi (r16 : IVec S16x1 32) (hi : IVec S16384 32) : FVec F S16x16384 .bf16 :=
  truncf .bf16 (sitofp .f32 (extui 32 (cmpi .eq (broadcastTo S16x16384 r16 broadcasts_S16x1_S16x16384)
    (broadcastTo S16x16384 (shapeCast S1x16384 hi shapeCasts_S16384_S1x16384) broadcasts_S1x16384_S16x16384)) natLt_1_32)) bitsLt_bf16_f32

/-- The one-hot of the low parts as bits, 128 × 16384, and as numbers. -/
def rpA_loBit (r128 : IVec S128x1 32) (lo : IVec S16384 32) : IVec S128x16384 1 :=
  cmpi .eq (broadcastTo S128x16384 r128 broadcasts_S128x1_S128x16384)
    (broadcastTo S128x16384 (shapeCast S1x16384 lo shapeCasts_S16384_S1x16384) broadcasts_S1x16384_S128x16384)
def rpA_ohLo (bit : IVec S128x16384 1) : FVec F S128x16384 .f32 := sitofp .f32 (extui 32 bit natLt_1_32)

/-- The table contracted with the high one-hot, times the low one-hot. -/
def rpA_prod (t : FVec F S16x128 .bf16) (oh : FVec F S16x16384 .bf16) (ol : FVec F S128x16384 .f32) : FVec F S128x16384 .f32 :=
  mulf (matmul dot_S16x128_S16x16384_S128x16384_0_0_1_1_n_n none t oh (constant S128x16384 .f32 0x00000000#32)) ol

/-- The lane sum compared with 1/2, as a bit per position. -/
def rpA_bad (pr : FVec F S128x16384 .f32) : IVec S16384 1 :=
  cmpf .ogt (multiReduction .add [0] S16384 pr 0x00000000#32 reduces_S128x16384_S16384 (.inl rfl) rfl)
    (broadcast S16384 (Scalar.ofBits .f32 0x3F000000#32))

/-- The stored chunk: 0 where the bit is set, else the word; back to 16 × 1024. -/
def rpA_fin (w : IVec S16384 32) (bad : IVec S16384 1) (z : IVec S16384 32) : IVec S16x1024 32 :=
  shapeCast S16x1024 (select bad z w) shapeCasts_S16384_S16x1024

/-- The whole chunk computation from the table and the flattened words. -/
def rpA_core (t : FVec F S16x128 .bf16) (w : IVec S16384 32) : IVec S16x1024 32 :=
  rpA_fin w (rpA_bad (rpA_prod t (rpA_ohHi rowIota16 (rpA_hi w 7#32)) (rpA_ohLo (rpA_loBit rowIota128 (rpA_lo w)))))
    (broadcast S16384 0#32)

end Generic

section AtIdeal

/-! ## Words: shift and mask -/

/-- A word's arithmetic shift right by 7 is the small number `a` exactly when the word, read unsigned, divided by 128 is `a`. -/
theorem rpA_shr_eq_iff (W : BitVec 32) (a : Nat) (ha : a < 16) :
    (BitVec.ofNat 32 a = IntOp.shrsi .vector W 7#32) ↔ W.toNat / 128 = a := by
  have h7 : (7#32 : BitVec 32).toNat < 32 := by decide
  have e7 : (7#32 : BitVec 32).toNat = 7 := by decide
  have hW := W.isLt
  unfold IntOp.shrsi
  rw [if_pos h7, ← BitVec.toInt_inj, BitVec.toInt_sshiftRight', Int.shiftRight_eq_div_pow, e7,
    BitVec.toInt_eq_toNat_cond, BitVec.toInt_eq_toNat_cond, BitVec.toNat_ofNat]
  simp only [Nat.reducePow] at hW ⊢
  split_ifs <;> omega

/-- A word's low seven bits are the small number `b` exactly when the word, read unsigned, modulo 128 is `b`. -/
theorem rpA_and_eq_iff (W : BitVec 32) (b : Nat) (hb : b < 128) :
    (BitVec.ofNat 32 b = IntOp.andi W 127#32) ↔ W.toNat % 128 = b := by
  unfold IntOp.andi
  rw [← BitVec.toNat_inj, BitVec.toNat_and, BitVec.toNat_ofNat]
  have e : (127#32 : BitVec 32).toNat = 2 ^ 7 - 1 := by decide
  rw [e, Nat.and_two_pow_sub_one_eq_mod]
  simp only [Nat.reducePow]
  omega

end AtIdeal

section AtIdeal2

/-! ## Layout reads -/

/-- A column `[a, 1]` broadcast to `[a, b]` reads, at `(p, c)`, the column at `p`. -/
theorem rpA_bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The flattened chunk at position `1024 p + q` is the chunk at `(p, q)`. -/
theorem rpA_flat_apply (c : Vec Ideal S16x1024 .i32) (p : Fin 16) (q : Fin 1024) :
    rpA_flat (F := Ideal) c (ix1 (⟨p.val * 1024 + q.val, by omega⟩ : Fin 16384)) = c (ix2 p q) := by
  unfold rpA_flat
  rw [shapeCast_self]
  exact shapeCast_apply _ _ _ _ (by rw [Shape.rowMajor_val_two, Shape.rowMajor_val_one]; rfl)

/-- The stored chunk at `(p, q)` is the select at position `1024 p + q`. -/
theorem rpA_fin_apply (w : IVec S16384 32) (bad : IVec S16384 1) (z : IVec S16384 32) (p : Fin 16) (q : Fin 1024) :
    rpA_fin w bad z (ix2 p q)
      = Scalar.select (bad (ix1 (⟨p.val * 1024 + q.val, by omega⟩ : Fin 16384))) (z (ix1 (⟨p.val * 1024 + q.val, by omega⟩ : Fin 16384)))
          (w (ix1 (⟨p.val * 1024 + q.val, by omega⟩ : Fin 16384))) := by
  unfold rpA_fin
  refine (shapeCast_apply _ _ (ix2 p q) (ix1 (⟨p.val * 1024 + q.val, by omega⟩ : Fin 16384))
    (by rw [Shape.rowMajor_val_two, Shape.rowMajor_val_one]; rfl)).trans ?_
  rfl

/-! ## The one-hots at an index -/

/-- A compare bit widened and converted is 1 or 0. -/
theorem rpA_bit_val (A B : BitVec 32) :
    (FloatOps.sitofp (F := Ideal) .f32 ((IntOp.cmpi .eq A B).setWidth 32) : EReal) = if A = B then 1 else 0 := by
  by_cases h : A = B
  · subst h
    rw [if_pos rfl]
    have e : (IntOp.cmpi .eq A A).setWidth 32 = 1#32 := by simp [IntOp.cmpi]
    rw [e]
    show (((1#32 : BitVec 32).toInt : ℝ) : EReal) = 1
    have : (1#32 : BitVec 32).toInt = 1 := by decide
    rw [this]; simp
  · rw [if_neg h]
    have e : (IntOp.cmpi .eq A B).setWidth 32 = 0#32 := by
      show BitVec.setWidth 32 (BitVec.ofBool (A == B)) = 0#32
      rw [show (A == B) = false from beq_eq_false_iff_ne.mpr h]; rfl
    rw [e]
    show (((0#32 : BitVec 32).toInt : ℝ) : EReal) = 0
    have : (0#32 : BitVec 32).toInt = 0 := by decide
    rw [this]; simp

/-- The high one-hot at `(a, i)`: 1 exactly when position `i`'s high part is `a`. -/
theorem rpA_ohHi_apply (hi : IVec S16384 32) (a : Fin 16) (i : Fin 16384) :
    (rpA_ohHi (F := Ideal) rowIota16 hi (ix2 a i) : EReal) = if BitVec.ofNat 32 a.val = hi (ix1 i) then 1 else 0 := by
  unfold rpA_ohHi
  refine Eq.trans ?_ (rpA_bit_val _ _)
  show FloatOps.sitofp (F := Ideal) .f32 ((IntOp.cmpi .eq _ _).setWidth 32) = _
  have e : rowIota16 (ix2 a (0 : Fin 1)) = BitVec.ofNat 32 a.val := iota_single_apply _ _ _ _ _ _
  rw [rpA_bcast_col, broadcastTo_1b_ab_apply, shapeCast_a_1a_apply, e]

/-- The low one-hot at `(b, i)`: 1 exactly when position `i`'s low part is `b`. -/
theorem rpA_ohLo_apply (lo : IVec S16384 32) (b : Fin 128) (i : Fin 16384) :
    (rpA_ohLo (F := Ideal) (rpA_loBit rowIota128 lo) (ix2 b i) : EReal) = if BitVec.ofNat 32 b.val = lo (ix1 i) then 1 else 0 := by
  unfold rpA_ohLo rpA_loBit
  refine Eq.trans ?_ (rpA_bit_val _ _)
  show FloatOps.sitofp (F := Ideal) .f32 ((IntOp.cmpi .eq _ _).setWidth 32) = _
  have e : rowIota128 (ix2 b (0 : Fin 1)) = BitVec.ofNat 32 b.val := iota_single_apply _ _ _ _ _ _
  rw [rpA_bcast_col, broadcastTo_1b_ab_apply, shapeCast_a_1a_apply, e]

end AtIdeal2

section AtIdeal3

/-! ## The contraction and the lane sum -/

/-- The table contracted with the high one-hot over the 16 rows, at `(b, i)`. -/
theorem rpA_mm_apply (t : FVec Ideal S16x128 .bf16) (oh : FVec Ideal S16x16384 .bf16) (b : Fin 128) (i : Fin 16384) :
    (matmul dot_S16x128_S16x16384_S128x16384_0_0_1_1_n_n none t oh (constant (F := Ideal) S128x16384 .f32 0x00000000#32) (ix2 b i) : EReal)
      = ∑ a : Fin 16, (t (ix2 a b) : EReal) * (oh (ix2 a i) : EReal) := by
  show FloatOps.matmul _ none t oh _ (ix2 b i) = _
  rw [Ideal.matmul_constant_zero_apply,
    ← Equiv.sum_comp (contrEquiv1 dot_S16x128_S16x16384_S128x16384_0_0_1_1_n_n 16 rfl rfl).symm]
  refine Finset.sum_congr rfl fun a _ => ?_
  have c2 := contrEquiv1_symm_val dot_S16x128_S16x16384_S128x16384_0_0_1_1_n_n 16 rfl rfl a
  have l2 : dot_S16x128_S16x16384_S128x16384_0_0_1_1_n_n.lhsIdx (ix2 b i) ((contrEquiv1 _ 16 rfl rfl).symm a) = ix2 a b := by
    funext ax; apply Fin.ext
    match ax with
    | ⟨0, _⟩ => simp [DotDims.lhsIdx, dot_S16x128_S16x16384_S128x16384_0_0_1_1_n_n]; exact c2
    | ⟨1, _⟩ => simp [DotDims.lhsIdx, dot_S16x128_S16x16384_S128x16384_0_0_1_1_n_n]; rfl
  have r2 : dot_S16x128_S16x16384_S128x16384_0_0_1_1_n_n.rhsIdx (ix2 b i) ((contrEquiv1 _ 16 rfl rfl).symm a) = ix2 a i := by
    funext ax; apply Fin.ext
    match ax with
    | ⟨0, _⟩ => simp [DotDims.rhsIdx, dot_S16x128_S16x16384_S128x16384_0_0_1_1_n_n]; exact c2
    | ⟨1, _⟩ => simp [DotDims.rhsIdx, dot_S16x128_S16x16384_S128x16384_0_0_1_1_n_n]; rfl
  rw [l2, r2]

/-- The lane sum over the 128 rows, at position `i`. -/
theorem rpA_sum_apply (pr : FVec Ideal S128x16384 .f32) (i : Fin 16384) :
    (multiReduction (F := Ideal) .add [0] S16384 pr 0x00000000#32 reduces_S128x16384_S16384 (.inl rfl) rfl (ix1 i) : EReal)
      = ∑ b : Fin 128, (pr (ix2 b i) : EReal) := by
  refine (Ideal.multiReduction_add_single pr 0x00000000#32 reduces_S128x16384_S16384 (.inl rfl) rfl (ix1 i)).trans ?_
  refine Finset.sum_congr rfl fun b _ => ?_
  congr 1
  funext ax; apply Fin.ext
  match ax with
  | ⟨0, _⟩ => rfl
  | ⟨1, _⟩ => rfl

end AtIdeal3

section AtIdeal4

/-! ## The chunk's value -/

/-- The compare's constant is one half. -/
theorem rpA_half : Ideal.ofBits .f32 0x3F000000#32 = ((1 / 2 : ℝ) : EReal) := by
  simp [Ideal.ofBits, Ideal.ieee, -EReal.coe_mul]; norm_num

/-- The table in the matrix unit's format reads the table. -/
theorem rpA_tabB_apply (y : Vec Ideal S16x128 .f32) (a : Fin 16) (b : Fin 128) :
    (tabB (F := Ideal) y (ix2 a b) : EReal) = (y (ix2 a b) : EReal) := by
  unfold tabB k1_pay2
  show (shapeCast S16x128 (View.ld y rTab) shapeCasts_S16x128_S16x128) (ix2 a b) = _
  have e : View.ld y rTab = y :=
    View.ld_unit_zero (S := S16x128) (by funext c; match c with | ⟨0, _⟩ => rfl | ⟨1, _⟩ => rfl) inb_S16x128_S16x128_0_0 y
  exact (congrArg (fun v => shapeCast S16x128 v shapeCasts_S16x128_S16x128 (ix2 a b)) e).trans
    (congrFun (shapeCast_self y shapeCasts_S16x128_S16x128) (ix2 a b))

/-- The weighted sum over labels, at a word `W`: the table's entry at the word's label, or 0 when it carries none. -/
theorem rpA_bad_sum (y : Vec Ideal S16x128 .f32) (W : BitVec 32) :
    (∑ b : Fin 128, (∑ a : Fin 16, (y (ix2 a b) : EReal) * (if W.toNat / 128 = a.val then (1 : EReal) else 0))
        * (if W.toNat % 128 = b.val then (1 : EReal) else 0))
      = if h : W.toNat < 2048 then
          (y (ix2 (⟨W.toNat / 128, by omega⟩ : Fin 16) (⟨W.toNat % 128, Nat.mod_lt _ (by norm_num)⟩ : Fin 128)) : EReal)
        else 0 := by
  split
  · rename_i h
    rw [Finset.sum_eq_single (⟨W.toNat % 128, Nat.mod_lt _ (by norm_num)⟩ : Fin 128)]
    · rw [if_pos rfl, mul_one, Finset.sum_eq_single (⟨W.toNat / 128, by omega⟩ : Fin 16)]
      · rw [if_pos rfl, mul_one]
      · intro a _ hne
        rw [if_neg (fun e => hne (Fin.ext e.symm)), mul_zero]
      · intro hn; exact absurd (Finset.mem_univ _) hn
    · intro b _ hne
      rw [if_neg (fun e => hne (Fin.ext e.symm)), mul_zero]
    · intro hn; exact absurd (Finset.mem_univ _) hn
  · rename_i h
    refine Finset.sum_eq_zero fun b _ => ?_
    rw [Finset.sum_eq_zero fun a _ => ?_, zero_mul]
    rw [if_neg (by have := a.isLt; omega), mul_zero]

end AtIdeal4

section AtIdeal5

/-- The compare bit at position `i`: whether the lane sum exceeds one half. -/
theorem rpA_bad_apply (pr : FVec Ideal S128x16384 .f32) (i : Fin 16384) :
    rpA_bad (F := Ideal) pr (ix1 i) = BitVec.ofBool (decide (((1 / 2 : ℝ) : EReal) < ∑ b : Fin 128, (pr (ix2 b i) : EReal))) := by
  unfold rpA_bad
  refine (cmpf_apply _ _ _ _).trans ?_
  rw [Ideal.cmpf_def, rpA_sum_apply]
  show Ideal.cmp .ogt _ (Ideal.ofBits .f32 0x3F000000#32) = _
  rw [rpA_half]
  rfl

/-- One term of the lane sum: the table's row sum against the high one-hot, times the low one-hot. -/
theorem rpA_prod_apply (y : Vec Ideal S16x128 .f32) (w : IVec S16384 32) (b : Fin 128) (i : Fin 16384) :
    (rpA_prod (F := Ideal) (tabB y) (rpA_ohHi rowIota16 (rpA_hi w 7#32)) (rpA_ohLo (rpA_loBit rowIota128 (rpA_lo w))) (ix2 b i) : EReal)
      = (∑ a : Fin 16, (y (ix2 a b) : EReal) * (if (w (ix1 i)).toNat / 128 = a.val then (1 : EReal) else 0))
          * (if (w (ix1 i)).toNat % 128 = b.val then (1 : EReal) else 0) := by
  unfold rpA_prod
  refine (mulf_apply _ _ _).trans ?_
  rw [rpA_mm_apply, rpA_ohLo_apply]
  congr 1
  · refine Finset.sum_congr rfl fun a _ => ?_
    rw [rpA_tabB_apply, rpA_ohHi_apply]
    congr 1
    exact if_congr (rpA_shr_eq_iff _ _ a.isLt) rfl rfl
  · exact if_congr (rpA_and_eq_iff _ _ b.isLt) rfl rfl

/-- THE CHUNK: at `(p, q)` the stored word is the remapped word at position `1024 p + q`. -/
theorem rpA_core_apply (y : Vec Ideal S16x128 .f32) (w : IVec S16384 32) (p : Fin 16) (q : Fin 1024) :
    rpA_core (F := Ideal) (tabB y) w (ix2 p q) = remapWord y (w (ix1 (⟨p.val * 1024 + q.val, by omega⟩ : Fin 16384))) := by
  unfold rpA_core
  rw [rpA_fin_apply, rpA_bad_apply, Finset.sum_congr rfl fun b _ => rpA_prod_apply y w b _, rpA_bad_sum]
  unfold remapWord
  show Scalar.select _ 0#32 _ = _
  generalize w (ix1 (⟨p.val * 1024 + q.val, by omega⟩ : Fin 16384)) = W
  by_cases h : W.toNat < 2048
  · rw [dif_pos h, dif_pos h]
    by_cases hc : ((1 / 2 : ℝ) : EReal)
        < (y (ix2 (⟨W.toNat / 128, by omega⟩ : Fin 16) (⟨W.toNat % 128, Nat.mod_lt _ (by norm_num)⟩ : Fin 128)) : EReal)
    · rw [if_pos hc, decide_eq_true hc]; exact select_one _ _
    · rw [if_neg hc, decide_eq_false hc]; exact select_zero _ _
  · rw [dif_neg h, dif_neg h]
    have hz : ¬ (((1 / 2 : ℝ) : EReal) < 0) := not_lt.mpr (EReal.coe_nonneg.mpr (by norm_num))
    rw [decide_eq_false hz]; exact select_zero _ _

end AtIdeal5

section Chunks

/-! ## The eight chunks -/

/-- Rows `o … o+15` of the block, read at `(p, q)`, are the block at `(o + p, q)`. -/
theorem rpA_ld_apply (x : Vec Ideal S256x1024 .i32) (o : Nat)
    (inb : ∀ a, (![o, 0] : Fin 2 → Nat) a + S16x1024.size a ≤ S256x1024.size a) (ho : o + 16 ≤ 256) (p : Fin 16) (q : Fin 1024) :
    View.ld x (Rect.unit (s := S256x1024) ![o, 0] S16x1024.size inb) (ix2 p q) = x (ix2 (⟨o + p.val, by omega⟩ : Fin 256) q) := by
  show x _ = x _
  congr 1
  funext a; apply Fin.ext
  match a with
  | ⟨0, _⟩ => show o + 1 * p.val = o + p.val; omega
  | ⟨1, _⟩ => show 0 + 1 * q.val = q.val; omega

/-! Each chunk, however the printed text cuts it, is the one computation on its own 16 rows. -/

theorem rpA_C0_eq (x : Vec Ideal S256x1024 .i32) (y : Vec Ideal S16x128 .f32) :
    remapC0 (F := Ideal) x y = rpA_core (tabB y) (rpA_flat (View.ld x rR0)) := rfl

theorem rpA_C1_eq (x : Vec Ideal S256x1024 .i32) (y : Vec Ideal S16x128 .f32) :
    remapC1 (F := Ideal) x y = rpA_core (tabB y) (rpA_flat (View.ld x rR1)) := rfl

theorem rpA_C2_eq (x : Vec Ideal S256x1024 .i32) (y : Vec Ideal S16x128 .f32) :
    remapC2 (F := Ideal) x y = rpA_core (tabB y) (rpA_flat (View.ld x rR2)) := rfl

theorem rpA_C3_eq (x : Vec Ideal S256x1024 .i32) (y : Vec Ideal S16x128 .f32) :
    remapC3 (F := Ideal) x y = rpA_core (tabB y) (rpA_flat (View.ld x rR3)) := rfl

theorem rpA_C4_eq (x : Vec Ideal S256x1024 .i32) (y : Vec Ideal S16x128 .f32) :
    remapC4 (F := Ideal) x y = rpA_core (tabB y) (rpA_flat (View.ld x rR4)) := rfl

theorem rpA_C5_eq (x : Vec Ideal S256x1024 .i32) (y : Vec Ideal S16x128 .f32) :
    remapC5 (F := Ideal) x y = rpA_core (tabB y) (rpA_flat (View.ld x rR5)) := rfl

theorem rpA_C6_eq (x : Vec Ideal S256x1024 .i32) (y : Vec Ideal S16x128 .f32) :
    remapC6 (F := Ideal) x y = rpA_core (tabB y) (rpA_flat (View.ld x rR6)) := rfl

theorem rpA_C7_eq (x : Vec Ideal S256x1024 .i32) (y : Vec Ideal S16x128 .f32) :
    remapC7 (F := Ideal) x y = rpA_core (tabB y) (rpA_flat (View.ld x rR7)) := rfl

/-! Each chunk at `(p, q)` is the remapped word of the block at `(16 k + p, q)`. -/

theorem remapC0_apply (x : Vec Ideal S256x1024 .i32) (y : Vec Ideal S16x128 .f32) (p : Fin 16) (q : Fin 1024) :
    remapC0 (F := Ideal) x y (ix2 p q) = remapWord y (x (ix2 (⟨0 + p.val, by omega⟩ : Fin 256) q)) := by
  rw [rpA_C0_eq, rpA_core_apply, rpA_flat_apply]
  exact congrArg (remapWord y) (rpA_ld_apply x 0 _ (by norm_num) p q)

theorem remapC1_apply (x : Vec Ideal S256x1024 .i32) (y : Vec Ideal S16x128 .f32) (p : Fin 16) (q : Fin 1024) :
    remapC1 (F := Ideal) x y (ix2 p q) = remapWord y (x (ix2 (⟨16 + p.val, by omega⟩ : Fin 256) q)) := by
  rw [rpA_C1_eq, rpA_core_apply, rpA_flat_apply]
  exact congrArg (remapWord y) (rpA_ld_apply x 16 _ (by norm_num) p q)

theorem remapC2_apply (x : Vec Ideal S256x1024 .i32) (y : Vec Ideal S16x128 .f32) (p : Fin 16) (q : Fin 1024) :
    remapC2 (F := Ideal) x y (ix2 p q) = remapWord y (x (ix2 (⟨32 + p.val, by omega⟩ : Fin 256) q)) := by
  rw [rpA_C2_eq, rpA_core_apply, rpA_flat_apply]
  exact congrArg (remapWord y) (rpA_ld_apply x 32 _ (by norm_num) p q)

theorem remapC3_apply (x : Vec Ideal S256x1024 .i32) (y : Vec Ideal S16x128 .f32) (p : Fin 16) (q : Fin 1024) :
    remapC3 (F := Ideal) x y (ix2 p q) = remapWord y (x (ix2 (⟨48 + p.val, by omega⟩ : Fin 256) q)) := by
  rw [rpA_C3_eq, rpA_core_apply, rpA_flat_apply]
  exact congrArg (remapWord y) (rpA_ld_apply x 48 _ (by norm_num) p q)

theorem remapC4_apply (x : Vec Ideal S256x1024 .i32) (y : Vec Ideal S16x128 .f32) (p : Fin 16) (q : Fin 1024) :
    remapC4 (F := Ideal) x y (ix2 p q) = remapWord y (x (ix2 (⟨64 + p.val, by omega⟩ : Fin 256) q)) := by
  rw [rpA_C4_eq, rpA_core_apply, rpA_flat_apply]
  exact congrArg (remapWord y) (rpA_ld_apply x 64 _ (by norm_num) p q)

theorem remapC5_apply (x : Vec Ideal S256x1024 .i32) (y : Vec Ideal S16x128 .f32) (p : Fin 16) (q : Fin 1024) :
    remapC5 (F := Ideal) x y (ix2 p q) = remapWord y (x (ix2 (⟨80 + p.val, by omega⟩ : Fin 256) q)) := by
  rw [rpA_C5_eq, rpA_core_apply, rpA_flat_apply]
  exact congrArg (remapWord y) (rpA_ld_apply x 80 _ (by norm_num) p q)

theorem remapC6_apply (x : Vec Ideal S256x1024 .i32) (y : Vec Ideal S16x128 .f32) (p : Fin 16) (q : Fin 1024) :
    remapC6 (F := Ideal) x y (ix2 p q) = remapWord y (x (ix2 (⟨96 + p.val, by omega⟩ : Fin 256) q)) := by
  rw [rpA_C6_eq, rpA_core_apply, rpA_flat_apply]
  exact congrArg (remapWord y) (rpA_ld_apply x 96 _ (by norm_num) p q)

theorem remapC7_apply (x : Vec Ideal S256x1024 .i32) (y : Vec Ideal S16x128 .f32) (p : Fin 16) (q : Fin 1024) :
    remapC7 (F := Ideal) x y (ix2 p q) = remapWord y (x (ix2 (⟨112 + p.val, by omega⟩ : Fin 256) q)) := by
  rw [rpA_C7_eq, rpA_core_apply, rpA_flat_apply]
  exact congrArg (remapWord y) (rpA_ld_apply x 112 _ (by norm_num) p q)

end Chunks

end Cert.KernelIdeal.Hand

end
-- ==== Proof.KV.RemapPayB.lean ====
/-
  The remap kernel's chunks 8 … 15 at an index.

  Every chunk is the same computation on its own sixteen rows of the block.  The 16 × 1024 words are flattened to
  16384 positions; a word's high part is its arithmetic shift right by 7 and its low part its low seven bits.  The
  high one-hot (16 × 16384) has a 1 at (a, i) when position i's high part is a; contracting the table's 16 rows
  against it selects, per lane b, the table's entry (hi_i, b), or 0 when the high part is outside 0 … 15.  Multiplied
  by the low one-hot (128 × 16384) and summed over the 128 lanes, that is the table at (hi_i, lo_i), or 0.  The word is
  replaced by 0 when that sum exceeds one half.  A word read unsigned below 2048 has high part toNat / 128 and low part
  toNat % 128; any other word (every negative one included) has its high part outside 0 … 15 and is kept.  In the
  extended reals x · 0 = 0 for every x, so each sum has at most one non-zero term.

  The value is proved once, for the chunk as a function of the table and the flattened words (`rpB_chunk_apply`);
  each of the eight chunks is that function of its own rows by unfolding.
-/
import proofs.«413439_j36876589203620_2_alg».proof.Proof.KV.Words
import Idealize.ShloMosaic.PureOps.Ideal.Laws
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Gen
open scoped BigOperators

/-! ## Words -/

/-- A word's arithmetic shift right by 7 is `a` (below 16) exactly when the word, read unsigned, is below 2048 and its
    quotient by 128 is `a`. -/
theorem rpB_hi_eq (w : BitVec 32) (a : Fin 16) :
    BitVec.ofNat 32 a.val = IntOp.shrsi .vector w 7#32 ↔ (w.toNat < 2048 ∧ w.toNat / 128 = a.val) := by
  have ha := a.isLt
  have hw := w.isLt
  have e : IntOp.shrsi .vector w 7#32 = w.sshiftRight 7 := by
    unfold IntOp.shrsi
    rw [if_pos (by decide)]
    rfl
  rw [e, ← BitVec.toInt_inj, BitVec.toInt_sshiftRight, BitVec.toInt_ofNat', Int.shiftRight_eq_div_pow]
  have h1 : ((a.val : ℕ) : ℤ).bmod (2 ^ 32) = a.val := by
    apply Int.bmod_eq_of_le <;> omega
  rw [h1]
  rcases Nat.lt_or_ge w.toNat (2 ^ 31) with h | h
  · have : w.toInt = w.toNat := by rw [BitVec.toInt_eq_toNat_cond]; simp; omega
    rw [this]
    omega
  · have : w.toInt = (w.toNat : ℤ) - 2 ^ 32 := by rw [BitVec.toInt_eq_toNat_cond]; simp; omega
    rw [this]
    omega

/-- A word's low seven bits are `b` exactly when the word, read unsigned, leaves `b` on division by 128. -/
theorem rpB_lo_eq (w : BitVec 32) (b : Fin 128) :
    BitVec.ofNat 32 b.val = IntOp.andi w 127#32 ↔ w.toNat % 128 = b.val := by
  have hb := b.isLt
  unfold IntOp.andi
  rw [← BitVec.toNat_inj, BitVec.toNat_and, BitVec.toNat_ofNat]
  have : (127#32 : BitVec 32).toNat = 2 ^ 7 - 1 := by decide
  rw [this, Nat.and_two_pow_sub_one_eq_mod]
  omega

/-! ## The operations of one chunk, read at an index -/

/-- The one-hot entry: a compare bit, widened and converted, is 1 or 0. -/
theorem rpB_onehot (x y : BitVec 32) :
    (FloatOps.sitofp (F := Ideal) .f32 ((IntOp.cmpi .eq x y).setWidth 32) : EReal) = if x = y then 1 else 0 := by
  show (((((IntOp.cmpi .eq x y).setWidth 32).toInt : ℝ) : EReal)) = _
  unfold IntOp.cmpi
  by_cases h : x = y
  · subst h
    rw [if_pos rfl]
    simp
  · rw [if_neg h]
    have : (x == y) = false := by simpa using h
    simp [this]

/-- The 16 × 1024 chunk flattened to 16384 positions reads (p, q) at p·1024 + q. -/
theorem rpB_flat_apply (v : IVec S16x1024 32) (h1 : S16x1024.ShapeCasts S16x1024) (h2 : S16x1024.ShapeCasts S16384)
    (p : Fin 16) (q : Fin 1024) :
    shapeCast S16384 (shapeCast S16x1024 v h1) h2 (ix1 (⟨p.val * 1024 + q.val, by omega⟩ : Fin 16384)) = v (ix2 p q) := by
  rw [shapeCast_self]
  refine shapeCast_apply v h2 _ (ix2 p q) ?_
  rw [Shape.rowMajor_val_two, Shape.rowMajor_val_one]
  rfl

/-- … and reshaped back reads p·1024 + q at (p, q). -/
theorem rpB_unflat_apply (u : IVec S16384 32) (h : S16384.ShapeCasts S16x1024) (p : Fin 16) (q : Fin 1024) :
    shapeCast S16x1024 u h (ix2 p q) = u (ix1 (⟨p.val * 1024 + q.val, by omega⟩ : Fin 16384)) := by
  refine shapeCast_apply u h _ (ix1 (⟨p.val * 1024 + q.val, by omega⟩ : Fin 16384)) ?_
  rw [Shape.rowMajor_val_two, Shape.rowMajor_val_one]
  rfl

/-- The compare of the row index against the high parts, at (a, i). -/
theorem rpB_cmpHi_apply (hi : IVec S16384 32) (h0 : S16x1.Iotas .tc 32 [0]) (hs : S16384.ShapeCasts S1x16384)
    (hb1 : S16x1.Broadcasts S16x16384) (hb2 : S1x16384.Broadcasts S16x16384) (a : Fin 16) (i : Fin 16384) :
    cmpi .eq (broadcastTo S16x16384 (iota .tc S16x1 32 [0] h0) hb1) (broadcastTo S16x16384 (shapeCast S1x16384 hi hs) hb2) (ix2 a i)
      = IntOp.cmpi .eq (BitVec.ofNat 32 a.val) (hi (ix1 i)) := by
  show IntOp.cmpi .eq (broadcastTo S16x16384 (iota .tc S16x1 32 [0] h0) hb1 (ix2 a i))
      (broadcastTo S16x16384 (shapeCast S1x16384 hi hs) hb2 (ix2 a i)) = _
  rw [broadcastTo_apply _ hb1 (ix2 a i) (ix2 a (0 : Fin 1)) (fun c => match c with | ⟨0, _⟩ => rfl | ⟨1, _⟩ => rfl),
    broadcastTo_apply _ hb2 (ix2 a i) (ix2 (0 : Fin 1) i) (fun c => match c with | ⟨0, _⟩ => rfl | ⟨1, _⟩ => rfl),
    shapeCast_apply hi hs (ix2 (0 : Fin 1) i) (ix1 i) (by rw [Shape.rowMajor_val_two, Shape.rowMajor_val_one]; show i.val = 0 * 16384 + i.val; omega),
    iota_single_apply]

/-- The compare of the lane index against the low parts, at (b, i). -/
theorem rpB_cmpLo_apply (lo : IVec S16384 32) (h0 : S128x1.Iotas .tc 32 [0]) (hs : S16384.ShapeCasts S1x16384)
    (hb1 : S128x1.Broadcasts S128x16384) (hb2 : S1x16384.Broadcasts S128x16384) (b : Fin 128) (i : Fin 16384) :
    cmpi .eq (broadcastTo S128x16384 (iota .tc S128x1 32 [0] h0) hb1) (broadcastTo S128x16384 (shapeCast S1x16384 lo hs) hb2) (ix2 b i)
      = IntOp.cmpi .eq (BitVec.ofNat 32 b.val) (lo (ix1 i)) := by
  show IntOp.cmpi .eq (broadcastTo S128x16384 (iota .tc S128x1 32 [0] h0) hb1 (ix2 b i))
      (broadcastTo S128x16384 (shapeCast S1x16384 lo hs) hb2 (ix2 b i)) = _
  rw [broadcastTo_apply _ hb1 (ix2 b i) (ix2 b (0 : Fin 1)) (fun c => match c with | ⟨0, _⟩ => rfl | ⟨1, _⟩ => rfl),
    broadcastTo_apply _ hb2 (ix2 b i) (ix2 (0 : Fin 1) i) (fun c => match c with | ⟨0, _⟩ => rfl | ⟨1, _⟩ => rfl),
    shapeCast_apply lo hs (ix2 (0 : Fin 1) i) (ix1 i) (by rw [Shape.rowMajor_val_two, Shape.rowMajor_val_one]; show i.val = 0 * 16384 + i.val; omega),
    iota_single_apply]

/-! ## The contraction and the lane sum -/

private abbrev rpB_D := dot_S16x128_S16x16384_S128x16384_0_0_1_1_n_n

private theorem rpB_lhs_0 (j : S128x16384.Idx) (k : rpB_D.contr.Idx) :
    (rpB_D.lhsIdx j k 0).val = (k ⟨0, by decide⟩).val :=
  rpB_D.lhsIdx_val_of_single (cl := 0) rfl j k

private theorem rpB_rhs_0 (j : S128x16384.Idx) (k : rpB_D.contr.Idx) :
    (rpB_D.rhsIdx j k 0).val = (k ⟨0, by decide⟩).val :=
  rpB_D.rhsIdx_val_of_single (cr := 0) rfl j k

private theorem rpB_lhs_1 (j : S128x16384.Idx) (k : rpB_D.contr.Idx) :
    (rpB_D.lhsIdx j k 1).val = (j 0).val := by
  unfold DotDims.lhsIdx
  rw [dif_neg (show ¬(1 : Fin S16x128.rank) ∈ rpB_D.lhsBatch by decide),
    dif_pos (show (1 : Fin S16x128.rank) ∈ rpB_D.lhsNonContracting by decide)]
  rfl

private theorem rpB_rhs_1 (j : S128x16384.Idx) (k : rpB_D.contr.Idx) :
    (rpB_D.rhsIdx j k 1).val = (j 1).val := by
  unfold DotDims.rhsIdx
  rw [dif_neg (show ¬(1 : Fin S16x16384.rank) ∈ rpB_D.rhsBatch by decide),
    dif_pos (show (1 : Fin S16x16384.rank) ∈ rpB_D.rhsNonContracting by decide)]
  rfl

/-- The product of the table with the high one-hot, contracted over the 16 rows, at (b, i). -/
theorem rpB_matmul_apply (tb : FVec Ideal S16x128 .bf16) (oh : FVec Ideal S16x16384 .bf16) (b : Fin 128) (i : Fin 16384) :
    matmul (F := Ideal) dot_S16x128_S16x16384_S128x16384_0_0_1_1_n_n none tb oh (constant S128x16384 .f32 0x00000000#32) (ix2 b i)
      = ∑ a : Fin 16, (tb (ix2 a b) : EReal) * oh (ix2 a i) := by
  show FloatOps.matmul rpB_D none tb oh (constant S128x16384 .f32 0x00000000#32) (ix2 b i) = _
  rw [Ideal.matmul_constant_zero_apply, ← Equiv.sum_comp (contrEquiv1 rpB_D 16 rfl rfl).symm]
  refine Finset.sum_congr rfl fun a _ => ?_
  have c := contrEquiv1_symm_val rpB_D 16 rfl rfl a
  have l : rpB_D.lhsIdx (ix2 b i) ((contrEquiv1 rpB_D 16 rfl rfl).symm a) = ix2 a b := by
    funext ax; apply Fin.ext
    match ax with
    | ⟨0, _⟩ => exact (rpB_lhs_0 _ _).trans c
    | ⟨1, _⟩ => exact rpB_lhs_1 _ _
  have r : rpB_D.rhsIdx (ix2 b i) ((contrEquiv1 rpB_D 16 rfl rfl).symm a) = ix2 a i := by
    funext ax; apply Fin.ext
    match ax with
    | ⟨0, _⟩ => exact (rpB_rhs_0 _ _).trans c
    | ⟨1, _⟩ => exact rpB_rhs_1 _ _
  rw [l, r]

/-- The sum over the 128 lanes, at position i. -/
theorem rpB_lanesum_apply (src : FVec Ideal S128x16384 .f32) (h : S128x16384.Reduces [0] S16384) (hφ : FKind.Formats .f32)
    (hacc : (0x00000000#32 : BitVec 32) = FKind.add.neutral .f32 hφ) (i : Fin 16384) :
    multiReduction (F := Ideal) .add [0] S16384 src 0x00000000#32 h hφ hacc (ix1 i) = ∑ b : Fin 128, (src (ix2 b i) : EReal) := by
  refine (Ideal.multiReduction_add_single src _ h hφ hacc (ix1 i)).trans ?_
  refine Finset.sum_congr rfl fun b _ => ?_
  congr 1
  funext ax
  match ax with
  | ⟨0, _⟩ => rfl
  | ⟨1, _⟩ => rfl

/-! ## One chunk as one function of the table and the flattened words -/

/-- The high one-hot of a vector of high parts: 16 × 16384, in the matrix unit's operand format. -/
def rpB_ohHi (hi : IVec S16384 32) : FVec Ideal S16x16384 .bf16 :=
  truncf .bf16 (sitofp .f32 (extui 32 (cmpi .eq
    (broadcastTo S16x16384 (iota .tc S16x1 32 [0] Gen.iota_S16x1_d0_w32) Gen.broadcasts_S16x1_S16x16384)
    (broadcastTo S16x16384 (shapeCast S1x16384 hi Gen.shapeCasts_S16384_S1x16384) Gen.broadcasts_S1x16384_S16x16384))
    (by decide))) (by decide)

/-- The compare bits of a vector of low parts against the lane index: 128 × 16384. -/
def rpB_eqLo (lo : IVec S16384 32) : IVec S128x16384 1 :=
  cmpi .eq
    (broadcastTo S128x16384 (iota .tc S128x1 32 [0] Gen.iota_S128x1_d0_w32) Gen.broadcasts_S128x1_S128x16384)
    (broadcastTo S128x16384 (shapeCast S1x16384 lo Gen.shapeCasts_S16384_S1x16384) Gen.broadcasts_S1x16384_S128x16384)

/-- The table's rows selected by the high one-hot, times the low one-hot: 128 × 16384. -/
def rpB_prod (tb : FVec Ideal S16x128 .bf16) (oh : FVec Ideal S16x16384 .bf16) (e : IVec S128x16384 1) : FVec Ideal S128x16384 .f32 :=
  mulf (matmul dot_S16x128_S16x16384_S128x16384_0_0_1_1_n_n none tb oh (constant S128x16384 .f32 0x00000000#32))
    (sitofp .f32 (extui 32 e (by decide)))

/-- The sums over the 128 lanes. -/
def rpB_bad (pr : FVec Ideal S128x16384 .f32) : FVec Ideal S16384 .f32 :=
  multiReduction .add [0] S16384 pr 0x00000000#32 Gen.reduces_S128x16384_S16384 (.inl rfl) rfl

/-- The compare of the lane sums against one half. -/
def rpB_gt (pr : FVec Ideal S128x16384 .f32) : IVec S16384 1 :=
  cmpf .ogt (rpB_bad pr) (broadcast S16384 (Scalar.ofBits .f32 0x3F000000#32))

/-- The chunk stored: the words with those of a dropped label replaced by 0, back in 16 × 1024. -/
def rpB_store (w : IVec S16384 32) (c : IVec S16384 1) (z : IVec S16384 32) : IVec S16x1024 32 :=
  shapeCast S16x1024 (select c z w) Gen.shapeCasts_S16384_S16x1024

/-- The flattened words of a chunk. -/
def rpB_flat (v : Vec Ideal S16x1024 .i32) : IVec S16384 32 :=
  shapeCast S16384 (shapeCast S16x1024 v Gen.shapeCasts_S16x1024_S16x1024) Gen.shapeCasts_S16x1024_S16384

/-- The whole chunk from the table and the flattened words. -/
def rpB_chunk (tb : FVec Ideal S16x128 .bf16) (w : IVec S16384 32) : IVec S16x1024 32 :=
  rpB_store w
    (rpB_gt (rpB_prod tb (rpB_ohHi (shrsi w (broadcast S16384 7#32))) (rpB_eqLo (andi w (broadcast S16384 127#32)))))
    (broadcast S16384 0#32)

/-! ## One pixel -/

/-- One pixel through the remap, over the table in the matrix unit's operand format. -/
def rpB_word (tb : FVec Ideal S16x128 .bf16) (w : BitVec 32) : BitVec 32 :=
  if h : w.toNat < 2048 then
    (if ((1 / 2 : ℝ) : EReal) < (tb (ix2 (⟨w.toNat / 128, by omega⟩ : Fin 16) (⟨w.toNat % 128, Nat.mod_lt _ (by norm_num)⟩ : Fin 128)) : EReal)
      then 0#32 else w)
  else w

/-- The double one-hot sum picks the table's entry at the word's (hi, lo), or nothing. -/
theorem rpB_bad_sum (tb : FVec Ideal S16x128 .bf16) (w : BitVec 32) :
    (∑ b : Fin 128, (∑ a : Fin 16, (tb (ix2 a b) : EReal) * (if BitVec.ofNat 32 a.val = IntOp.shrsi .vector w 7#32 then 1 else 0))
        * (if BitVec.ofNat 32 b.val = IntOp.andi w 127#32 then (1 : EReal) else 0))
      = if h : w.toNat < 2048 then
          (tb (ix2 (⟨w.toNat / 128, by omega⟩ : Fin 16) (⟨w.toNat % 128, Nat.mod_lt _ (by norm_num)⟩ : Fin 128)) : EReal)
        else 0 := by
  by_cases h : w.toNat < 2048
  · rw [dif_pos h]
    have hA : ∀ b : Fin 128,
        (∑ a : Fin 16, (tb (ix2 a b) : EReal) * (if BitVec.ofNat 32 a.val = IntOp.shrsi .vector w 7#32 then 1 else 0))
          = tb (ix2 (⟨w.toNat / 128, by omega⟩ : Fin 16) b) := by
      intro b
      rw [Finset.sum_eq_single (⟨w.toNat / 128, by omega⟩ : Fin 16)]
      · rw [if_pos ((rpB_hi_eq w ⟨w.toNat / 128, by omega⟩).mpr ⟨h, rfl⟩), mul_one]
      · intro a _ hne
        rw [if_neg (fun e => hne (Fin.ext ((rpB_hi_eq w a).mp e).2.symm)), mul_zero]
      · intro hn; exact absurd (Finset.mem_univ _) hn
    rw [Finset.sum_congr rfl (fun b _ => by rw [hA b])]
    rw [Finset.sum_eq_single (⟨w.toNat % 128, Nat.mod_lt _ (by norm_num)⟩ : Fin 128)]
    · rw [if_pos ((rpB_lo_eq w ⟨w.toNat % 128, Nat.mod_lt _ (by norm_num)⟩).mpr rfl), mul_one]
    · intro b _ hne
      rw [if_neg (fun e => hne (Fin.ext ((rpB_lo_eq w b).mp e).symm)), mul_zero]
    · intro hn; exact absurd (Finset.mem_univ _) hn
  · rw [dif_neg h]
    refine Finset.sum_eq_zero fun b _ => ?_
    have h0 : (∑ a : Fin 16, (tb (ix2 a b) : EReal) * (if BitVec.ofNat 32 a.val = IntOp.shrsi .vector w 7#32 then 1 else 0)) = 0 :=
      Finset.sum_eq_zero fun a _ => by rw [if_neg (fun e => h ((rpB_hi_eq w a).mp e).1), mul_zero]
    rw [h0, zero_mul]

/-- The threshold constant is one half. -/
theorem rpB_half : (Scalar.ofBits (F := Ideal) .f32 0x3F000000#32 : EReal) = ((1 / 2 : ℝ) : EReal) := by
  show Ideal.ofBits .f32 0x3F000000#32 = _
  simp [Ideal.ofBits, Ideal.ieee, -EReal.coe_mul]
  norm_num

/-! ## The chunk at an index -/

theorem rpB_ohHi_apply (hi : IVec S16384 32) (a : Fin 16) (i : Fin 16384) :
    (rpB_ohHi hi (ix2 a i) : EReal) = if BitVec.ofNat 32 a.val = hi (ix1 i) then 1 else 0 := by
  show (FloatOps.sitofp (F := Ideal) .f32 ((cmpi .eq
    (broadcastTo S16x16384 (iota .tc S16x1 32 [0] Gen.iota_S16x1_d0_w32) Gen.broadcasts_S16x1_S16x16384)
    (broadcastTo S16x16384 (shapeCast S1x16384 hi Gen.shapeCasts_S16384_S1x16384) Gen.broadcasts_S1x16384_S16x16384)
    (ix2 a i)).setWidth 32) : EReal) = _
  rw [rpB_cmpHi_apply, rpB_onehot]

theorem rpB_prod_apply (tb : FVec Ideal S16x128 .bf16) (hi lo : IVec S16384 32) (b : Fin 128) (i : Fin 16384) :
    (rpB_prod tb (rpB_ohHi hi) (rpB_eqLo lo) (ix2 b i) : EReal)
      = (∑ a : Fin 16, (tb (ix2 a b) : EReal) * (if BitVec.ofNat 32 a.val = hi (ix1 i) then 1 else 0))
        * (if BitVec.ofNat 32 b.val = lo (ix1 i) then (1 : EReal) else 0) := by
  show (matmul (F := Ideal) dot_S16x128_S16x16384_S128x16384_0_0_1_1_n_n none tb (rpB_ohHi hi)
        (constant S128x16384 .f32 0x00000000#32) (ix2 b i) : EReal)
      * (FloatOps.sitofp (F := Ideal) .f32 ((cmpi .eq
        (broadcastTo S128x16384 (iota .tc S128x1 32 [0] Gen.iota_S128x1_d0_w32) Gen.broadcasts_S128x1_S128x16384)
        (broadcastTo S128x16384 (shapeCast S1x16384 lo Gen.shapeCasts_S16384_S1x16384) Gen.broadcasts_S1x16384_S128x16384)
        (ix2 b i)).setWidth 32) : EReal) = _
  rw [rpB_matmul_apply, rpB_cmpLo_apply, rpB_onehot]
  congr 1
  exact Finset.sum_congr rfl fun a _ => by rw [rpB_ohHi_apply hi a i]

/-- The lane sum of a chunk at position i: the table at the word's (hi, lo), or 0. -/
theorem rpB_bad_apply (tb : FVec Ideal S16x128 .bf16) (w : IVec S16384 32) (i : Fin 16384) :
    (rpB_bad (rpB_prod tb (rpB_ohHi (shrsi w (broadcast S16384 7#32))) (rpB_eqLo (andi w (broadcast S16384 127#32)))) (ix1 i) : EReal)
      = if h : (w (ix1 i)).toNat < 2048 then
          (tb (ix2 (⟨(w (ix1 i)).toNat / 128, by omega⟩ : Fin 16) (⟨(w (ix1 i)).toNat % 128, Nat.mod_lt _ (by norm_num)⟩ : Fin 128)) : EReal)
        else 0 := by
  unfold rpB_bad
  refine (rpB_lanesum_apply _ _ _ _ i).trans ?_
  refine (Finset.sum_congr rfl fun b _ => rpB_prod_apply tb _ _ b i).trans ?_
  exact rpB_bad_sum tb (w (ix1 i))

/-- The compare bit at position i. -/
theorem rpB_gt_apply (pr : FVec Ideal S128x16384 .f32) (i : Fin 16384) :
    rpB_gt pr (ix1 i) = Ideal.cmp .ogt (rpB_bad pr (ix1 i) : EReal) ((1 / 2 : ℝ) : EReal) := by
  unfold rpB_gt
  rw [cmpf_apply, broadcast_apply, Ideal.cmpf_def, rpB_half]

/-- THE CHUNK AT (p, q): the word at position p·1024 + q through the remap. -/
theorem rpB_chunk_apply (tb : FVec Ideal S16x128 .bf16) (w : IVec S16384 32) (p : Fin 16) (q : Fin 1024) :
    rpB_chunk tb w (ix2 p q) = rpB_word tb (w (ix1 (⟨p.val * 1024 + q.val, by omega⟩ : Fin 16384))) := by
  unfold rpB_chunk rpB_store
  rw [rpB_unflat_apply]
  generalize (⟨p.val * 1024 + q.val, by omega⟩ : Fin 16384) = i
  rw [select_apply, broadcast_apply, rpB_gt_apply, rpB_bad_apply]
  unfold rpB_word Ideal.cmp
  by_cases h : (w (ix1 i)).toNat < 2048
  · rw [dif_pos h, dif_pos h]
    by_cases hc : ((1 / 2 : ℝ) : EReal) < (tb (ix2 (⟨(w (ix1 i)).toNat / 128, by omega⟩ : Fin 16) (⟨(w (ix1 i)).toNat % 128, Nat.mod_lt _ (by norm_num)⟩ : Fin 128)) : EReal)
    · rw [if_pos hc]
      simp only [hc, decide_true, BitVec.ofBool_true]
      exact select_one _ _
    · rw [if_neg hc]
      simp only [hc, decide_false, BitVec.ofBool_false]
      exact select_zero _ _
  · rw [dif_neg h, dif_neg h]
    have hc : ¬ (((1 / 2 : ℝ) : EReal) < 0) := by
      rw [← EReal.coe_zero, EReal.coe_lt_coe_iff]; norm_num
    simp only [hc, decide_false, BitVec.ofBool_false]
    exact select_zero _ _

/-! ## The table, the block's rows, and the sixteen-row chunks -/

/-- The table in the matrix unit's operand format reads the table. -/
theorem rpB_tabB_apply (y : Vec Ideal S16x128 .f32) (a : Fin 16) (b : Fin 128) :
    (tabB y (ix2 a b) : EReal) = y (ix2 a b) := by
  show (shapeCast S16x128 (View.ld y rTab) Gen.shapeCasts_S16x128_S16x128 (ix2 a b) : EReal) = _
  refine (congrFun (shapeCast_self (s := S16x128) (View.ld y rTab) Gen.shapeCasts_S16x128_S16x128) (ix2 a b)).trans ?_
  show y (rTab.idx (ix2 a b)) = y (ix2 a b)
  congr 1
  funext ax
  apply Fin.ext
  match ax with
  | ⟨0, _⟩ => show 0 + 1 * a.val = a.val; omega
  | ⟨1, _⟩ => show 0 + 1 * b.val = b.val; omega

/-- One pixel through the remap, over either form of the table. -/
theorem rpB_word_tabB (y : Vec Ideal S16x128 .f32) (w : BitVec 32) : rpB_word (tabB y) w = remapWord y w := by
  unfold rpB_word remapWord
  simp only [rpB_tabB_apply]

/-- Sixteen rows of the block from row o, read at (p, q). -/
theorem rpB_ld_apply (x : Vec Ideal S256x1024 .i32) (o : ℕ) (inb : ∀ a, (![o, 0] : Fin 2 → ℕ) a + S16x1024.size a ≤ S256x1024.size a)
    (ho : o + 16 ≤ 256) (p : Fin 16) (q : Fin 1024) :
    View.ld x (Rect.unit (s := S256x1024) ![o, 0] S16x1024.size inb) (ix2 p q) = x (ix2 (⟨o + p.val, by omega⟩ : Fin 256) q) := by
  show x ((Rect.unit (s := S256x1024) ![o, 0] S16x1024.size inb).idx (ix2 p q)) = _
  congr 1
  funext ax
  apply Fin.ext
  match ax with
  | ⟨0, _⟩ => show o + 1 * p.val = o + p.val; omega
  | ⟨1, _⟩ => show 0 + 1 * q.val = q.val; omega

/-- A chunk computed from sixteen rows of the block from row o is those rows' pixels through the remap. -/
theorem rpB_chunk_remap (x : Vec Ideal S256x1024 .i32) (y : Vec Ideal S16x128 .f32) (o : ℕ)
    (inb : ∀ a, (![o, 0] : Fin 2 → ℕ) a + S16x1024.size a ≤ S256x1024.size a) (ho : o + 16 ≤ 256) (p : Fin 16) (q : Fin 1024) :
    rpB_chunk (tabB y) (rpB_flat (View.ld x (Rect.unit (s := S256x1024) ![o, 0] S16x1024.size inb))) (ix2 p q)
      = remapWord y (x (ix2 (⟨o + p.val, by omega⟩ : Fin 256) q)) := by
  rw [rpB_chunk_apply, rpB_word_tabB]
  unfold rpB_flat
  rw [rpB_flat_apply, rpB_ld_apply x o inb ho]

/-! ## The eight chunks 8 … 15 -/

theorem remapC8_apply (x : Vec Ideal S256x1024 .i32) (y : Vec Ideal S16x128 .f32) (p : Fin 16) (q : Fin 1024) :
    remapC8 (F := Ideal) x y (ix2 p q) = remapWord y (x (ix2 (⟨128 + p.val, by omega⟩ : Fin 256) q)) := by
  have e : remapC8 (F := Ideal) x y = rpB_chunk (tabB y) (rpB_flat (View.ld x rR8)) := rfl
  rw [e]
  exact rpB_chunk_remap x y 128 _ (by omega) p q

theorem remapC9_apply (x : Vec Ideal S256x1024 .i32) (y : Vec Ideal S16x128 .f32) (p : Fin 16) (q : Fin 1024) :
    remapC9 (F := Ideal) x y (ix2 p q) = remapWord y (x (ix2 (⟨144 + p.val, by omega⟩ : Fin 256) q)) := by
  have e : remapC9 (F := Ideal) x y = rpB_chunk (tabB y) (rpB_flat (View.ld x rR9)) := rfl
  rw [e]
  exact rpB_chunk_remap x y 144 _ (by omega) p q

theorem remapC10_apply (x : Vec Ideal S256x1024 .i32) (y : Vec Ideal S16x128 .f32) (p : Fin 16) (q : Fin 1024) :
    remapC10 (F := Ideal) x y (ix2 p q) = remapWord y (x (ix2 (⟨160 + p.val, by omega⟩ : Fin 256) q)) := by
  have e : remapC10 (F := Ideal) x y = rpB_chunk (tabB y) (rpB_flat (View.ld x rR10)) := rfl
  rw [e]
  exact rpB_chunk_remap x y 160 _ (by omega) p q

theorem remapC11_apply (x : Vec Ideal S256x1024 .i32) (y : Vec Ideal S16x128 .f32) (p : Fin 16) (q : Fin 1024) :
    remapC11 (F := Ideal) x y (ix2 p q) = remapWord y (x (ix2 (⟨176 + p.val, by omega⟩ : Fin 256) q)) := by
  have e : remapC11 (F := Ideal) x y = rpB_chunk (tabB y) (rpB_flat (View.ld x rR11)) := rfl
  rw [e]
  exact rpB_chunk_remap x y 176 _ (by omega) p q

theorem remapC12_apply (x : Vec Ideal S256x1024 .i32) (y : Vec Ideal S16x128 .f32) (p : Fin 16) (q : Fin 1024) :
    remapC12 (F := Ideal) x y (ix2 p q) = remapWord y (x (ix2 (⟨192 + p.val, by omega⟩ : Fin 256) q)) := by
  have e : remapC12 (F := Ideal) x y = rpB_chunk (tabB y) (rpB_flat (View.ld x rR12)) := rfl
  rw [e]
  exact rpB_chunk_remap x y 192 _ (by omega) p q

theorem remapC13_apply (x : Vec Ideal S256x1024 .i32) (y : Vec Ideal S16x128 .f32) (p : Fin 16) (q : Fin 1024) :
    remapC13 (F := Ideal) x y (ix2 p q) = remapWord y (x (ix2 (⟨208 + p.val, by omega⟩ : Fin 256) q)) := by
  have e : remapC13 (F := Ideal) x y = rpB_chunk (tabB y) (rpB_flat (View.ld x rR13)) := rfl
  rw [e]
  exact rpB_chunk_remap x y 208 _ (by omega) p q

theorem remapC14_apply (x : Vec Ideal S256x1024 .i32) (y : Vec Ideal S16x128 .f32) (p : Fin 16) (q : Fin 1024) :
    remapC14 (F := Ideal) x y (ix2 p q) = remapWord y (x (ix2 (⟨224 + p.val, by omega⟩ : Fin 256) q)) := by
  have e : remapC14 (F := Ideal) x y = rpB_chunk (tabB y) (rpB_flat (View.ld x rR14)) := rfl
  rw [e]
  exact rpB_chunk_remap x y 224 _ (by omega) p q

theorem remapC15_apply (x : Vec Ideal S256x1024 .i32) (y : Vec Ideal S16x128 .f32) (p : Fin 16) (q : Fin 1024) :
    remapC15 (F := Ideal) x y (ix2 p q) = remapWord y (x (ix2 (⟨240 + p.val, by omega⟩ : Fin 256) q)) := by
  have e : remapC15 (F := Ideal) x y = rpB_chunk (tabB y) (rpB_flat (View.ld x rR15)) := rfl
  rw [e]
  exact rpB_chunk_remap x y 240 _ (by omega) p q

end Cert.KernelIdeal.Hand

end
-- ==== Proof.KV.RemapBlock.lean ====
/-
  The remap kernel's output block, read at an index.

  The block is written back sixteen rows at a time; chunk k's word at local position (p, q) is the remapped word of
  the input block's pixel (16k + p, q), and the sixteen row-rectangles tile the block.  So the block laid out from
  the sixteen chunks holds, at every index, the remapped word of the input block's pixel there.
-/
import proofs.«413439_j36876589203620_2_alg».proof.Proof.KI.Blocks
import proofs.«413439_j36876589203620_2_alg».proof.Proof.KI.R1Body
import proofs.«413439_j36876589203620_2_alg».proof.Proof.KV.Words
import proofs.«413439_j36876589203620_2_alg».proof.Proof.KV.RemapPayA
import proofs.«413439_j36876589203620_2_alg».proof.Proof.KV.RemapPayB
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Gen

/-! ## Where a chunk's local index sits in the block -/

theorem rR0_emb (z : S16x1024.Idx) :
    rR0.emb z = ix2 (⟨0 + (z 0).val, by have h : (z 0).val < 16 := (z 0).isLt; omega⟩ : Fin 256) (z 1) := by
  funext a
  match a with
  | ⟨0, _⟩ => exact Fin.ext (show 0 + 1 * (z 0).val = 0 + (z 0).val by omega)
  | ⟨1, _⟩ => exact Fin.ext (show 0 + 1 * (z 1).val = (z 1).val by omega)
theorem rR1_emb (z : S16x1024.Idx) :
    rR1.emb z = ix2 (⟨16 + (z 0).val, by have h : (z 0).val < 16 := (z 0).isLt; omega⟩ : Fin 256) (z 1) := by
  funext a
  match a with
  | ⟨0, _⟩ => exact Fin.ext (show 16 + 1 * (z 0).val = 16 + (z 0).val by omega)
  | ⟨1, _⟩ => exact Fin.ext (show 0 + 1 * (z 1).val = (z 1).val by omega)
theorem rR2_emb (z : S16x1024.Idx) :
    rR2.emb z = ix2 (⟨32 + (z 0).val, by have h : (z 0).val < 16 := (z 0).isLt; omega⟩ : Fin 256) (z 1) := by
  funext a
  match a with
  | ⟨0, _⟩ => exact Fin.ext (show 32 + 1 * (z 0).val = 32 + (z 0).val by omega)
  | ⟨1, _⟩ => exact Fin.ext (show 0 + 1 * (z 1).val = (z 1).val by omega)
theorem rR3_emb (z : S16x1024.Idx) :
    rR3.emb z = ix2 (⟨48 + (z 0).val, by have h : (z 0).val < 16 := (z 0).isLt; omega⟩ : Fin 256) (z 1) := by
  funext a
  match a with
  | ⟨0, _⟩ => exact Fin.ext (show 48 + 1 * (z 0).val = 48 + (z 0).val by omega)
  | ⟨1, _⟩ => exact Fin.ext (show 0 + 1 * (z 1).val = (z 1).val by omega)
theorem rR4_emb (z : S16x1024.Idx) :
    rR4.emb z = ix2 (⟨64 + (z 0).val, by have h : (z 0).val < 16 := (z 0).isLt; omega⟩ : Fin 256) (z 1) := by
  funext a
  match a with
  | ⟨0, _⟩ => exact Fin.ext (show 64 + 1 * (z 0).val = 64 + (z 0).val by omega)
  | ⟨1, _⟩ => exact Fin.ext (show 0 + 1 * (z 1).val = (z 1).val by omega)
theorem rR5_emb (z : S16x1024.Idx) :
    rR5.emb z = ix2 (⟨80 + (z 0).val, by have h : (z 0).val < 16 := (z 0).isLt; omega⟩ : Fin 256) (z 1) := by
  funext a
  match a with
  | ⟨0, _⟩ => exact Fin.ext (show 80 + 1 * (z 0).val = 80 + (z 0).val by omega)
  | ⟨1, _⟩ => exact Fin.ext (show 0 + 1 * (z 1).val = (z 1).val by omega)
theorem rR6_emb (z : S16x1024.Idx) :
    rR6.emb z = ix2 (⟨96 + (z 0).val, by have h : (z 0).val < 16 := (z 0).isLt; omega⟩ : Fin 256) (z 1) := by
  funext a
  match a with
  | ⟨0, _⟩ => exact Fin.ext (show 96 + 1 * (z 0).val = 96 + (z 0).val by omega)
  | ⟨1, _⟩ => exact Fin.ext (show 0 + 1 * (z 1).val = (z 1).val by omega)
theorem rR7_emb (z : S16x1024.Idx) :
    rR7.emb z = ix2 (⟨112 + (z 0).val, by have h : (z 0).val < 16 := (z 0).isLt; omega⟩ : Fin 256) (z 1) := by
  funext a
  match a with
  | ⟨0, _⟩ => exact Fin.ext (show 112 + 1 * (z 0).val = 112 + (z 0).val by omega)
  | ⟨1, _⟩ => exact Fin.ext (show 0 + 1 * (z 1).val = (z 1).val by omega)
theorem rR8_emb (z : S16x1024.Idx) :
    rR8.emb z = ix2 (⟨128 + (z 0).val, by have h : (z 0).val < 16 := (z 0).isLt; omega⟩ : Fin 256) (z 1) := by
  funext a
  match a with
  | ⟨0, _⟩ => exact Fin.ext (show 128 + 1 * (z 0).val = 128 + (z 0).val by omega)
  | ⟨1, _⟩ => exact Fin.ext (show 0 + 1 * (z 1).val = (z 1).val by omega)
theorem rR9_emb (z : S16x1024.Idx) :
    rR9.emb z = ix2 (⟨144 + (z 0).val, by have h : (z 0).val < 16 := (z 0).isLt; omega⟩ : Fin 256) (z 1) := by
  funext a
  match a with
  | ⟨0, _⟩ => exact Fin.ext (show 144 + 1 * (z 0).val = 144 + (z 0).val by omega)
  | ⟨1, _⟩ => exact Fin.ext (show 0 + 1 * (z 1).val = (z 1).val by omega)
theorem rR10_emb (z : S16x1024.Idx) :
    rR10.emb z = ix2 (⟨160 + (z 0).val, by have h : (z 0).val < 16 := (z 0).isLt; omega⟩ : Fin 256) (z 1) := by
  funext a
  match a with
  | ⟨0, _⟩ => exact Fin.ext (show 160 + 1 * (z 0).val = 160 + (z 0).val by omega)
  | ⟨1, _⟩ => exact Fin.ext (show 0 + 1 * (z 1).val = (z 1).val by omega)
theorem rR11_emb (z : S16x1024.Idx) :
    rR11.emb z = ix2 (⟨176 + (z 0).val, by have h : (z 0).val < 16 := (z 0).isLt; omega⟩ : Fin 256) (z 1) := by
  funext a
  match a with
  | ⟨0, _⟩ => exact Fin.ext (show 176 + 1 * (z 0).val = 176 + (z 0).val by omega)
  | ⟨1, _⟩ => exact Fin.ext (show 0 + 1 * (z 1).val = (z 1).val by omega)
theorem rR12_emb (z : S16x1024.Idx) :
    rR12.emb z = ix2 (⟨192 + (z 0).val, by have h : (z 0).val < 16 := (z 0).isLt; omega⟩ : Fin 256) (z 1) := by
  funext a
  match a with
  | ⟨0, _⟩ => exact Fin.ext (show 192 + 1 * (z 0).val = 192 + (z 0).val by omega)
  | ⟨1, _⟩ => exact Fin.ext (show 0 + 1 * (z 1).val = (z 1).val by omega)
theorem rR13_emb (z : S16x1024.Idx) :
    rR13.emb z = ix2 (⟨208 + (z 0).val, by have h : (z 0).val < 16 := (z 0).isLt; omega⟩ : Fin 256) (z 1) := by
  funext a
  match a with
  | ⟨0, _⟩ => exact Fin.ext (show 208 + 1 * (z 0).val = 208 + (z 0).val by omega)
  | ⟨1, _⟩ => exact Fin.ext (show 0 + 1 * (z 1).val = (z 1).val by omega)
theorem rR14_emb (z : S16x1024.Idx) :
    rR14.emb z = ix2 (⟨224 + (z 0).val, by have h : (z 0).val < 16 := (z 0).isLt; omega⟩ : Fin 256) (z 1) := by
  funext a
  match a with
  | ⟨0, _⟩ => exact Fin.ext (show 224 + 1 * (z 0).val = 224 + (z 0).val by omega)
  | ⟨1, _⟩ => exact Fin.ext (show 0 + 1 * (z 1).val = (z 1).val by omega)
theorem rR15_emb (z : S16x1024.Idx) :
    rR15.emb z = ix2 (⟨240 + (z 0).val, by have h : (z 0).val < 16 := (z 0).isLt; omega⟩ : Fin 256) (z 1) := by
  funext a
  match a with
  | ⟨0, _⟩ => exact Fin.ext (show 240 + 1 * (z 0).val = 240 + (z 0).val by omega)
  | ⟨1, _⟩ => exact Fin.ext (show 0 + 1 * (z 1).val = (z 1).val by omega)

/-! ## Each chunk, at a local index, is the remapped word of the input block's pixel at the index embedded in the block -/

theorem remapC0_piece (x : Vec Ideal S256x1024 .i32) (y : Vec Ideal S16x128 .f32) (z : S16x1024.Idx) :
    remapC0 (F := Ideal) x y z = remapWord y (x (rR0.emb z)) := by
  rw [rR0_emb z]
  exact (congrArg (remapC0 (F := Ideal) x y) (eq_ix2 z)).trans (remapC0_apply x y (z 0) (z 1))
theorem remapC1_piece (x : Vec Ideal S256x1024 .i32) (y : Vec Ideal S16x128 .f32) (z : S16x1024.Idx) :
    remapC1 (F := Ideal) x y z = remapWord y (x (rR1.emb z)) := by
  rw [rR1_emb z]
  exact (congrArg (remapC1 (F := Ideal) x y) (eq_ix2 z)).trans (remapC1_apply x y (z 0) (z 1))
theorem remapC2_piece (x : Vec Ideal S256x1024 .i32) (y : Vec Ideal S16x128 .f32) (z : S16x1024.Idx) :
    remapC2 (F := Ideal) x y z = remapWord y (x (rR2.emb z)) := by
  rw [rR2_emb z]
  exact (congrArg (remapC2 (F := Ideal) x y) (eq_ix2 z)).trans (remapC2_apply x y (z 0) (z 1))
theorem remapC3_piece (x : Vec Ideal S256x1024 .i32) (y : Vec Ideal S16x128 .f32) (z : S16x1024.Idx) :
    remapC3 (F := Ideal) x y z = remapWord y (x (rR3.emb z)) := by
  rw [rR3_emb z]
  exact (congrArg (remapC3 (F := Ideal) x y) (eq_ix2 z)).trans (remapC3_apply x y (z 0) (z 1))
theorem remapC4_piece (x : Vec Ideal S256x1024 .i32) (y : Vec Ideal S16x128 .f32) (z : S16x1024.Idx) :
    remapC4 (F := Ideal) x y z = remapWord y (x (rR4.emb z)) := by
  rw [rR4_emb z]
  exact (congrArg (remapC4 (F := Ideal) x y) (eq_ix2 z)).trans (remapC4_apply x y (z 0) (z 1))
theorem remapC5_piece (x : Vec Ideal S256x1024 .i32) (y : Vec Ideal S16x128 .f32) (z : S16x1024.Idx) :
    remapC5 (F := Ideal) x y z = remapWord y (x (rR5.emb z)) := by
  rw [rR5_emb z]
  exact (congrArg (remapC5 (F := Ideal) x y) (eq_ix2 z)).trans (remapC5_apply x y (z 0) (z 1))
theorem remapC6_piece (x : Vec Ideal S256x1024 .i32) (y : Vec Ideal S16x128 .f32) (z : S16x1024.Idx) :
    remapC6 (F := Ideal) x y z = remapWord y (x (rR6.emb z)) := by
  rw [rR6_emb z]
  exact (congrArg (remapC6 (F := Ideal) x y) (eq_ix2 z)).trans (remapC6_apply x y (z 0) (z 1))
theorem remapC7_piece (x : Vec Ideal S256x1024 .i32) (y : Vec Ideal S16x128 .f32) (z : S16x1024.Idx) :
    remapC7 (F := Ideal) x y z = remapWord y (x (rR7.emb z)) := by
  rw [rR7_emb z]
  exact (congrArg (remapC7 (F := Ideal) x y) (eq_ix2 z)).trans (remapC7_apply x y (z 0) (z 1))
theorem remapC8_piece (x : Vec Ideal S256x1024 .i32) (y : Vec Ideal S16x128 .f32) (z : S16x1024.Idx) :
    remapC8 (F := Ideal) x y z = remapWord y (x (rR8.emb z)) := by
  rw [rR8_emb z]
  exact (congrArg (remapC8 (F := Ideal) x y) (eq_ix2 z)).trans (remapC8_apply x y (z 0) (z 1))
theorem remapC9_piece (x : Vec Ideal S256x1024 .i32) (y : Vec Ideal S16x128 .f32) (z : S16x1024.Idx) :
    remapC9 (F := Ideal) x y z = remapWord y (x (rR9.emb z)) := by
  rw [rR9_emb z]
  exact (congrArg (remapC9 (F := Ideal) x y) (eq_ix2 z)).trans (remapC9_apply x y (z 0) (z 1))
theorem remapC10_piece (x : Vec Ideal S256x1024 .i32) (y : Vec Ideal S16x128 .f32) (z : S16x1024.Idx) :
    remapC10 (F := Ideal) x y z = remapWord y (x (rR10.emb z)) := by
  rw [rR10_emb z]
  exact (congrArg (remapC10 (F := Ideal) x y) (eq_ix2 z)).trans (remapC10_apply x y (z 0) (z 1))
theorem remapC11_piece (x : Vec Ideal S256x1024 .i32) (y : Vec Ideal S16x128 .f32) (z : S16x1024.Idx) :
    remapC11 (F := Ideal) x y z = remapWord y (x (rR11.emb z)) := by
  rw [rR11_emb z]
  exact (congrArg (remapC11 (F := Ideal) x y) (eq_ix2 z)).trans (remapC11_apply x y (z 0) (z 1))
theorem remapC12_piece (x : Vec Ideal S256x1024 .i32) (y : Vec Ideal S16x128 .f32) (z : S16x1024.Idx) :
    remapC12 (F := Ideal) x y z = remapWord y (x (rR12.emb z)) := by
  rw [rR12_emb z]
  exact (congrArg (remapC12 (F := Ideal) x y) (eq_ix2 z)).trans (remapC12_apply x y (z 0) (z 1))
theorem remapC13_piece (x : Vec Ideal S256x1024 .i32) (y : Vec Ideal S16x128 .f32) (z : S16x1024.Idx) :
    remapC13 (F := Ideal) x y z = remapWord y (x (rR13.emb z)) := by
  rw [rR13_emb z]
  exact (congrArg (remapC13 (F := Ideal) x y) (eq_ix2 z)).trans (remapC13_apply x y (z 0) (z 1))
theorem remapC14_piece (x : Vec Ideal S256x1024 .i32) (y : Vec Ideal S16x128 .f32) (z : S16x1024.Idx) :
    remapC14 (F := Ideal) x y z = remapWord y (x (rR14.emb z)) := by
  rw [rR14_emb z]
  exact (congrArg (remapC14 (F := Ideal) x y) (eq_ix2 z)).trans (remapC14_apply x y (z 0) (z 1))
theorem remapC15_piece (x : Vec Ideal S256x1024 .i32) (y : Vec Ideal S16x128 .f32) (z : S16x1024.Idx) :
    remapC15 (F := Ideal) x y z = remapWord y (x (rR15.emb z)) := by
  rw [rR15_emb z]
  exact (congrArg (remapC15 (F := Ideal) x y) (eq_ix2 z)).trans (remapC15_apply x y (z 0) (z 1))

/-! ## The block -/

/-- THE OUTPUT BLOCK, READ AT AN INDEX: the remapped word of the input block's pixel there. -/
theorem remapBlock_apply (x : Vec Ideal S256x1024 .i32) (y : Vec Ideal S16x128 .f32) (j : S256x1024.Idx) :
    remapBlock (F := Ideal) x y j = remapWord y (x j) := by
  unfold remapBlock
  refine View.canon_apply_of_pieces (fun j => remapWord y (x j)) (remapPieces x y) ?_ j
    (remap_cover _ _ _ _ _ _ _ _ _ _ _ _ _ _ _ _ j)
  intro pc hpc z
  unfold remapPieces at hpc
  simp only [List.mem_cons, List.not_mem_nil, or_false] at hpc
  rcases hpc with rfl | rfl | rfl | rfl | rfl | rfl | rfl | rfl | rfl | rfl | rfl | rfl | rfl | rfl | rfl | rfl
  · dsimp only; exact remapC15_piece x y z
  · dsimp only; exact remapC14_piece x y z
  · dsimp only; exact remapC13_piece x y z
  · dsimp only; exact remapC12_piece x y z
  · dsimp only; exact remapC11_piece x y z
  · dsimp only; exact remapC10_piece x y z
  · dsimp only; exact remapC9_piece x y z
  · dsimp only; exact remapC8_piece x y z
  · dsimp only; exact remapC7_piece x y z
  · dsimp only; exact remapC6_piece x y z
  · dsimp only; exact remapC5_piece x y z
  · dsimp only; exact remapC4_piece x y z
  · dsimp only; exact remapC3_piece x y z
  · dsimp only; exact remapC2_piece x y z
  · dsimp only; exact remapC1_piece x y z
  · dsimp only; exact remapC0_piece x y z

end Cert.KernelIdeal.Hand

end
-- ==== Proof.KV.RemapArr.lean ====
/-
  The remap kernel's output array after its run.

  The output has 32768 rows of 1024 words and is written back in 128 blocks of 256 rows, block t at rows
  256·t … 256·t + 255; at point t the kernel is handed the same rows of the input and the whole 16 × 128 table.
  What it writes back is, word by word, the remapped word of the input's pixel at the same place; the 128 blocks
  cover the array (row r lies in block r / 256).  So the array ends holding, at every index, the remapped word
  of the input array's pixel there.
-/
import proofs.«413439_j36876589203620_2_alg».proof.Proof.KI.R1Dat
import proofs.«413439_j36876589203620_2_alg».proof.Proof.KV.RemapBlock
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The index maps, decided over the grid -/

/-- At point `t` the input's and the output's block index is `(t, 0)` and the table's is `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section

variable (V : (c : Dev nD) → (b : Ref sig .tc) → Buf (Elt Ideal) ((c : Thread nD τ).loc b))

/-! ## The blocks the body is handed -/

/-- The table's block is the whole table. -/
theorem iblk1_1_eq (c : Dev nD) (t : Fin cfg1.N) : iblk1 (F := Ideal) V c 1 t = V c main_v17 := by
  obtain ⟨-, -, e10, e11, -, -⟩ := idx_facts1 t
  funext y
  show V c main_v17 (((cfg1.win 1).blk t).view.emb y) = V c main_v17 y
  congr 1
  funext a; apply Fin.ext
  match a with
  | ⟨0, _⟩ => show win1_1.index t (0 : Fin 2) * 16 + 1 * (y 0).val = (y 0).val; omega
  | ⟨1, _⟩ => show win1_1.index t (1 : Fin 2) * 128 + 1 * (y 1).val = (y 1).val; omega

/-- WHAT POINT `t` WRITES BACK is block `t` of the remapped input array. -/
theorem flushed1_2_eq (c : Dev nD) (t : Fin cfg1.N) :
    (dat1 (F := Ideal) V c).flushed 2 t
      = ((cfg1.win 2).blk t).view.read (Elt Ideal) (fun j => remapWord (V c main_v17) (V c main_v0 j)) := by
  show (cfg1.win 2).cut (grid1.coords t) ((dat1 (F := Ideal) V c).after 2 t) = _
  rw [after1_2]
  obtain ⟨e00, e01, -, -, e20, e21⟩ := idx_facts1 t
  funext y
  show remapBlock (F := Ideal) (iblk1 V c 0 t) (iblk1 V c 1 t) y
    = remapWord (V c main_v17) (V c main_v0 (((cfg1.win 2).blk t).view.emb y))
  rw [remapBlock_apply, iblk1_1_eq]
  show remapWord (V c main_v17) (V c main_v0 (((cfg1.win 0).blk t).view.emb y))
    = remapWord (V c main_v17) (V c main_v0 (((cfg1.win 2).blk t).view.emb y))
  have h0 : ((cfg1.win 0).blk t).view.emb y = ((cfg1.win 2).blk t).view.emb y := by
    funext a; apply Fin.ext
    match a with
    | ⟨0, _⟩ => show win1_0.index t (0 : Fin 2) * 256 + 1 * (y 0).val = win1_2.index t (0 : Fin 2) * 256 + 1 * (y 0).val; omega
    | ⟨1, _⟩ => show win1_0.index t (1 : Fin 2) * 1024 + 1 * (y 1).val = win1_2.index t (1 : Fin 2) * 1024 + 1 * (y 1).val; omega
  rw [h0]

/-! ## The blocks cover the array -/

/-- An index of the array is in point `t`'s block iff each coordinate is in the block's range on its axis. -/
theorem mem_blk1_2 (t : Fin cfg1.N) (i : S32768x1024.Idx) :
    i ∈ ((cfg1.win 2).blk t).view.set ↔ ∀ a : Fin 2, win1_2.index t a * S256x1024.size a ≤ (i a).val
      ∧ (i a).val < win1_2.index t a * S256x1024.size a + S256x1024.size a := by
  show i ∈ ((View.whole main_v18).slice (win1_2.rect t)).set ↔ _
  rw [View.set_slice_whole, Rect.mem_set_unit]
  exact Iff.rfl

/-- Every index of the array is in some point's block: row `r` is in block `r / 256`. -/
theorem cover1_2 (i : S32768x1024.Idx) :
    ∃ t : Fin cfg1.N, (cfg1.win 2).flush t = true ∧ i ∈ ((cfg1.win 2).blk t).view.set := by
  have hi0 : (i 0).val < 32768 := (i 0).isLt
  have hi1 : (i 1).val < 1024 := (i 1).isLt
  have hN : cfg1.N = 128 := N_1
  refine ⟨⟨(i 0).val / 256, by rw [hN]; omega⟩, flush1_2 _, ?_⟩
  obtain ⟨-, -, -, -, e20, e21⟩ := idx_facts1 ⟨(i 0).val / 256, by rw [hN]; omega⟩
  rw [mem_blk1_2]
  intro a
  match a with
  | ⟨0, _⟩ =>
    show win1_2.index _ (0 : Fin 2) * 256 ≤ (i 0).val ∧ (i 0).val < win1_2.index _ (0 : Fin 2) * 256 + 256
    rw [e20]; show (i 0).val / 256 * 256 ≤ (i 0).val ∧ (i 0).val < (i 0).val / 256 * 256 + 256; omega
  | ⟨1, _⟩ =>
    show win1_2.index _ (1 : Fin 2) * 1024 ≤ (i 1).val ∧ (i 1).val < win1_2.index _ (1 : Fin 2) * 1024 + 1024
    rw [e21]; omega

/-! ## The array -/

/-- THE OUTPUT ARRAY after the run: at every index the remapped word of the input array's pixel there. -/
theorem remap_arr (c : Dev nD) (j : S32768x1024.Idx) :
    (dat1 (F := Ideal) V c).arrAt 2 cfg1.N j = remapWord (V c main_v17) (V c main_v0 j) :=
  congrFun ((dat1 (F := Ideal) V c).arrAt_eq_of_cover 2 (fun j => remapWord (V c main_v17) (V c main_v0 j))
    (fun t _ => flushed1_2_eq V c t) cover1_2) j

end

end Cert.KernelIdeal.Hand

end
-- ==== Proof.Spec.lean ====
/-
  The mathematics both programs compute, stated once over the image as an array of 32-bit words.

  A pixel is a LABEL when its word, read unsigned, is below 2048 (equivalently: read signed it lies in
  [0, 2048)).  For an image all of whose pixels are labels:
    * `cnt x l` is the number of pixels carrying label `l` (a histogram over the whole image);
    * a label is DROPPED when its count is under 10000 or over 20000, the background label 0 never;
    * the result keeps every pixel whose label is kept and sends every pixel of a dropped label to 0.
-/
import Idealize.ShloMosaic.PureOps.Ideal
import Idealize.ShloMosaic.Lib.ValueIdx

noncomputable section

namespace Cert.Spec

open Idealize.ShloMosaic Idealize.ShloMosaic.ValueIdx

/-- The image's shape, and the flattened (rows × columns) shape both pallas_calls tile. -/
abbrev SImg : Shape := ⟨3, ![32, 1024, 1024]⟩
abbrev SFlat : Shape := ⟨2, ![32768, 1024]⟩

/-- Every pixel is a label: its word, read unsigned, is below 2048. -/
def InDom (x : IVec SImg 32) : Prop := ∀ i, (x i).toNat < 2048

/-- The number of pixels carrying label `l`. -/
def cnt (x : IVec SImg 32) (l : ℕ) : ℕ := (Finset.univ.filter fun i : SImg.Idx => (x i).toNat = l).card

/-- Label `l` is dropped: fewer than 10000 or more than 20000 pixels carry it, and it is not the background. -/
def bad (x : IVec SImg 32) (l : ℕ) : Prop := (cnt x l < 10000 ∨ 20000 < cnt x l) ∧ l ≠ 0

open Classical in
/-- The remapped image: a pixel of a dropped label becomes the background 0, every other pixel is kept. -/
def out (x : IVec SImg 32) : IVec SImg 32 := fun i => if bad x (x i).toNat then 0#32 else x i

/-- No label is carried by more pixels than the image has: 2^25. -/
theorem cnt_le (x : IVec SImg 32) (l : ℕ) : cnt x l ≤ 33554432 := by
  unfold cnt
  refine (Finset.card_filter_le _ _).trans ?_
  rw [Finset.card_univ, Shape.card_idx]
  decide

end Cert.Spec

end
-- ==== Proof.KV.Bridge.lean ====
/-
  The kernel's chain of values is the specification's remapped image.

  The kernel flattens the image x[32, 1024, 1024] to z[32768, 1024], row (i0, i1) of the image becoming flat row
  i0 · 1024 + i1.  The flattening is a bijection of the index sets carrying z to x, so the pixels of z with a given
  word are as many as those of x; and the two core-slices (flat rows below 16384, and from 16384 on) split the
  rows, so their counts add up to the image's histogram.  The table built from the summed counts is 1 at
  (a, b) exactly when the specification drops the label a · 128 + b, and 0 elsewhere; a pixel whose word is a
  label w is looked up at (w / 128, w % 128), whose label is w itself, so it is sent to 0 exactly when its label
  is dropped.
-/
import proofs.«413439_j36876589203620_2_alg».proof.Proof.Spec
import proofs.«413439_j36876589203620_2_alg».proof.Proof.KV.Words
import Idealize.ShloMosaic.Lib.ValueIdx
import Mathlib.Data.Finset.Card
import Mathlib.Data.EReal.Basic

noncomputable section

namespace Cert.KernelIdeal.Hand

open Idealize.ShloMosaic Idealize.ShloMosaic.ValueIdx Cert.KernelIdeal

/-! ## The flattening as a bijection of the index sets -/

/-- A rank-3 index's coordinates are below the extents, written as numbers. -/
theorem idx3_lt0 {n0 n1 n2 : Nat} (i : (⟨3, ![n0, n1, n2]⟩ : Shape).Idx) : (i 0).val < n0 := (i 0).isLt
theorem idx3_lt1 {n0 n1 n2 : Nat} (i : (⟨3, ![n0, n1, n2]⟩ : Shape).Idx) : (i 1).val < n1 := (i 1).isLt
theorem idx3_lt2 {n0 n1 n2 : Nat} (i : (⟨3, ![n0, n1, n2]⟩ : Shape).Idx) : (i 2).val < n2 := (i 2).isLt

/-- Flat position (r, q) is pixel (r / 1024, r % 1024, q); pixel (i0, i1, i2) is flat position (i0 · 1024 + i1, i2). -/
def flatEquiv : S32768x1024.Idx ≃ Cert.Spec.SImg.Idx where
  toFun j := ix3 (⟨(j 0).val / 1024, by have := idx2_lt0 j; omega⟩ : Fin 32)
    (⟨(j 0).val % 1024, Nat.mod_lt _ (by norm_num)⟩ : Fin 1024) (⟨(j 1).val, idx2_lt1 j⟩ : Fin 1024)
  invFun i := ix2 (⟨(i 0).val * 1024 + (i 1).val, by have := idx3_lt0 i; have := idx3_lt1 i; omega⟩ : Fin 32768)
    (⟨(i 2).val, idx3_lt2 i⟩ : Fin 1024)
  left_inv j := by
    funext a
    match a with
    | ⟨0, _⟩ => exact Fin.ext (by show (j 0).val / 1024 * 1024 + (j 0).val % 1024 = (j 0).val; omega)
    | ⟨1, _⟩ => rfl
  right_inv i := by
    have h1 := idx3_lt1 i
    funext a
    match a with
    | ⟨0, _⟩ => exact Fin.ext (by show ((i 0).val * 1024 + (i 1).val) / 1024 = (i 0).val; omega)
    | ⟨1, _⟩ => exact Fin.ext (by show ((i 0).val * 1024 + (i 1).val) % 1024 = (i 1).val; omega)
    | ⟨2, _⟩ => rfl

section Bridge

variable (x : IVec Cert.Spec.SImg 32) (z : Vec Ideal S32768x1024 .i32)
  (hz : ∀ r : Fin 32768, ∀ q : Fin 1024, z (ix2 r q) = x (ix3 (⟨r.val / 1024, by omega⟩ : Fin 32) (⟨r.val % 1024, Nat.mod_lt _ (by norm_num)⟩ : Fin 1024) q))

include hz in
/-- The flattened image at a flat position is the image at the pixel it came from. -/
theorem z_eq (j : S32768x1024.Idx) : z j = x (flatEquiv j) := by
  conv_lhs => rw [eq_ix2 j]
  exact hz (j 0) (j 1)

include hz in
/-- The flattened image has as many pixels of a given word as the image. -/
theorem flat_count (l : ℕ) :
    (Finset.univ.filter fun j : S32768x1024.Idx => (z j : BitVec 32).toNat = l).card = Cert.Spec.cnt x l := by
  unfold Cert.Spec.cnt
  refine Finset.card_equiv flatEquiv (fun j => ?_)
  simp only [Finset.mem_filter, Finset.mem_univ, true_and]
  rw [z_eq x z hz j]

/-- The two core-slices split the flat rows: their counts add up to the count over all rows. -/
theorem slices_split (a : Fin 16) (b : Fin 128) :
    sliceCnt z 0 a b + sliceCnt z 1 a b
      = (Finset.univ.filter fun j : S32768x1024.Idx => (z j : BitVec 32).toNat = a.val * 128 + b.val).card := by
  unfold sliceCnt
  rw [← Finset.card_union_of_disjoint]
  · refine congrArg Finset.card ?_
    ext j
    simp only [Finset.mem_union, Finset.mem_filter, Finset.mem_univ, true_and, Fin.val_zero, Fin.val_one]
    have hj := idx2_lt0 j
    constructor
    · rintro (⟨_, h⟩ | ⟨_, h⟩) <;> exact h
    · intro h
      by_cases h0 : (j 0).val / 16384 = 0
      · exact Or.inl ⟨h0, h⟩
      · exact Or.inr ⟨by omega, h⟩
  · rw [Finset.disjoint_filter]
    intro j _ h0 h1
    simp only [Fin.val_zero, Fin.val_one] at h0 h1
    omega

include hz in
/-- The two core-slices' counts add up to the image's histogram. -/
theorem slices_total (a : Fin 16) (b : Fin 128) :
    sliceCnt z 0 a b + sliceCnt z 1 a b = Cert.Spec.cnt x (a.val * 128 + b.val) := by
  rw [slices_split z a b, flat_count x z hz]

/-- One half is below a bit read as a number exactly when the bit is set. -/
theorem half_lt_ite (p : Prop) [Decidable p] : (((1 / 2 : ℝ) : EReal) < if p then (1 : EReal) else 0) ↔ p := by
  by_cases hp : p
  · rw [if_pos hp]
    refine iff_of_true ?_ hp
    rw [← EReal.coe_one, EReal.coe_lt_coe_iff]; norm_num
  · rw [if_neg hp]
    refine iff_of_false ?_ hp
    rw [← EReal.coe_zero, EReal.coe_lt_coe_iff]; norm_num

end Bridge

/-- The kernel's remap of a flattened pixel is the specification's remapped image at the pixel. -/
theorem bridge (x : IVec Cert.Spec.SImg 32) (hx : Cert.Spec.InDom x) (z : Vec Ideal S32768x1024 .i32)
    (hz : ∀ r : Fin 32768, ∀ q : Fin 1024, z (ix2 r q) = x (ix3 (⟨r.val / 1024, by omega⟩ : Fin 32) (⟨r.val % 1024, Nat.mod_lt _ (by norm_num)⟩ : Fin 1024) q))
    (tab : Vec Ideal S16x128 .f32)
    (htab : ∀ (a : Fin 16) (b : Fin 128), tab (ix2 a b) = if ((sliceCnt z 0 a b + sliceCnt z 1 a b < 10000 ∨ 20000 < sliceCnt z 0 a b + sliceCnt z 1 a b) ∧ a.val * 128 + b.val ≠ 0) then (1 : EReal) else 0)
    (i0 : Fin 32) (i1 : Fin 1024) (i2 : Fin 1024) :
    remapWord tab (z (ix2 (⟨i0.val * 1024 + i1.val, by omega⟩ : Fin 32768) i2)) = Cert.Spec.out x (ix3 i0 i1 i2) := by
  have hzx : z (ix2 (⟨i0.val * 1024 + i1.val, by omega⟩ : Fin 32768) i2) = x (ix3 i0 i1 i2) := by
    rw [hz]
    congr 1
    funext a
    match a with
    | ⟨0, _⟩ => exact Fin.ext (by show (i0.val * 1024 + i1.val) / 1024 = i0.val; omega)
    | ⟨1, _⟩ => exact Fin.ext (by show (i0.val * 1024 + i1.val) % 1024 = i1.val; omega)
    | ⟨2, _⟩ => rfl
  rw [hzx]
  have hlt : (x (ix3 i0 i1 i2)).toNat < 2048 := hx _
  unfold Cert.Spec.out remapWord
  rw [dif_pos hlt]
  have hl : (x (ix3 i0 i1 i2)).toNat / 128 * 128 + (x (ix3 i0 i1 i2)).toNat % 128 = (x (ix3 i0 i1 i2)).toNat := by omega
  have hc : (((1 / 2 : ℝ) : EReal) < (tab (ix2 (⟨(x (ix3 i0 i1 i2)).toNat / 128, by omega⟩ : Fin 16)
      (⟨(x (ix3 i0 i1 i2)).toNat % 128, Nat.mod_lt _ (by norm_num)⟩ : Fin 128)) : EReal))
      ↔ Cert.Spec.bad x (x (ix3 i0 i1 i2)).toNat := by
    rw [htab, half_lt_ite, slices_total x z hz]
    show Cert.Spec.bad x ((x (ix3 i0 i1 i2)).toNat / 128 * 128 + (x (ix3 i0 i1 i2)).toNat % 128) ↔ _
    rw [hl]
  by_cases hb : Cert.Spec.bad x (x (ix3 i0 i1 i2)).toNat
  · rw [if_pos hb, if_pos (hc.mpr hb)]
  · rw [if_neg hb, if_neg (mt hc.mp hb)]

end Cert.KernelIdeal.Hand

end
-- ==== Proof.KV.HostMid.lean ====
/-
  The host operations of the program outside its two kernels, read at an index.

  Between the kernels the two cores' partial histograms (2 × 16 × 128 counters) are summed over the core axis,
  laid flat (label l = hi·128 + lo), converted to 32-bit integers, and each label is marked when its count is
  below 10000 or above 20000 and the label is not 0; the marks, as the floats 1 and 0, are laid back as the
  16 × 128 table the second kernel reads (`midTab`).  Before the first kernel the argument, 32 images of
  1024 × 1024 pixels, is laid out as 32768 rows of 1024 pixels, and after the second kernel the result is laid
  back: both row-major, so row r of the flat form is row r mod 1024 of image r / 1024.
-/
import proofs.«413439_j36876589203620_2_alg».proof.Proof.Gen.KernelIdeal.Regions
import Idealize.ShloMosaic.PureOps.Ideal
import Idealize.ShloMosaic.PureOps.Ideal.Laws
import Idealize.ShloMosaic.Lib.ValueIdx
import Idealize.ShloMosaic.Lib.StableHlo.Run
import Idealize.ShloMosaic.Lib.StableHlo.Predicate
import Idealize.ShloMosaic.Lib.Pipeline.Value
import Idealize.ShloMosaic.Lib.IdealHost

noncomputable section

namespace Cert.KernelIdeal.Hand

open Idealize.ShloMosaic Idealize.ShloMosaic.ValueIdx Idealize.ShloMosaic.TcCoe Cert.KernelIdeal Cert.KernelIdeal.Gen

/-! ## The table between the kernels -/

/-- The summed histogram, flat, as 32-bit integers: entry l is the count of label l. -/
def midCnt (h : Vec Ideal S2x16x128 .f32) : IVec S2048 32 :=
  fptosi (F := Ideal) 32
    (shapeCast S2048
      (Host.reduceAdd (F := Ideal) h (constant (F := Ideal) S_ .f32 0x00000000#32) reducesTo_S2x16x128_S16x128_d0 h_S_)
      shapeCasts_S16x128_S2048)

/-- The table of dropped labels: 1 where the label's count is below 10000 or above 20000 and the label is not 0. -/
def midTab (h : Vec Ideal S2x16x128 .f32) : Vec Ideal S16x128 .f32 :=
  shapeCast S16x128
    (uitofp (F := Ideal) .f32
      (andi
        (ori
          (ori (broadcastInDim S2048 ![] bcast_S_S2048 (constantI S_ 1 0#1))
            (cmpi .slt (midCnt h) (broadcastInDim S2048 ![] bcast_S_S2048 (constantI S_ 32 10000#32))))
          (cmpi .sgt (midCnt h) (broadcastInDim S2048 ![] bcast_S_S2048 (constantI S_ 32 20000#32))))
        (cmpi .ne (iotaInDim S2048 32 0) (broadcastInDim S2048 ![] bcast_S_S2048 (constantI S_ 32 0#32)))))
    shapeCasts_S2048_S16x128

/-- The 21 operations between the kernels leave `midTab` of the partial histograms in the table's array. -/
theorem after_hostOps1_main_v17 (V : Valuation τ sig (Elt Ideal)) :
    StableHlo.after (hostOps1 (F := Ideal)) V (Proc.devRef .tc main_v17) = midTab (V (Proc.devRef .tc main_v1)) := by
  simp only [hostOps1]
  after_results
  rfl

variable (m : (ℓ : Loc nD τ sig) → Buf (Elt Ideal) ℓ) (outs : Outs (F := Ideal))

theorem V3_main_v17 (c : Dev nD) :
    Gen.V3 (F := Ideal) m outs c main_v17 = midTab (Gen.V2 (F := Ideal) m outs c main_v1) :=
  after_hostOps1_main_v17 _

/-! ## The table read at a label -/

/-- A natural number up to 2²⁵, as an extended real, converts to the 32-bit word of that number. -/
theorem fptosi_natCast (n : ℕ) (hn : n ≤ 33554432) : Ideal.fptosi 32 (((n : ℝ)) : EReal) = BitVec.ofNat 32 n := by
  rw [Ideal.fptosi, Ideal.toIntClamped_coe, if_pos (Nat.cast_nonneg n), Int.floor_natCast]
  have h1 : min (((2 ^ (32 - 1) : ℕ) : ℤ) - 1) (n : ℤ) = (n : ℤ) := min_eq_right (by norm_num <;> omega)
  have h2 : max (-((2 ^ (32 - 1) : ℕ) : ℤ)) (n : ℤ) = (n : ℤ) := max_eq_right (by norm_num <;> omega)
  rw [h1, h2]
  exact BitVec.ofInt_natCast 32 n

/-- A one-bit word read as a number, as an extended real, for the combination "(p or q) and r" of three bits. -/
theorem bits_or_or_and (p q r : BitVec 1) (P Q R : Prop) [Decidable ((P ∨ Q) ∧ R)]
    (hp : p = 1#1 ↔ P) (hq : q = 1#1 ↔ Q) (hr : r = 1#1 ↔ R) :
    ((((IntOp.andi (IntOp.ori (IntOp.ori 0#1 p) q) r).toNat : ℕ) : ℝ) : EReal) = if (P ∨ Q) ∧ R then (1 : EReal) else 0 := by
  rcases BitVec.eq_zero_or_eq_one p with rfl | rfl <;> rcases BitVec.eq_zero_or_eq_one q with rfl | rfl <;>
    rcases BitVec.eq_zero_or_eq_one r with rfl | rfl <;>
    simp [← hp, ← hq, ← hr, IntOp.andi, IntOp.ori]

/-- Entry l = a·128 + b of the flat integer histogram is the word of the two cores' summed counts. -/
theorem midCnt_apply (h : Vec Ideal S2x16x128 .f32) (n : ℕ) (a : Fin 16) (b : Fin 128)
    (hn : (h (ix3 (0 : Fin 2) a b) : EReal) + h (ix3 (1 : Fin 2) a b) = (((n : ℕ) : ℝ) : EReal)) (hle : n ≤ 33554432)
    (l : Fin 2048) (hl : l.val = a.val * 128 + b.val) :
    midCnt h (ix1 l) = BitVec.ofNat 32 n := by
  have hR : S2x16x128.Reduces [0] S16x128 := by decide
  unfold midCnt
  show Ideal.fptosi 32 (shapeCast S2048 _ shapeCasts_S16x128_S2048 (ix1 l)) = _
  rw [shapeCast_apply _ shapeCasts_S16x128_S2048 (ix1 l) (ix2 a b)
    (by rw [Shape.rowMajor_val_one, Shape.rowMajor_val_two]; show a.val * 128 + b.val = l.val; omega)]
  rw [hostReduceAdd_apply, Ideal.hostReduceAdd_single reducesTo_S2x16x128_S16x128_d0 hR]
  have e0 : hR.lift (ix2 a b) (0 : Fin 2) = ix3 (0 : Fin 2) a b := by
    funext d; match d with | ⟨0, _⟩ => rfl | ⟨1, _⟩ => rfl | ⟨2, _⟩ => rfl
  have e1 : hR.lift (ix2 a b) (1 : Fin 2) = ix3 (1 : Fin 2) a b := by
    funext d; match d with | ⟨0, _⟩ => rfl | ⟨1, _⟩ => rfl | ⟨2, _⟩ => rfl
  have hs : (∑ k : Fin (S2x16x128.size 0), (h (hR.lift (ix2 a b) k) : EReal))
      = h (ix3 (0 : Fin 2) a b) + h (ix3 (1 : Fin 2) a b) := by
    show (∑ k : Fin 2, (h (hR.lift (ix2 a b) k) : EReal)) = _
    rw [Fin.sum_univ_two, e0, e1]
  rw [hs, hn]
  show Ideal.fptosi 32 (Ideal.ofBits .f32 0x00000000#32 + ((n : ℝ) : EReal)) = _
  rw [Ideal.ofBits_zero_f32, zero_add, fptosi_natCast n hle]

/-- The table at (a, b): 1 exactly when the label's count is below 10000 or above 20000 and the label is not 0. -/
theorem midTab_apply (h : Vec Ideal S2x16x128 .f32) (N : Fin 16 → Fin 128 → ℕ)
    (hN : ∀ a b, (h (ix3 (0 : Fin 2) a b) : EReal) + h (ix3 (1 : Fin 2) a b) = (((N a b : ℕ) : ℝ) : EReal))
    (hle : ∀ a b, N a b ≤ 33554432) (a : Fin 16) (b : Fin 128) :
    midTab h (ix2 a b) = if ((N a b < 10000 ∨ 20000 < N a b) ∧ a.val * 128 + b.val ≠ 0) then (1 : EReal) else 0 := by
  have hl : a.val * 128 + b.val < 2048 := by have := a.isLt; have := b.isLt; omega
  have hc := midCnt_apply h (N a b) a b (hN a b) (hle a b) ⟨a.val * 128 + b.val, hl⟩ rfl
  have hn := hle a b
  unfold midTab
  rw [shapeCast_apply _ shapeCasts_S2048_S16x128 (ix2 a b) (ix1 (⟨a.val * 128 + b.val, hl⟩ : Fin 2048))
    (by rw [Shape.rowMajor_val_one, Shape.rowMajor_val_two]; rfl)]
  show ((((IntOp.andi (IntOp.ori (IntOp.ori 0#1
      (IntOp.cmpi .slt (midCnt h (ix1 (⟨a.val * 128 + b.val, hl⟩ : Fin 2048))) 10000#32))
      (IntOp.cmpi .sgt (midCnt h (ix1 (⟨a.val * 128 + b.val, hl⟩ : Fin 2048))) 20000#32))
      (IntOp.cmpi .ne (BitVec.ofNat 32 (a.val * 128 + b.val)) 0#32)).toNat : ℕ) : ℝ) : EReal) = _
  rw [hc]
  have t1 : (BitVec.ofNat 32 (N a b)).toNat = N a b := by rw [BitVec.toNat_ofNat]; exact Nat.mod_eq_of_lt (by omega)
  refine bits_or_or_and _ _ _ _ _ _ ?_ ?_ ?_
  · rw [StableHlo.Predicate.slt_iff_toNat (by rw [t1]; omega) (by decide), t1]; rfl
  · rw [StableHlo.Predicate.sgt_iff_toNat (by rw [t1]; omega) (by decide), t1]; rfl
  · simp only [IntOp.cmpi, StableHlo.Predicate.ofBool_eq_one_iff, bne_iff_ne, ne_eq]
    constructor
    · intro hne h0; exact hne (by rw [h0])
    · intro hne h0; apply hne
      have := congrArg BitVec.toNat h0
      rw [BitVec.toNat_ofNat, Nat.mod_eq_of_lt (by omega)] at this
      exact this

/-! ## The two reshapes around the kernels -/

/-- Before the first kernel: row r of the 32768 × 1024 form is row r mod 1024 of image r / 1024 of the argument. -/
theorem V1_main_v0 (c : Dev nD) (i : S32768x1024.Idx) : Gen.V1 (F := Ideal) m c main_v0 i
    = m ((c : Thread nD τ).loc main_arg0) (ix3 (⟨(i 0).val / 1024, by have := (i 0).isLt; simp only [Shape.size, Matrix.cons_val_zero] at this; omega⟩ : Fin 32) (⟨(i 0).val % 1024, Nat.mod_lt _ (by norm_num)⟩ : Fin 1024) (i 1)) := by
  have e : Gen.V1 (F := Ideal) m c main_v0
      = shapeCast S32768x1024 (m ((c : Thread nD τ).loc main_arg0)) shapeCasts_S32x1024x1024_S32768x1024 := by
    show StableHlo.after (hostOps0 (F := Ideal)) (Gen.V0 m c) (Proc.devRef .tc main_v0) = _
    simp only [hostOps0]
    after_results
    rfl
  rw [e]
  refine shapeCast_apply (s := S32x1024x1024) (t := S32768x1024) _ _ _ _ ?_
  rw [Shape.rowMajor_val_three, Shape.rowMajor_val_two]
  show ((i 0).val / 1024 * 1024 + (i 0).val % 1024) * 1024 + (i 1).val = (i 0).val * 1024 + (i 1).val
  omega

/-- After the second kernel: pixel (i₀, i₁, i₂) of the result is pixel (1024·i₀ + i₁, i₂) of the flat form. -/
theorem V5_main_v19 (c : Dev nD) (j : S32x1024x1024.Idx) : Gen.V5 (F := Ideal) m outs c main_v19 j
    = Gen.V4 (F := Ideal) m outs c main_v18 (ix2 (⟨(j 0).val * 1024 + (j 1).val, by have h0 := (j 0).isLt; have h1 := (j 1).isLt; simp only [Shape.size, Matrix.cons_val_zero, Matrix.cons_val_one] at h0 h1; omega⟩ : Fin 32768) (j 2)) := by
  have e : ∀ V : Valuation τ sig (Elt Ideal), StableHlo.after (hostOps2 (F := Ideal)) V (Proc.devRef .tc main_v19)
      = shapeCast S32x1024x1024 (V (Proc.devRef .tc main_v18)) shapeCasts_S32768x1024_S32x1024x1024 := by
    intro V
    simp only [hostOps2]
    after_results
    rfl
  show StableHlo.after (hostOps2 (F := Ideal)) (Gen.V4 m outs c) (Proc.devRef .tc main_v19) j = _
  rw [e]
  refine shapeCast_apply (s := S32768x1024) (t := S32x1024x1024) _ _ _ _ ?_
  rw [Shape.rowMajor_val_three, Shape.rowMajor_val_two]
  show ((j 0).val * 1024 + (j 1).val) * 1024 + (j 2).val = ((j 0).val * 1024 + (j 1).val) * 1024 + (j 2).val
  rfl

end Cert.KernelIdeal.Hand

end
-- ==== Proof.KV.KernelValue.lean ====
/-
  The kernel's result as the specification's remapped image.

  At the last valuation the result array is the remap call's output laid back as 32 images.  The remap call's
  output, pixel by pixel, is the flattened argument's pixel sent through the table; the table is the host
  arithmetic applied to the histogram call's output; the histogram call's output holds, per core, the label
  counts of that core's half of the flattened argument.  The two halves' counts add up to the whole image's
  counts, so the table marks exactly the dropped labels and the result is the specification's.
-/
import proofs.«413439_j36876589203620_2_alg».proof.Proof.KI.Run
import proofs.«413439_j36876589203620_2_alg».proof.Proof.KV.HistArr
import proofs.«413439_j36876589203620_2_alg».proof.Proof.KV.RemapArr
import proofs.«413439_j36876589203620_2_alg».proof.Proof.KV.Bridge
import proofs.«413439_j36876589203620_2_alg».proof.Proof.KV.HostMid
import proofs.«413439_j36876589203620_2_alg».proof.Proof.KV.Words
import proofs.«413439_j36876589203620_2_alg».proof.Proof.Spec
import Idealize.ShloMosaic.PureOps.Ideal
import Idealize.ShloMosaic.Lib.ValueIdx

noncomputable section

namespace Cert.KernelIdeal.Hand

open Idealize.ShloMosaic Idealize.ShloMosaic.ValueIdx Idealize.ShloMosaic.TcCoe
open Idealize.ShloMosaic.Pipeline (Dat)
open Cert.KernelIdeal Cert.KernelIdeal.Gen

section Pieces

variable (m : (ℓ : Loc nD τ sig) → Buf (Elt Ideal) ℓ) (c : Dev nD)

/-! ## The buffers at the valuations, one small fact each -/

/-- The flattened argument is still in place when the remap call is entered: nothing in between writes it. -/
theorem Vr3_main_v0 : Gen.V3 (F := Ideal) m (outsA m) c main_v0 = Gen.V1 (F := Ideal) m c main_v0 :=
  (Gen.V3_of m (outsA m) c main_v0 (by decide)).trans (Gen.V2_of m (outsA m) c main_v0 (by decide))

/-- After the histogram call its output array holds what the call's write-backs left. -/
theorem V2_main_v1 : Gen.V2 (F := Ideal) m (outsA m) c main_v1 = o2 m c := by
  show Function.update (Gen.V1 m c) main_v1 (outsA m 2 main_v1 c) main_v1 = _
  rw [Function.update_self]
  show Function.update (Gen.V1 m c) main_v1 (o2 m c) main_v1 = _
  exact Function.update_self ..

/-- The table the remap call reads is the host arithmetic applied to the histogram call's output. -/
theorem Vr3_main_v17 : Gen.V3 (F := Ideal) m (outsA m) c main_v17 = midTab (o2 m c) := by
  rw [V3_main_v17 m (outsA m) c, V2_main_v1 m c]

/-- After the remap call its output array holds what the call's write-backs left. -/
theorem V4_main_v18 : Gen.V4 (F := Ideal) m (outs m) c main_v18 = o4 m c := by
  show Function.update (Gen.V3 m (outs m) c) main_v18 (outs m 4 main_v18 c) main_v18 = _
  rw [Function.update_self]
  exact outs_4 m c

/-- The flattened argument, row r, is row r mod 1024 of image r / 1024. -/
theorem flat_eq (r : Fin 32768) (q : Fin 1024) :
    (Gen.V1 (F := Ideal) m c main_v0 : Vec Ideal S32768x1024 .i32) (ix2 r q)
      = (m ((c : Thread nD τ).loc main_arg0) : IVec Cert.Spec.SImg 32)
          (ix3 (⟨r.val / 1024, by omega⟩ : Fin 32) (⟨r.val % 1024, Nat.mod_lt _ (by norm_num)⟩ : Fin 1024) q) :=
  V1_main_v0 m c (ix2 r q)

end Pieces

section Assembly

/-- The histogram call's output, core p, label a·128 + b: the count of that label in core p's half of the flattened argument. -/
theorem o2_apply (m : (ℓ : Loc nD τ sig) → Buf (Elt Ideal) ℓ) (c : Dev nD) (p : Fin 2) (a : Fin 16) (b : Fin 128) :
    (o2 m c : Vec Ideal S2x16x128 .f32) (ix3 p a b) = (((sliceCnt (Gen.V1 (F := Ideal) m c main_v0) p a b : ℕ) : ℝ) : EReal) :=
  hist_arr (Vr1 m) c p a b

/-- The remap call's output, pixel by pixel: the flattened argument's pixel sent through the table. -/
theorem o4_apply (m : (ℓ : Loc nD τ sig) → Buf (Elt Ideal) ℓ) (c : Dev nD) (j : S32768x1024.Idx) :
    (o4 m c : Vec Ideal S32768x1024 .i32) j
      = remapWord (midTab (o2 m c)) ((Gen.V1 (F := Ideal) m c main_v0 : Vec Ideal S32768x1024 .i32) j) := by
  have h := remap_arr (Vr3 m) c j
  rw [show Vr3 m c main_v17 = midTab (o2 m c) from Vr3_main_v17 m c,
    show Vr3 m c main_v0 = Gen.V1 (F := Ideal) m c main_v0 from Vr3_main_v0 m c] at h
  exact h

theorem kernel_value (m : (ℓ : Loc nD τ sig) → Buf (Elt Ideal) ℓ) (c : Dev nD)
    (hx : Cert.Spec.InDom (m ((c : Thread nD τ).loc main_arg0))) :
    Gen.V5 (F := Ideal) m (outs m) c main_v19 = Cert.Spec.out (m ((c : Thread nD τ).loc main_arg0)) := by
  -- the flattened argument and the table, as variables
  have hz := flat_eq m c
  have ho2 := o2_apply m c
  have ho4 := o4_apply m c
  have hv4 := V4_main_v18 m c
  generalize (Gen.V1 (F := Ideal) m c main_v0 : Vec Ideal S32768x1024 .i32) = z at hz ho2 ho4
  generalize (o2 m c : Vec Ideal S2x16x128 .f32) = h2 at ho2 ho4
  generalize (m ((c : Thread nD τ).loc main_arg0) : IVec Cert.Spec.SImg 32) = x at hz hx ⊢
  -- the table's entries
  have htab : ∀ (a : Fin 16) (b : Fin 128), midTab h2 (ix2 a b)
      = if ((sliceCnt z 0 a b + sliceCnt z 1 a b < 10000 ∨ 20000 < sliceCnt z 0 a b + sliceCnt z 1 a b) ∧ a.val * 128 + b.val ≠ 0) then (1 : EReal) else 0 :=
    midTab_apply h2 (fun a b => sliceCnt z 0 a b + sliceCnt z 1 a b)
      (fun a b => by rw [ho2, ho2, Nat.cast_add, EReal.coe_add])
      (fun a b => by rw [slices_total x z hz a b]; exact Cert.Spec.cnt_le x _)
  funext j
  obtain ⟨i0, i1, i2, rfl⟩ : ∃ i0 i1 i2, j = ix3 i0 i1 i2 := ⟨j 0, j 1, j 2, eq_ix3 j⟩
  rw [V5_main_v19 m (outs m) c, hv4, ho4]
  exact bridge x hx z hz (midTab h2) htab i0 i1 i2

end Assembly

end Cert.KernelIdeal.Hand

end
-- ==== Proof.Pre.lean ====
/-
  The certificate's precondition, read back.

  The printed predicate is `all ((image ≥ 0) ∧ (image < 2048))` with both comparisons signed: two scalar
  constants broadcast to the image's shape, two signed compares, a bitwise and of the two one-bit arrays, and
  a reduction by `and` over all three axes starting from 1.  If the result is 1 then every element of the
  one-bit array is 1, so at every pixel both compares hold: `0 ≤ (x i).toInt` and `(x i).toInt < 2048`.  A word
  whose signed reading is not negative has the same signed and unsigned reading, hence `(x i).toNat < 2048`.
-/
import proofs.«413439_j36876589203620_2_alg».proof.Pre_any_inputs
import proofs.«413439_j36876589203620_2_alg».proof.Proof.Gen.Pre_any_inputs
import proofs.«413439_j36876589203620_2_alg».proof.Proof.Spec
import Idealize.ShloMosaic.Lib.ReduceAll
import Idealize.ShloMosaic.Lib.StableHlo.Predicate
import Idealize.ShloMosaic.Lib.IdealHost

namespace Cert.PreDecode

open Idealize.ShloMosaic Idealize.ShloMosaic.ValueIdx

/-- The rank-0 shape has exactly one index. -/
instance : Subsingleton Cert.Pre_any_inputs.S_.Idx := ⟨fun a b => funext fun d => d.elim0⟩

/-- A 32-bit word whose signed reading lies in `[0, 2048)` has unsigned reading below 2048. -/
theorem toNat_lt_of_toInt (v : BitVec 32) (h0 : 0 ≤ v.toInt) (h1 : v.toInt < 2048) : v.toNat < 2048 := by
  rw [BitVec.toInt_eq_toNat_cond] at h0 h1
  have := v.isLt
  split at h0 <;> omega

/-- If the printed predicate holds of the image, every pixel's word, read unsigned, is below 2048. -/
theorem inDom_of_pre {F : FTy → Type} [FloatOps F] [Cert.Pre_any_inputs.Facts]
    (x : IVec Cert.Pre_any_inputs.S32x1024x1024 32)
    (h : Cert.Pre_any_inputs.fn (F := F) x = fun _ => 1#1) : Cert.Spec.InDom x := by
  intro i
  -- the reduction's one result word is 1
  have h0 := congrFun h ix0
  dsimp only [Cert.Pre_any_inputs.fn] at h0
  -- so the conjunction is 1 at pixel `i`, and each compare is 1 there
  have hi := Host.reduce_andi_all _ _ _ _ _ h0 i
  obtain ⟨hge, hlt⟩ := IntOp.andi_eq_one.1 hi
  have hge' := IntOp.cmpi_sge.1 hge
  have hlt' := IntOp.cmpi_slt.1 hlt
  -- the broadcast constants read 0 and 2048 at every pixel
  rw [broadcastInDim_scalar_apply] at hge' hlt'
  have e0 : (0#32).toInt = 0 := by decide
  have e1 : (2048#32).toInt = 2048 := by decide
  exact toNat_lt_of_toInt (x i) (by simpa [constantI, e0] using hge') (by simpa [constantI, e1] using hlt')

end Cert.PreDecode
-- ==== Proof.LibScatterCount.lean ====
/-
  Counting by a scatter of ones.

  A scatter that adds 1 at a target position for every entry of a list — the left fold of
  "add one at the entry's target, when it has one" — leaves at each position the accumulator's
  value there plus the number of entries whose target is that position.  The fold lemma is stated
  over abstract data (any index type, any list of entries, any target function, any step function
  that adds one at the entry's target and changes nothing else); its specialisation to
  `Host.scatter` reads a scatter-add of ones as a histogram over the update positions, of any shapes.
-/
import Mathlib.Data.Fintype.Basic
import Mathlib.Data.Finset.Card
import Mathlib.Data.List.FinRange
import Idealize.ShloMosaic.PureOps.ShapeOps

namespace Cert.LibScatterCount

open Idealize.ShloMosaic

/-- THE FOLD COUNTS.  Let `step r n` add one to the accumulator `r` at the entry `n`'s target (when `tgt n` gives one) and
    leave every other position as it was.  Folding `step` over a list `L` of entries leaves, at position `l`, the
    accumulator's value at `l` plus the number of entries of `L` whose target is `l`. -/
theorem foldl_addOne_apply {ι β : Type} {w : ℕ} (tgt : β → Option ι) [∀ n l, Decidable (tgt n = some l)]
    (step : (ι → BitVec w) → β → ι → BitVec w)
    (hstep : ∀ r n l, step r n l = if tgt n = some l then r l + 1#w else r l)
    (L : List β) (r : ι → BitVec w) (l : ι) :
    (L.foldl step r) l = r l + BitVec.ofNat w (L.countP fun n => decide (tgt n = some l)) := by
  induction L generalizing r with
  | nil => simp
  | cons a L ih =>
    rw [List.foldl_cons, ih, List.countP_cons, hstep]
    by_cases hta : tgt a = some l
    · simp only [hta, if_true, decide_true]
      rw [BitVec.ofNat_add, BitVec.add_assoc, BitVec.add_comm (1#w)]
    · simp only [hta, if_false, decide_false, Bool.false_eq_true, Nat.add_zero]

/-- The number of positions of `List.finRange N` satisfying `p` is the cardinality of the filter of `p` over `Fin N`. -/
theorem countP_finRange_eq_card {N : ℕ} (p : Fin N → Prop) [DecidablePred p] :
    (List.finRange N).countP (fun n => decide (p n)) = (Finset.univ.filter p).card := by
  rw [Fin.univ_def, List.countP_eq_length_filter]
  rfl

/-- A SCATTER-ADD OF ONES IS A HISTOGRAM.  When the scatter's body applied to an element and any update adds one to the
    element (`f a (upd j) = a + 1`: an integer add of updates that are all 1), the scatter's result at `l` is the
    operand's value at `l` plus the number of update positions whose result index is `l` (positions whose index falls
    outside the operand have no result index and are not counted). -/
theorem scatter_addOne_apply {s si u : Shape} {w w' : ℕ} (d : ScatterDims s si u)
    (f : BitVec w → BitVec w → BitVec w) (x : s.Idx → BitVec w) (idx : IVec si w') (upd : u.Idx → BitVec w)
    (hf : ∀ a j, f a (upd j) = a + 1#w) (l : s.Idx) :
    Host.scatter d f x idx upd l
      = x l + BitVec.ofNat w (Finset.univ.filter fun j : u.Idx => d.resultIdx? j idx = some l).card := by
  unfold Host.scatter
  refine (foldl_addOne_apply (fun n => d.resultIdx? (u.rowMajor.symm n) idx) _ (fun r n l' => ?_)
    (List.finRange u.numel) x l).trans ?_
  · cases hres : d.resultIdx? (u.rowMajor.symm n) idx with
    | none => simp only [reduceCtorEq, if_false]
    | some i =>
      by_cases hil : l' = i
      · subst hil; simp only [if_true, hf]
      · have hne : ¬ (some i = some l') := fun h => hil (Option.some.inj h).symm
        simp only [hil, hne, if_false]
  · rw [countP_finRange_eq_card]
    congr 2
    refine Finset.card_equiv u.rowMajor.symm fun n => ?_
    simp only [Finset.mem_filter, Finset.mem_univ, true_and]

end Cert.LibScatterCount
-- ==== Proof.RefCount.lean ====
/-
  The reference's histogram.  Under the label-range hypothesis the reference's scatter-add of ones at the pixels'
  labels into 2048 zeros holds, at each label, the number of pixels carrying it.
-/
import proofs.«413439_j36876589203620_2_alg».proof.Proof.Gen.ReferenceIdeal.Read
import proofs.«413439_j36876589203620_2_alg».proof.Proof.Spec
import proofs.«413439_j36876589203620_2_alg».proof.Proof.LibScatterCount
import Idealize.ShloMosaic.Lib.ValueIdx
import Idealize.ShloMosaic.Lib.StableHlo.Predicate
import Mathlib.Data.Finset.Card

noncomputable section

namespace Cert.ReferenceIdeal.RefValue

open Idealize.ShloMosaic Idealize.ShloMosaic.ValueIdx Cert.ReferenceIdeal Cert.ReferenceIdeal.Gen

/-! ## The clip and the negative-index wrap are the identity on a label -/

/-- A word below 2048 read unsigned is nonnegative read signed: it is not below zero. -/
theorem slt_zero_of_lt (p : BitVec 32) (hp : p.toNat < 2048) : p.slt 0#32 = false := by
  have hti : p.toInt = p.toNat := StableHlo.Predicate.toInt_eq_toNat_of_lt (by omega)
  have h0 : (0#32 : BitVec 32).toInt = 0 := by decide
  simp only [BitVec.slt, hti, h0, decide_eq_false_iff_not]
  omega

/-- On a label the reference's index arithmetic — clip at zero from below, then add 2048 where the result is negative —
    changes nothing. -/
theorem clip_wrap (p : BitVec 32) (hp : p.toNat < 2048) :
    Scalar.select (IntOp.cmpi .slt (IntOp.maxsi 0#32 p) 0#32) (IntOp.addi (IntOp.maxsi 0#32 p) 2048#32)
      (IntOp.maxsi 0#32 p) = p := by
  have hmax : IntOp.maxsi 0#32 p = p := by
    unfold IntOp.maxsi
    rw [slt_zero_of_lt p hp]
    rfl
  rw [hmax]
  have hc : IntOp.cmpi .slt p 0#32 = 0#1 := by
    unfold IntOp.cmpi
    show BitVec.ofBool (p.slt 0#32) = 0#1
    rw [slt_zero_of_lt p hp]
    rfl
  rw [hc]
  exact select_zero _ _

/-! ## The scatter's index array, read at an update position -/

/-- The scatter-indices index `[n, 0]` of update position `n`. -/
abbrev sIdx (j : S33554432.Idx) : S33554432x1.Idx :=
  fun a => match a with | ⟨0, _⟩ => ⟨(j 0).val, (j 0).isLt⟩ | ⟨1, _⟩ => ⟨0, Nat.one_pos⟩

/-- Under the label-range hypothesis the scatter index of update position `n` is the label of pixel `n` of the
    flattened image, as a nonnegative integer. -/
theorem index_toInt (x0 : (⟨S32x1024x1024, .i32⟩ : BufTy).Contents (Elt Ideal)) (h : Cert.Spec.InDom x0)
    (j : S33554432.Idx) :
    (Read.val_main_v8 (F := Ideal) x0 (sIdx j)).toInt = ((x0 (Read.idx_main_v0 j)).toNat : ℤ) := by
  have hj : Read.idx_main_v8 (sIdx j) = j := by
    funext a; match a with | ⟨0, _⟩ => rfl
  have hp : (x0 (Read.idx_main_v0 j)).toNat < 2048 := h _
  rw [Read.val_main_v8_apply, hj, Read.val_main_v7_apply, Read.val_main_v4_apply, Read.val_main_v6_apply,
    Read.val_main_v2_apply, Read.val_main_v3_apply, Read.val_main_v5_apply, Read.val_main_call0_v1_apply,
    Read.val_main_call0_v0_apply, Read.val_main_c_0_apply, Read.val_main_c_1_apply, Read.val_main_c_2_apply,
    Read.val_main_v0_apply, clip_wrap _ hp]
  exact StableHlo.Predicate.toInt_eq_toNat_of_lt (by omega)

/-! ## The scatter's result index at an update position -/

/-- THE RESULT INDEX.  The reference's scatter has one scatter index per update position (index vector along axis 1,
    the operand's one axis inserted, no window axes): when the signed word at update position `n` is `v` with
    `0 ≤ v < 2048`, the update lands at operand position `v`. -/
theorem resultIdx_eq (idx : IVec S33554432x1 32) (j : S33554432.Idx) (v : ℕ) (hv : v < 2048)
    (hidx : (idx (sIdx j)).toInt = (v : ℤ)) :
    scatter_S2048_S33554432x1_S33554432_n_0_0_1.resultIdx? j idx = some (ix1 ⟨v, hv⟩) := by
  have hsum : ∀ a, scatter_S2048_S33554432x1_S33554432_n_0_0_1.start j idx a
      + scatter_S2048_S33554432x1_S33554432_n_0_0_1.window j a = (v : ℤ) := by
    intro a
    obtain rfl : a = 0 := Subsingleton.elim _ _
    have hw : scatter_S2048_S33554432x1_S33554432_n_0_0_1.window j 0 = 0 := by
      unfold ScatterDims.window
      rw [dif_neg (by decide)]
    have hs : scatter_S2048_S33554432x1_S33554432_n_0_0_1.start j idx 0 = (idx (sIdx j)).toInt := by
      unfold ScatterDims.start
      rw [dif_pos (show (0 : Fin 1) ∈ scatter_S2048_S33554432x1_S33554432_n_0_0_1.scatterDimsToOperandDims from
        List.mem_singleton.mpr rfl)]
      have hsi : scatter_S2048_S33554432x1_S33554432_n_0_0_1.siIdx j
          ⟨List.idxOf (0 : Fin 1) scatter_S2048_S33554432x1_S33554432_n_0_0_1.scatterDimsToOperandDims,
            List.idxOf_lt_length_iff.2 (List.mem_singleton.mpr rfl)⟩ = sIdx j := by
        funext b; refine Fin.ext ?_
        match b with
        | ⟨0, _⟩ => rfl
        | ⟨1, _⟩ => rfl
      rw [hsi]
    rw [hw, hs, hidx]
    simp only [Nat.cast_zero, add_zero]
  unfold ScatterDims.resultIdx?
  rw [dif_pos (fun a => by
    rw [hsum a]
    obtain rfl : a = 0 := Subsingleton.elim _ _
    refine ⟨Int.natCast_nonneg v, ?_⟩
    show (v : ℤ) < ((2048 : ℕ) : ℤ)
    exact_mod_cast hv)]
  congr 1
  funext a
  obtain rfl : a = 0 := Subsingleton.elim _ _
  refine Fin.ext ?_
  show (scatter_S2048_S33554432x1_S33554432_n_0_0_1.start j idx 0
    + scatter_S2048_S33554432x1_S33554432_n_0_0_1.window j 0).toNat = v
  rw [hsum 0]
  exact Int.toNat_natCast v

/-! ## Update positions and pixels: the row-major bijection -/

/-- The flattening of the image, as a bijection: update position `n` of the flattened image is pixel
    `(n / 1024², n / 1024 mod 1024, n mod 1024)`, and pixel `(a, b, c)` is position `(a · 1024 + b) · 1024 + c`. -/
def flatEquiv : S33554432.Idx ≃ S32x1024x1024.Idx where
  toFun := Read.idx_main_v0
  invFun i := ix1 ⟨((i 0).val * 1024 + (i 1).val) * 1024 + (i 2).val, by
    have h0 : (i 0).val < 32 := (i 0).isLt
    have h1 : (i 1).val < 1024 := (i 1).isLt
    have h2 : (i 2).val < 1024 := (i 2).isLt
    omega⟩
  left_inv j := by
    funext a
    match a with
    | ⟨0, _⟩ =>
      refine Fin.ext ?_
      have h0 : (j 0).val < 33554432 := (j 0).isLt
      show ((j 0).val / 1048576 * 1024 + (j 0).val / 1024 % 1024) * 1024 + (j 0).val % 1024 = (j 0).val
      omega
  right_inv i := by
    have h0 : (i 0).val < 32 := (i 0).isLt
    have h1 : (i 1).val < 1024 := (i 1).isLt
    have h2 : (i 2).val < 1024 := (i 2).isLt
    funext a
    match a with
    | ⟨0, _⟩ =>
      refine Fin.ext ?_
      show (((i 0).val * 1024 + (i 1).val) * 1024 + (i 2).val) / 1048576 = (i 0).val
      omega
    | ⟨1, _⟩ =>
      refine Fin.ext ?_
      show (((i 0).val * 1024 + (i 1).val) * 1024 + (i 2).val) / 1024 % 1024 = (i 1).val
      omega
    | ⟨2, _⟩ =>
      refine Fin.ext ?_
      show (((i 0).val * 1024 + (i 1).val) * 1024 + (i 2).val) % 1024 = (i 2).val
      omega

/-! ## The histogram -/

/-- The reference's histogram (its scatter-add of ones at the pixels' labels into 2048 zeros) holds, at label l, the number of pixels carrying l. -/
theorem counts_eq (x0 : (⟨S32x1024x1024, .i32⟩ : BufTy).Contents (Elt Ideal)) (h : Cert.Spec.InDom x0) (l : S2048.Idx) :
    Cert.ReferenceIdeal.Read.val_main_v10 (F := Ideal) x0 l = BitVec.ofNat 32 (Cert.Spec.cnt x0 (l 0).val) := by
  unfold Read.val_main_v10
  rw [Cert.LibScatterCount.scatter_addOne_apply scatter_S2048_S33554432x1_S33554432_n_0_0_1 IntOp.addi _ _ _
    (fun a j => by rw [Read.val_main_v9_apply, Read.val_main_c_3_apply]; rfl) l,
    Read.val_main_v1_apply, Read.val_main_c_apply, BitVec.zero_add]
  refine congrArg (BitVec.ofNat 32) ?_
  unfold Cert.Spec.cnt
  refine Finset.card_equiv flatEquiv fun j => ?_
  simp only [Finset.mem_filter, Finset.mem_univ, true_and]
  have hp : (x0 (Read.idx_main_v0 j)).toNat < 2048 := h _
  rw [resultIdx_eq _ j _ hp (index_toInt x0 h j)]
  show some (ix1 ⟨(x0 (Read.idx_main_v0 j)).toNat, hp⟩) = some l ↔ (x0 (Read.idx_main_v0 j)).toNat = (l 0).val
  constructor
  · intro hs
    have := congrFun (Option.some.inj hs) 0
    exact congrArg Fin.val this
  · intro hv
    rw [eq_ix1 l]
    exact congrArg some (congrArg ix1 (Fin.ext hv))

end Cert.ReferenceIdeal.RefValue

end
-- ==== Proof.RefValue.lean ====
/-
  The reference's result, read off its run: under the label-range hypothesis it is the remapped image of the specification.
-/
import proofs.«413439_j36876589203620_2_alg».proof.Proof.Gen.ReferenceIdeal.Run
import proofs.«413439_j36876589203620_2_alg».proof.Proof.Gen.ReferenceIdeal.Read
import proofs.«413439_j36876589203620_2_alg».proof.Proof.Spec
import proofs.«413439_j36876589203620_2_alg».proof.Proof.RefCount
import Idealize.ShloMosaic.Lib.ValueIdx
import Idealize.ShloMosaic.Lib.StableHlo.Predicate

noncomputable section

namespace Cert.ReferenceIdeal.RefValue

open Idealize.ShloMosaic Idealize.ShloMosaic.ValueIdx Cert.ReferenceIdeal Cert.ReferenceIdeal.Gen

/-! ## The gather read at a pixel

The program's gather takes a rank-1 table of 2048 words and a [32, 1024, 1024, 1] array of start indices (the last
axis is the index vector's, of length one) to a [32, 1024, 1024] result: result element (a, b, c) is the table at the
start index idx[a, b, c, 0], read as a signed integer and clamped into [0, 2047]. -/

/-- The gather's dimension numbers. -/
abbrev G : GatherDims S2048 S32x1024x1024x1 S32x1024x1024 := gather_S2048_S32x1024x1024x1_S32x1024x1024_n_0_n_n_0_3_1

/-- The start-indices index [a, b, c, 0] of result index (a, b, c). -/
abbrev takeIdx3 (y : S32x1024x1024.Idx) : S32x1024x1024x1.Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- The gather read at a pixel: the table at the pixel's start index, read signed and clamped into [0, 2047]. -/
theorem gather_apply {α : Type} (x : S2048.Idx → α) (idx : IVec S32x1024x1024x1 32) (y : S32x1024x1024.Idx) :
    Host.gather G x idx y = x (ix1 ⟨min (idx (takeIdx3 y)).toInt.toNat 2047, by omega⟩) := by
  unfold Host.gather
  congr 1
  funext a
  obtain rfl : a = 0 := Subsingleton.elim _ _
  refine Fin.ext ?_
  show G.start y idx 0 + G.batchCoord y 0 + G.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ G.startIndexMap from List.mem_singleton.mpr rfl)]
  have hsi : G.siIdx y ⟨List.idxOf (0 : Fin 1) G.startIndexMap,
      List.idxOf_lt_length_iff.2 (List.mem_singleton.mpr rfl)⟩ = takeIdx3 y := by
    funext b; refine Fin.ext ?_
    match b with
    | ⟨0, _⟩ => rfl
    | ⟨1, _⟩ => rfl
    | ⟨2, _⟩ => rfl
    | ⟨3, _⟩ => rfl
  rw [hsi]
  rfl

/-! ## The start index of a pixel is the pixel's word

The reference adds 2048 to a negative word before it indexes (a negative index counts from the table's end). A label is not
negative, so the wrap leaves it alone; read signed it is its own value, and the clamp into [0, 2047] leaves it alone
too. -/

open Cert.ReferenceIdeal.Read Idealize.ShloMosaic.StableHlo.Predicate

/-- The value type of the image. -/
abbrev Img : Type := (⟨S32x1024x1024, .i32⟩ : BufTy).Contents (Elt Ideal)

/-- A label is below 2048. -/
theorem label_lt (x0 : Img) (h : Cert.Spec.InDom x0) (y : S32x1024x1024.Idx) : (x0 y).toNat < 2048 := h y

/-- The wrap of negative words leaves a label unchanged. -/
theorem wrap_label (x0 : Img) (h : Cert.Spec.InDom x0) (y : S32x1024x1024.Idx) :
    val_main_v27 (F := Ideal) x0 y = x0 y := by
  rw [val_main_v27_apply, val_main_v24_apply, val_main_v23_apply, val_main_c_9_apply]
  have hy : (x0 y).toNat < 2048 := h y
  have hc : ¬ IntOp.cmpi .slt (x0 y) 0#32 = 1#1 := by
    intro hc
    have h2 := (slt_iff_toNat (a := x0 y) (b := 0#32) (by omega) (by decide)).mp hc
    exact absurd h2 (Nat.not_lt_zero _)
  rw [eq_zero_of_ne_one hc, select_zero]

/-- The start indices at [a, b, c, 0] hold the pixel's word. -/
theorem start_label (x0 : Img) (h : Cert.Spec.InDom x0) (y : S32x1024x1024.Idx) :
    val_main_v28 (F := Ideal) x0 (takeIdx3 y) = x0 y := by
  rw [val_main_v28_apply]
  have hi : idx_main_v28 (takeIdx3 y) = y := by
    funext a
    match a with
    | ⟨0, _⟩ => rfl
    | ⟨1, _⟩ => rfl
    | ⟨2, _⟩ => rfl
  rw [hi, wrap_label x0 h y]

/-- The reference's result at a pixel is the remap table at the pixel's label. -/
theorem result_apply (x0 : Img) (h : Cert.Spec.InDom x0) (y : S32x1024x1024.Idx) :
    val_main_v29 (F := Ideal) x0 y = val_main_v22 (F := Ideal) x0 (ix1 ⟨(x0 y).toNat, label_lt x0 h y⟩) := by
  unfold val_main_v29
  rw [gather_apply]
  have hy : (x0 y).toNat < 2048 := h y
  congr 2
  refine Fin.ext ?_
  show min (val_main_v28 (F := Ideal) x0 (takeIdx3 y)).toInt.toNat 2047 = (x0 y).toNat
  rw [start_label x0 h y, toInt_eq_toNat_of_lt (by omega), Int.toNat_natCast]
  omega

/-! ## The remap table at a label

The table at label l is 0 when the label's bit is set and the word of l when it is not. The bit is
((false ∨ count < 10000) ∨ count > 20000) ∧ (l ≠ 0) over signed 32-bit compares; a count is at most 2²⁵, so its word
compares as the number does, and the bit is set exactly when the specification drops l. -/

/-- A one-bit disjunction is set exactly when one of its operands is. -/
theorem ori_eq_one (a b : BitVec 1) : IntOp.ori a b = 1#1 ↔ a = 1#1 ∨ b = 1#1 := by
  rcases BitVec.eq_zero_or_eq_one a with rfl | rfl <;> rcases BitVec.eq_zero_or_eq_one b with rfl | rfl <;> decide

/-- A one-bit conjunction is set exactly when both its operands are. -/
theorem andi_eq_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- The word of a label differs from the zero word exactly when the label is not 0. -/
theorem ne_zero_bit (l : ℕ) (hl : l < 2048) : IntOp.cmpi .ne (BitVec.ofNat 32 l) 0#32 = 1#1 ↔ l ≠ 0 := by
  simp only [IntOp.cmpi, ofBool_eq_one_iff, bne_iff_ne, ne_eq]
  constructor
  · intro h0 hl0; subst hl0; exact h0 rfl
  · intro h0 he
    have h1 := congrArg BitVec.toNat he
    rw [BitVec.toNat_ofNat] at h1
    have h2 : (0#32 : BitVec 32).toNat = 0 := rfl
    omega

/-- The table's condition at label l is set exactly when the specification drops l. -/
theorem bad_bit (x0 : Img) (h : Cert.Spec.InDom x0) (l : S2048.Idx) :
    val_main_v21 (F := Ideal) x0 l = 1#1 ↔ Cert.Spec.bad x0 (l 0).val := by
  rw [val_main_v21_apply, val_main_v18_apply, val_main_v15_apply, val_main_v12_apply, val_main_c_4_apply,
    val_main_v14_apply, val_main_v13_apply, val_main_c_5_apply, val_main_v17_apply, val_main_v16_apply,
    val_main_c_6_apply, val_main_v20_apply, val_main_v11_apply, val_main_v19_apply, val_main_c_7_apply,
    counts_eq x0 h l]
  have hc := Cert.Spec.cnt_le x0 (l 0).val
  have hl : (l 0).val < 2048 := (l 0).isLt
  unfold Cert.Spec.bad
  generalize Cert.Spec.cnt x0 (l 0).val = n at hc ⊢
  have hn : (BitVec.ofNat 32 n).toNat = n := by rw [BitVec.toNat_ofNat]; omega
  have e1 : (10000#32 : BitVec 32).toNat = 10000 := rfl
  have e2 : (20000#32 : BitVec 32).toNat = 20000 := rfl
  rw [andi_eq_one, ori_eq_one, ori_eq_one, slt_iff_toNat (by omega) (by decide), sgt_iff_toNat (by omega) (by decide),
    hn, e1, e2, ne_zero_bit _ hl]
  constructor
  · rintro ⟨(⟨h0 | h1⟩ | h2), h3⟩
    · exact absurd h0 (by decide)
    · exact ⟨Or.inl h1, h3⟩
    · exact ⟨Or.inr h2, h3⟩
  · rintro ⟨h1 | h2, h3⟩
    · exact ⟨Or.inl (Or.inr h1), h3⟩
    · exact ⟨Or.inr h2, h3⟩

/-- The table sends a dropped label to the background. -/
theorem table_bad (x0 : Img) (h : Cert.Spec.InDom x0) (l : S2048.Idx) (hb : Cert.Spec.bad x0 (l 0).val) :
    val_main_v22 (F := Ideal) x0 l = 0#32 := by
  rw [val_main_v22_apply, (bad_bit x0 h l).mpr hb, select_one, val_main_call1_v0_apply, val_main_c_8_apply]

/-- The table keeps a label that is not dropped. -/
theorem table_good (x0 : Img) (h : Cert.Spec.InDom x0) (l : S2048.Idx) (hb : ¬ Cert.Spec.bad x0 (l 0).val) :
    val_main_v22 (F := Ideal) x0 l = BitVec.ofNat 32 (l 0).val := by
  rw [val_main_v22_apply, eq_zero_of_ne_one (mt (bad_bit x0 h l).mp hb), select_zero, val_main_v11_apply]

/-- Under the label-range hypothesis the reference's result is the specification's remapped image. -/
theorem ref_eq (x0 : (⟨S32x1024x1024, .i32⟩ : BufTy).Contents (Elt Ideal)) (h : Cert.Spec.InDom x0) :
    Cert.ReferenceIdeal.Read.val_main_v29 (F := Ideal) x0 = Cert.Spec.out x0 := by
  funext y
  rw [result_apply x0 h y]
  unfold Cert.Spec.out
  have hw : BitVec.ofNat 32 (x0 y).toNat = x0 y := by
    apply BitVec.eq_of_toNat_eq
    rw [BitVec.toNat_ofNat]
    exact Nat.mod_eq_of_lt (x0 y).isLt
  by_cases hb : Cert.Spec.bad x0 (x0 y).toNat
  · rw [if_pos hb]
    exact table_bad x0 h (ix1 ⟨(x0 y).toNat, label_lt x0 h y⟩) hb
  · rw [if_neg hb, table_good x0 h (ix1 ⟨(x0 y).toNat, label_lt x0 h y⟩) hb]
    exact hw

end Cert.ReferenceIdeal.RefValue

end
-- ==== Proof.lean ====
/-
  The proof of `Cert.Claim`: the two programs run to the end and leave the image unchanged, and on an image
  all of whose pixels are labels they compute the same remapped image.

  Both programs take an image of 32 × 1024 × 1024 words.  A pixel is a label when its word, read unsigned, is
  below 2048; the claim's precondition says every pixel is one (Proof/Pre.lean reads it back).  For such an image
  the result keeps every pixel whose label is carried by at least 10000 and at most 20000 pixels, keeps the
  background label 0, and sends every other pixel to 0 (Proof/Spec.lean states this once, `Cert.Spec.out`).

  The reference counts the labels by a scatter of ones, forms the table of dropped labels and gathers the table at
  the image: Proof/RefCount.lean reads the scatter as the histogram, Proof/RefValue.lean the gather as the
  remapped image.  The kernel flattens the image to 32768 rows, counts the labels of each half of the rows by
  products of one-hot matrices over a grid of row blocks, adds the two halves' counts, builds the table, and
  remaps the rows block by block with a second product; Proof/KI/ runs it (the two pipelines' block functions,
  their bodies' triples, the run of the whole program), Proof/KV/ reads the blocks' values as counts and
  remapped words and joins them to the specification, and Proof/K/ runs the word-level program the same way.

  The frames are the runs read at the argument; the idealization rewrote no operation; and the value claim joins
  the kernel's result and the reference's at `Cert.Spec.out` of the common image.
-/
import proofs.«413439_j36876589203620_2_alg».proof.Defs
import proofs.«413439_j36876589203620_2_alg».proof.Proof.Gen.Kernel
import proofs.«413439_j36876589203620_2_alg».proof.Proof.Gen.KernelIdeal
import proofs.«413439_j36876589203620_2_alg».proof.Proof.Gen.ReferenceIdeal
import proofs.«413439_j36876589203620_2_alg».proof.Proof.Gen.Pre_any_inputs
import proofs.«413439_j36876589203620_2_alg».proof.Proof.Gen.ReferenceIdeal.Run
import proofs.«413439_j36876589203620_2_alg».proof.Proof.Gen.ReferenceIdeal.Read
import proofs.«413439_j36876589203620_2_alg».proof.Proof.K.Run
import proofs.«413439_j36876589203620_2_alg».proof.Proof.KI.Run
import proofs.«413439_j36876589203620_2_alg».proof.Proof.KV.KernelValue
import proofs.«413439_j36876589203620_2_alg».proof.Proof.Pre
import proofs.«413439_j36876589203620_2_alg».proof.Proof.RefValue
import Idealize.ShloMosaic.Adequacy
import Idealize.ShloMosaic.Init

noncomputable section

open Idealize.ShloMosaic Idealize.ShloMosaic.TcCoe Idealize.SL.Sem

/-! ## The claims -/

namespace Cert.Proof.Claims

/-- The word-level kernel runs and leaves the image as launched. -/
theorem frame_p : Cert.frame_Kernel := fun m ρ _ => Cert.Kernel.Hand.frame (F := Bits) m ρ

/-- The idealized kernel runs and leaves the image as launched. -/
theorem frame_pi : Cert.frame_KernelIdeal := fun m ρ _ => Cert.KernelIdeal.Hand.frame (F := Ideal) m ρ

/-- The reference runs and leaves the image as launched: its run, read at the argument. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to show. -/
theorem preserves : Cert.preserves_Kernel_KernelIdeal := trivial

/-- From memories agreeing on an image of labels, the kernel's result and the reference's are both the
    specification's remapped image of it. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Hand.kernel_value m c (Cert.PreDecode.inDom_of_pre _ (hpre c))), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, hagree c]
    exact Cert.ReferenceIdeal.RefValue.ref_eq _ (Cert.PreDecode.inDom_of_pre _ (hpre c))

end Cert.Proof.Claims

namespace Cert.Proof

theorem claim : Cert.Claim :=
  ⟨Cert.Kernel.Gen.facts, Cert.KernelIdeal.Gen.facts, Cert.ReferenceIdeal.Gen.facts, Cert.Pre_any_inputs.Gen.facts,
    Claims.frame_p, Claims.frame_pi, Claims.frame_ri, Claims.preserves, Claims.algebraic⟩

end Cert.Proof

end
